-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x256 : Shape := ⟨3, ![8, 1024, 256]⟩
abbrev S8192x256 : Shape := ⟨2, ![8192, 256]⟩
abbrev S_ : Shape := ⟨0, ![]⟩

class Facts : Prop where
  bcast_S_S8x1024x256 : S_.BroadcastsInDim S8x1024x256 (![] : Fin 0 → Fin S8x1024x256.rank)
  reducesTo_S8x1024x256_S_d0_1_2 : S8x1024x256.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8x1024x256 .f32) (main_arg1 : FVec F S8192x256 .f32) : IVec S_ 1 :=
  let main_v0 : FVec F S8x1024x256 .f32 := Host.absf main_arg0
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  let main_c : IVec S_ 1 := constantI S_ 1 1#1
  let main_v3 : IVec S_ 1 := (fun x v => Host.reduce IntOp.andi x v reducesTo_S8x1024x256_S_d0_1_2 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8x1024x256 : Shape := ⟨3, ![8, 1024, 256]⟩
abbrev S8192x256 : Shape := ⟨2, ![8192, 256]⟩
abbrev S1x1 : Shape := ⟨2, ![1, 1]⟩
abbrev S256x256 : Shape := ⟨2, ![256, 256]⟩
abbrev S256x8192 : Shape := ⟨2, ![256, 8192]⟩
abbrev S1x8192 : Shape := ⟨2, ![1, 8192]⟩
abbrev S264x8192 : Shape := ⟨2, ![264, 8192]⟩
abbrev S8192 : Shape := ⟨1, ![8192]⟩
abbrev S256 : Shape := ⟨1, ![256]⟩
abbrev S256x1 : Shape := ⟨2, ![256, 1]⟩
abbrev S1x256x256 : Shape := ⟨3, ![1, 256, 256]⟩
abbrev S1 : Shape := ⟨1, ![1]⟩
abbrev S1x1x1 : Shape := ⟨3, ![1, 1, 1]⟩
abbrev S256x8 : Shape := ⟨2, ![256, 8]⟩
abbrev S256x264 : Shape := ⟨2, ![256, 264]⟩
abbrev S1x1x8192 : Shape := ⟨3, ![1, 1, 8192]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S8x1024x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S1x1, .f32⟩
  | .hbm, ⟨5, _⟩ => ⟨S1x1, .f32⟩
  | .hbm, ⟨6, _⟩ => ⟨S8x1024x256, .f32⟩
  | .hbm, ⟨7, _⟩ => ⟨S_, .f32⟩
  | .hbm, ⟨8, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S256x256, .f32⟩
  | .local _ .vmem, ⟨4, _⟩ => ⟨S256x256, .f32⟩
  | .local _ .vmem, ⟨5, _⟩ => ⟨S1x1, .f32⟩
  | .local _ .vmem, ⟨6, _⟩ => ⟨S1x1, .f32⟩
  | .local _ .vmem, ⟨7, _⟩ => ⟨S8192x256, .bf16⟩
  | .local _ .vmem, ⟨8, _⟩ => ⟨S256x8192, .bf16⟩
  | .local _ .vmem, ⟨9, _⟩ => ⟨S1x8192, .f32⟩
  | .local _ .vmem, ⟨10, _⟩ => ⟨S264x8192, .f32⟩
  | .local _ .vmem, ⟨11, _⟩ => ⟨S1x1, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v55 : BitVec 1 := Scalar.cmpi .eq arg0 c31_i32
  let v56 : BitVec 32 := Scalar.extui v55
  let c0_i32_29 : BitVec 32 := 0#32
  let v57 : BitVec 1 := Scalar.cmpi .ne v56 c0_i32_29
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S8x1024x256_S8192x256 : S8x1024x256.ShapeCasts S8192x256
  inb_S8192x256_S8192x256_0_0 : ∀ a, (![0, 0] : Fin 2 → Nat) a + S8192x256.size a ≤ S8192x256.size a
  h_S8192x256 : 0 < S8192x256.numel
  transposes_S8192x256_p1_0_S256x8192 : S8192x256.Transposes [1, 0] S256x8192
  bitsLt_bf16_f32 : FTy.bits .bf16 < FTy.bits .f32
  shapeCasts_S8192x256_S8192x256 : S8192x256.ShapeCasts S8192x256
  packedbf16_S8192x256_S8192x256_0_0 : (Rect.unit (s := S8192x256) ![0, 0] S8192x256.size inb_S8192x256_S8192x256_0_0).PackedRows (EltTy.packing .bf16)
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  packedbf16_S256x8192_S256x8192_0_0 : (Rect.unit (s := S256x8192) ![0, 0] S256x8192.size inb_S256x8192_S256x8192_0_0).PackedRows (EltTy.packing .bf16)
  reduces_S256x8192_S8192 : S256x8192.Reduces [0] S8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x8192_S256x8192 : S1x8192.Broadcasts S256x8192
  reduces_S256x8192_S256 : S256x8192.Reduces [1] S256
  shapeCasts_S256_S256x1 : S256.ShapeCasts S256x1
  broadcasts_S256x1_S256x8192 : S256x1.Broadcasts S256x8192
  inb_S1x1_S1x1_0_0 : ∀ a, (![0, 0] : Fin 2 → Nat) a + S1x1.size a ≤ S1x1.size a
  h_S1x1 : 0 < S1x1.numel
  shapeCasts_S256x256_S1x256x256 : S256x256.ShapeCasts S1x256x256
  reduces_S1x256x256_S1 : S1x256x256.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  concatenates_S256x256_S256x8_S256x264_d1 : Shape.Concatenates [S256x256, S256x8] S256x264 1
  inb_S264x8192_S264x8192_0_0 : ∀ a, (![0, 0] : Fin 2 → Nat) a + S264x8192.size a ≤ S264x8192.size a
  h_S264x8192 : 0 < S264x8192.numel
  shapeCasts_S264x8192_S264x8192 : S264x8192.ShapeCasts S264x8192
  slices_S264x8192_o256_0_S1x8192 : S264x8192.Slices ![256, 0] S1x8192
  shapeCasts_S1x8192_S1x1x8192 : S1x8192.ShapeCasts S1x1x8192
  reduces_S1x1x8192_S1 : S1x1x8192.Reduces [1, 2] S1
  broadcasts_S1x1_S1x8192 : S1x1.Broadcasts S1x8192
  slices_S264x8192_o0_0_S256x8192 : S264x8192.Slices ![0, 0] S256x8192
  shapeCasts_S8192x256_S8x1024x256 : S8192x256.ShapeCasts S8x1024x256
  shapeCasts_S1x1_S_ : S1x1.ShapeCasts S_
  dot_S256x256_S256x8192_S256x8192_1_0_0_1_n_n_wf : DotDims.WF S256x256 S256x8192 S256x8192 [1] [0] [0] [1] [] []
  dot_S256x8192_S8192x256_S256x256_1_0_0_1_n_n_wf : DotDims.WF S256x8192 S8192x256 S256x256 [1] [0] [0] [1] [] []
  dot_S256x264_S256x8192_S264x8192_0_0_1_1_n_n_wf : DotDims.WF S256x264 S256x8192 S264x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x256.size a
  hwx0_2 : ∀ i : grid0.Coords, EltTy.bits .f32 = 32 ∨ (Rect.block (s := S8192x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x264_S256x8192_S264x8192_0_0_1_1_n_n : DotDims S256x264 S256x8192 S264x8192 where
  lhsContracting := [0]
  rhsContracting := [0]
  lhsNonContracting := [1]
  rhsNonContracting := [1]
  lhsBatch := []
  rhsBatch := []
  wf := dot_S256x264_S256x8192_S264x8192_0_0_1_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x1024x256 : Shape := ⟨3, ![8, 1024, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 148
  | .vmem => 0
  | .smem => 0
  | _ => 0

abbrev hbmTy0_0 (i : Nat) : BufTy := match i % 128 with
  | 0 => ⟨S8x1024x256, .f32⟩
  | 1 => ⟨S8192x256, .f32⟩
  | 2 => ⟨S8192x256, .f32⟩
  | 3 => ⟨S8192x256, .f32⟩
  | 4 => ⟨S_, .f32⟩
  | 5 => ⟨S8192, .f32⟩
  | 6 => ⟨S8192x1, .f32⟩
  | 7 => ⟨S8192x256, .f32⟩
  | 8 => ⟨S_, .f32⟩
  | 9 => ⟨S8192, .f32⟩
  | 10 => ⟨S1x8192, .f32⟩
  | 11 => ⟨S8192x8192, .f32⟩
  | 12 => ⟨S8192x8192, .f32⟩
  | 13 => ⟨S8192x8192, .f32⟩
  | 14 => ⟨S256x8192, .f32⟩
  | 15 => ⟨S8192x8192, .f32⟩
  | 16 => ⟨S_, .f32⟩
  | 17 => ⟨S8192x8192, .f32⟩
  | 18 => ⟨S8192x8192, .f32⟩
  | 19 => ⟨S8192x8192, .f32⟩
  | 20 => ⟨S8192x8192, .f32⟩
  | 21 => ⟨S_, .f32⟩
  | 22 => ⟨S8192x8192, .f32⟩
  | 23 => ⟨S8192x8192, .f32⟩
  | 24 => ⟨S_, .f32⟩
  | 25 => ⟨S8192, .f32⟩
  | 26 => ⟨S_, .f32⟩
  | 27 => ⟨S8192, .f32⟩
  | 28 => ⟨S8192, .f32⟩
  | 29 => ⟨S8192x1, .f32⟩
  | 30 => ⟨S8192x8192, .f32⟩
  | 31 => ⟨S8192x8192, .f32⟩
  | 32 => ⟨S8192x8192, .f32⟩
  | 33 => ⟨S_, .f32⟩
  | 34 => ⟨S8192, .f32⟩
  | 35 => ⟨S8192x1, .f32⟩
  | 36 => ⟨S8192x8192, .f32⟩
  | 37 => ⟨S8192x8192, .f32⟩
  | 38 => ⟨S8192x256, .f32⟩
  | 39 => ⟨S8x1024x256, .f32⟩
  | 40 => ⟨S_, .f32⟩
  | 41 => ⟨S8192, .f32⟩
  | 42 => ⟨S_, .f32⟩
  | 43 => ⟨S8192, .f32⟩
  | 44 => ⟨S8192, .f32⟩
  | 45 => ⟨S_, .f32⟩
  | 46 => ⟨S8192, .f32⟩
  | 47 => ⟨S_, .f32⟩
  | 48 => ⟨S8192, .f32⟩
  | 49 => ⟨S8192, .f32⟩
  | 50 => ⟨S8192, .f32⟩
  | 51 => ⟨S_, .f32⟩
  | 52 => ⟨S_, .f32⟩
  | 53 => ⟨S_, .f32⟩
  | 54 => ⟨S8192, .f32⟩
  | 55 => ⟨S8192, .f32⟩
  | 56 => ⟨S_, .f32⟩
  | 57 => ⟨S_, .f32⟩
  | 58 => ⟨S8192, .f32⟩
  | 59 => ⟨S8192, .f32⟩
  | 60 => ⟨S8192, .f32⟩
  | 61 => ⟨S8192, .f32⟩
  | 62 => ⟨S8192x8192, .f32⟩
  | 63 => ⟨S8192x256, .f32⟩
  | 64 => ⟨S_, .f32⟩
  | 65 => ⟨S8192x256, .f32⟩
  | 66 => ⟨S_, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S8192x256, .f32⟩
  | 73 => ⟨S8192x1, .f32⟩
  | 74 => ⟨S8192x256, .f32⟩
  | 75 => ⟨S8192x256, .f32⟩
  | 76 => ⟨S_, .f32⟩
  | 77 => ⟨S8192, .f32⟩
  | 78 => ⟨S_, .f32⟩
  | 79 => ⟨S8192, .f32⟩
  | 80 => ⟨S8192, .f32⟩
  | 81 => ⟨S_, .f32⟩
  | 82 => ⟨S8192, .f32⟩
  | 83 => ⟨S_, .f32⟩
  | 84 => ⟨S8192, .f32⟩
  | 85 => ⟨S8192, .f32⟩
  | 86 => ⟨S8192, .f32⟩
  | 87 => ⟨S8x1024x256, .f32⟩
  | 88 => ⟨S8x1024x256, .f32⟩
  | 89 => ⟨S_, .f32⟩
  | 90 => ⟨S_, .f32⟩
  | 91 => ⟨S_, .f32⟩
  | 92 => ⟨S_, .f32⟩
  | 93 => ⟨S8x1024x256, .f32⟩
  | 94 => ⟨S8x1024x256, .f32⟩
  | 95 => ⟨S_, .f32⟩
  | 96 => ⟨S_, .f32⟩
  | 97 => ⟨S_, .f32⟩
  | 98 => ⟨S_, .f32⟩
  | 99 => ⟨S8192x256, .f32⟩
  | 100 => ⟨S_, .f32⟩
  | 101 => ⟨S_, .f32⟩
  | 102 => ⟨S_, .f32⟩
  | 103 => ⟨S8192, .f32⟩
  | 104 => ⟨S_, .f32⟩
  | 105 => ⟨S8192, .f32⟩
  | 106 => ⟨S8192, .f32⟩
  | 107 => ⟨S_, .f32⟩
  | 108 => ⟨S8192, .f32⟩
  | 109 => ⟨S8192, .f32⟩
  | 110 => ⟨S8192, .f32⟩
  | 111 => ⟨S8192, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S8192, .f32⟩
  | 120 => ⟨S8192, .f32⟩
  | 121 => ⟨S_, .f32⟩
  | 122 => ⟨S8192, .f32⟩
  | 123 => ⟨S8192, .f32⟩
  | 124 => ⟨S8192, .f32⟩
  | 125 => ⟨S8192, .f32⟩
  | 126 => ⟨S_, .f32⟩
  | 127 => ⟨S_, .f32⟩
  | _ => ⟨S8x1024x256, .f32⟩

abbrev hbmTy0_1 (i : Nat) : BufTy := match i % 128 with
  | 0 => ⟨S_, .f32⟩
  | 1 => ⟨S_, .f32⟩
  | 2 => ⟨S8192, .f32⟩
  | 3 => ⟨S8192, .f32⟩
  | 4 => ⟨S8192, .f32⟩
  | 5 => ⟨S8192, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S8x1024x256, .f32⟩
  | 19 => ⟨S8x1024x256, .f32⟩
  | _ => ⟨S8x1024x256, .f32⟩

abbrev hbmTy (i : Nat) : BufTy := match i / 128 with
  | 0 => hbmTy0_0 i
  | 1 => hbmTy0_1 i
  | _ => ⟨S8x1024x256, .f32⟩

abbrev bufTy : (tb : Table) → Fin (tcTables nBuf tb) → BufTy
  | .hbm, ⟨i, _⟩ => hbmTy i
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_v50 : Ref sig .tc := ⟨.hbm, 68, rfl⟩
abbrev main_cst_15 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_16 : Ref sig .tc := ⟨.hbm, 76, rfl⟩
abbrev main_v57 : Ref sig .tc := ⟨.hbm, 77, rfl⟩
abbrev main_cst_17 : Ref sig .tc := ⟨.hbm, 78, rfl⟩
abbrev main_v58 : Ref sig .tc := ⟨.hbm, 79, rfl⟩
abbrev main_v59 : Ref sig .tc := ⟨.hbm, 80, rfl⟩
abbrev main_cst_18 : Ref sig .tc := ⟨.hbm, 81, rfl⟩
abbrev main_v60 : Ref sig .tc := ⟨.hbm, 82, rfl⟩
abbrev main_cst_19 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_20 : Ref sig .tc := ⟨.hbm, 89, rfl⟩
abbrev main_v66 : Ref sig .tc := ⟨.hbm, 90, rfl⟩
abbrev main_cst_21 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_22 : Ref sig .tc := ⟨.hbm, 95, rfl⟩
abbrev main_v70 : Ref sig .tc := ⟨.hbm, 96, rfl⟩
abbrev main_cst_23 : Ref sig .tc := ⟨.hbm, 97, rfl⟩
abbrev main_v71 : Ref sig .tc := ⟨.hbm, 98, rfl⟩
abbrev main_v72 : Ref sig .tc := ⟨.hbm, 99, rfl⟩
abbrev main_cst_24 : Ref sig .tc := ⟨.hbm, 100, rfl⟩
abbrev main_v73 : Ref sig .tc := ⟨.hbm, 101, rfl⟩
abbrev main_cst_25 : Ref sig .tc := ⟨.hbm, 102, rfl⟩
abbrev main_v74 : Ref sig .tc := ⟨.hbm, 103, rfl⟩
abbrev main_cst_26 : Ref sig .tc := ⟨.hbm, 104, rfl⟩
abbrev main_v75 : Ref sig .tc := ⟨.hbm, 105, rfl⟩
abbrev main_v76 : Ref sig .tc := ⟨.hbm, 106, rfl⟩
abbrev main_cst_27 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_28 : Ref sig .tc := ⟨.hbm, 112, rfl⟩
abbrev main_v81 : Ref sig .tc := ⟨.hbm, 113, rfl⟩
abbrev main_v82 : Ref sig .tc := ⟨.hbm, 114, rfl⟩
abbrev main_cst_29 : Ref sig .tc := ⟨.hbm, 115, rfl⟩
abbrev main_v83 : Ref sig .tc := ⟨.hbm, 116, rfl⟩
abbrev main_cst_30 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_31 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_32 : Ref sig .tc := ⟨.hbm, 126, rfl⟩
abbrev main_v91 : Ref sig .tc := ⟨.hbm, 127, rfl⟩
abbrev main_v92 : Ref sig .tc := ⟨.hbm, 128, rfl⟩
abbrev main_cst_33 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_34 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_35 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_36 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩

abbrev nD : Nat := 1
abbrev τ : Topo := Topo.v7x

variable {F : FTy → Type} [FloatOps F]

class Facts₀ : Prop where
  shapeCasts_S8x1024x256_S8192x256 : S8x1024x256.ShapeCasts S8192x256
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  shapeCasts_S8192x256_S8x1024x256 : S8192x256.ShapeCasts S8x1024x256
  reducesTo_S8192x8192_S8192_d0 : S8192x8192.ReducesTo [0] S8192
  reducesTo_S8192_S_d0 : S8192.ReducesTo [0] S_
  transposes_S8192x8192_S8192x8192_1_0 : S8192x8192.Transposes [1, 0] S8192x8192
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  reducesTo_S8x1024x256_S_d0_1_2 : S8x1024x256.ReducesTo [0, 1, 2] S_
  reducesTo_S8192x256_S_d0_1 : S8192x256.ReducesTo [0, 1] S_
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Bits.Step.lean ====
/-
  What one grid point of the vector-quantizer kernel leaves in each buffer, as explicit terms over the
  kernel's payloads (the skeleton's `k0_payN`), at any float instance `F`.

  The kernel keeps five scratch buffers across its 32 grid points: the codebook `e` in its two operand
  layouts (`s0 = e`, `s1 = eᵀ + eᵀ`), the squared norms of the code vectors (`s2`), the accumulated
  statistics matrix (`s3`: rows 0..255 the products xᵀ·enc summed over the row tiles seen so far, rows 256..263
  the column sums of enc) and the accumulated squared error (`s4`). The first point writes `s0, s1, s2`
  from the codebook block and starts the two accumulators from zero (the select on `program_id == 0` discards
  whatever the scratch held); every later point adds its tile's contribution; the last point also computes the
  two scalar results from the final accumulators.
-/
import proofs.«135943_g45775761441265_cont_8to1_c_906_25_alg».proof.Proof.Gen.Kernel.Skeleton
import Idealize.ShloMosaic.Lib.ValueIdx

noncomputable section

namespace Cert.Kernel.Hand

open Idealize.ShloMosaic Idealize.SL.Sem Cert.Kernel Cert.Kernel.Gen

variable {F : FTy → Type} [FloatOps F]

/-- The grid coordinate as the kernel's 32-bit `program_id`. -/
abbrev pid (i : grid0.Coords) : BitVec 32 := BitVec.ofNat 32 (i 0).val

/-- The codebook scratch the first point writes: `e` itself (a change of format), -/
abbrev prep0 (e : Vec F S8192x256 .f32) : FVec F S8192x256 .bf16 := k0_pay15 e
/-- its transpose doubled, -/
abbrev prep1 (e : Vec F S8192x256 .f32) : FVec F S256x8192 .bf16 := k0_pay16 e
/-- and the squared norm of each code vector. -/
abbrev prep2 (e : Vec F S8192x256 .f32) : FVec F S1x8192 .f32 := k0_pay17 e

/-- The soft assignments of the tile's rows (softmax of 2·x·eᵀ − ‖e‖² along the codes), from the tile `x` and
    the scratch `s1`, `s2`. -/
abbrev encT (x : Vec F S256x256 .f32) (s1 : Vec F S256x8192 .bf16) (s2 : Vec F S1x8192 .f32) : FVec F S256x8192 .bf16 :=
  k0_pay20 x s2 s1

/-- The output tile: x + (enc·e − x). -/
abbrev outT (x : Vec F S256x256 .f32) (s0 : Vec F S8192x256 .bf16) (s1 : Vec F S256x8192 .bf16) (s2 : Vec F S1x8192 .f32) :
    FVec F S256x256 .f32 := k0_pay22 x s2 s1 s0

/-- The squared-error accumulator after the point, from what it held before (`s4`; discarded at the first point). -/
abbrev sqT (i : grid0.Coords) (x : Vec F S256x256 .f32) (s0 : Vec F S8192x256 .bf16) (s1 : Vec F S256x8192 .bf16)
    (s2 : Vec F S1x8192 .f32) (s4 : Vec F S1x1 .f32) : FVec F S1x1 .f32 :=
  k0_pay2 (k0_pay23 i s4) (k0_pay24 x s2 s1 s0)

/-- The statistics accumulator after the point as the kernel's value `%51`, from what it held before (`s3`; discarded at the first point). -/
abbrev statV (i : grid0.Coords) (x : Vec F S256x256 .f32) (s1 : Vec F S256x8192 .bf16) (s2 : Vec F S1x8192 .f32)
    (s3 : Vec F S264x8192 .f32) : FVec F S264x8192 .f32 :=
  k0_pay3 (pid i) (k0_pay19 x) (encT x s1 s2) s3
/-- The same as stored (through the kernel's identity shape cast). -/
abbrev statT (i : grid0.Coords) (x : Vec F S256x256 .f32) (s1 : Vec F S256x8192 .bf16) (s2 : Vec F S1x8192 .f32)
    (s3 : Vec F S264x8192 .f32) : FVec F S264x8192 .f32 :=
  k0_pay4 (pid i) (k0_pay19 x) (encT x s1 s2) s3

/-- The loss the last point stores, from the scratch it found. -/
abbrev lossT (i : grid0.Coords) (x : Vec F S256x256 .f32) (s0 : Vec F S8192x256 .bf16) (s1 : Vec F S256x8192 .bf16)
    (s2 : Vec F S1x8192 .f32) (s3 : Vec F S264x8192 .f32) (s4 : Vec F S1x1 .f32) : FVec F S1x1 .f32 :=
  k0_pay5 (pid i) (k0_pay19 x) (encT x s1 s2) (k0_pay23 i s4) (k0_pay24 x s2 s1 s0) s3
    (k0_pay8 (statV i x s1 s2 s3)) (k0_pay9 (statV i x s1 s2 s3)) (k0_pay11 (statV i x s1 s2 s3))
    (k0_pay12 (statV i x s1 s2 s3)) (k0_pay13 (F := F))

/-- The perplexity the last point stores. -/
abbrev perpT (i : grid0.Coords) (x : Vec F S256x256 .f32) (s1 : Vec F S256x8192 .bf16)
    (s2 : Vec F S1x8192 .f32) (s3 : Vec F S264x8192 .f32) : FVec F S1x1 .f32 :=
  k0_pay6 (k0_pay8 (statV i x s1 s2 s3))

/-- What a point leaves: the three output staging buffers and the five scratch buffers. -/
structure Pt (F : FTy → Type) [FloatOps F] where
  o2 : Vec F S256x256 .f32
  o3 : Vec F S1x1 .f32
  o4 : Vec F S1x1 .f32
  s0 : Vec F S8192x256 .bf16
  s1 : Vec F S256x8192 .bf16
  s2 : Vec F S1x8192 .f32
  s3 : Vec F S264x8192 .f32
  s4 : Vec F S1x1 .f32

/-- A placeholder for contents nothing reads (the accumulators before the first point; the scalar outputs where they are idle). -/
abbrev junk (S : Shape) : Vec F S .f32 := broadcast S (Scalar.ofBits .f32 0x00000000#32)

/-- The first point (coordinates `i`, tile `x`, codebook block `e`): it writes the codebook scratch and starts the accumulators. -/
def ptFirst (i : grid0.Coords) (x : Vec F S256x256 .f32) (e : Vec F S8192x256 .f32) : Pt F where
  o2 := outT x (prep0 e) (prep1 e) (prep2 e)
  o3 := junk S1x1
  o4 := junk S1x1
  s0 := prep0 e
  s1 := prep1 e
  s2 := prep2 e
  s3 := statT i x (prep1 e) (prep2 e) (junk S264x8192)
  s4 := sqT i x (prep0 e) (prep1 e) (prep2 e) (junk S1x1)

/-- A later point that is not the last: the accumulators advance, the codebook scratch stays. -/
def ptMid (i : grid0.Coords) (x : Vec F S256x256 .f32) (p : Pt F) : Pt F where
  o2 := outT x p.s0 p.s1 p.s2
  o3 := junk S1x1
  o4 := junk S1x1
  s0 := p.s0
  s1 := p.s1
  s2 := p.s2
  s3 := statT i x p.s1 p.s2 p.s3
  s4 := sqT i x p.s0 p.s1 p.s2 p.s4

/-- The last point: as a middle one, and the two scalar results are stored. -/
def ptLast (i : grid0.Coords) (x : Vec F S256x256 .f32) (p : Pt F) : Pt F where
  o2 := outT x p.s0 p.s1 p.s2
  o3 := lossT i x p.s0 p.s1 p.s2 p.s3 p.s4
  o4 := perpT i x p.s1 p.s2 p.s3
  s0 := p.s0
  s1 := p.s1
  s2 := p.s2
  s3 := statT i x p.s1 p.s2 p.s3
  s4 := sqT i x p.s0 p.s1 p.s2 p.s4

/-- What the points leave, by recursion on the point's position `n` in the grid's order, from the tiles `xs` of the
    first operand (one per point) and the codebook block `e`. -/
def ptAt (xs : (n : ℕ) → n < 32 → Vec F S256x256 .f32) (e : Vec F S8192x256 .f32) : (n : ℕ) → n < 32 → Pt F
  | 0, h => ptFirst (grid0.coords ⟨0, h⟩) (xs 0 h) e
  | n + 1, h =>
    if n + 1 = 31 then ptLast (grid0.coords ⟨n + 1, h⟩) (xs (n + 1) h) (ptAt xs e n (Nat.lt_of_succ_lt h))
    else ptMid (grid0.coords ⟨n + 1, h⟩) (xs (n + 1) h) (ptAt xs e n (Nat.lt_of_succ_lt h))

theorem ptAt_zero (xs : (n : ℕ) → n < 32 → Vec F S256x256 .f32) (e : Vec F S8192x256 .f32) (h : 0 < 32) :
    ptAt xs e 0 h = ptFirst (grid0.coords ⟨0, h⟩) (xs 0 h) e := rfl

theorem ptAt_mid (xs : (n : ℕ) → n < 32 → Vec F S256x256 .f32) (e : Vec F S8192x256 .f32) (n : ℕ) (h : n + 1 < 32)
    (hn : n + 1 ≠ 31) :
    ptAt xs e (n + 1) h = ptMid (grid0.coords ⟨n + 1, h⟩) (xs (n + 1) h) (ptAt xs e n (Nat.lt_of_succ_lt h)) := by
  show (if n + 1 = 31 then _ else _) = _
  rw [if_neg hn]

theorem ptAt_last (xs : (n : ℕ) → n < 32 → Vec F S256x256 .f32) (e : Vec F S8192x256 .f32) (h : 30 + 1 < 32) :
    ptAt xs e 31 h = ptLast (grid0.coords ⟨31, h⟩) (xs 31 h) (ptAt xs e 30 (Nat.lt_of_succ_lt h)) := by
  show (if 30 + 1 = 31 then _ else _) = _
  rw [if_pos rfl]

/-- The comparison `0 == 0` on 32-bit words is the true bit. -/
theorem cmpi_eq_zero_zero : Scalar.cmpi .eq (0#32) (0#32) = 1#1 := by decide

/-- The first point's accumulators do not depend on what the scratch held: the select on `program_id == 0` takes the zero splat. -/
theorem statT_first (i : grid0.Coords) (hi : pid i = 0#32) (x : Vec F S256x256 .f32) (s1 : Vec F S256x8192 .bf16)
    (s2 : Vec F S1x8192 .f32) (s3 s3' : Vec F S264x8192 .f32) : statT i x s1 s2 s3 = statT i x s1 s2 s3' := by
  show k0_pay4 (pid i) (k0_pay19 x) (encT x s1 s2) s3 = k0_pay4 (pid i) (k0_pay19 x) (encT x s1 s2) s3'
  rw [hi]
  unfold k0_pay4 k0_pay3
  simp only [cmpi_eq_zero_zero, ValueIdx.select_one]

theorem sqT_first (i : grid0.Coords) (hi : pid i = 0#32) (x : Vec F S256x256 .f32) (s0 : Vec F S8192x256 .bf16)
    (s1 : Vec F S256x8192 .bf16) (s2 : Vec F S1x8192 .f32) (s4 s4' : Vec F S1x1 .f32) :
    sqT i x s0 s1 s2 s4 = sqT i x s0 s1 s2 s4' := by
  have hi' : BitVec.ofNat 32 (i 0).val = 0#32 := hi
  have h : k0_pay23 i s4 = k0_pay23 i s4' := by
    unfold k0_pay23
    simp only [hi', cmpi_eq_zero_zero, ValueIdx.select_one]
  show k0_pay2 (k0_pay23 i s4) (k0_pay24 x s2 s1 s0) = k0_pay2 (k0_pay23 i s4') (k0_pay24 x s2 s1 s0)
  rw [h]

end Cert.Kernel.Hand

end
-- ==== Proof.Bits.Runs.lean ====
/-
  What the three control cases of the vector-quantizer kernel's body share: the two branch conditions in closed
  form over the grid, where the two scalar output windows are idle, the staging and scratch memrefs at a point,
  and the region invariant's class form over the five scratch buffers.
-/
import proofs.«135943_g45775761441265_cont_8to1_c_906_25_alg».proof.Proof.Gen.Kernel.Frame
import proofs.«135943_g45775761441265_cont_8to1_c_906_25_alg».proof.Proof.Gen.Kernel.Skeleton
import proofs.«135943_g45775761441265_cont_8to1_c_906_25_alg».proof.Proof.Bits.Step
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions -/

/-- The condition of the first `scf.if` (the codebook preparation): `program_id == 0`, as the kernel computes it. -/
abbrev condFirst (i : grid0.Coords) : Prop :=
  (Scalar.cmpi .ne (Scalar.extui (Scalar.cmpi .eq (BitVec.ofNat 32 (i 0).val) 0#32)) 0#32) = 1#1
/-- It holds at the first point only. -/
theorem hcondFirst : ∀ t : Fin cfg0.N, condFirst (grid0.coords t) ↔ t.val = 0 :=
  (by decide +kernel : ∀ t : Fin grid0.N, condFirst (grid0.coords t) ↔ t.val = 0)

/-- The condition of the second `scf.if` (the two scalar results): `program_id == 31`. -/
abbrev condLast (i : grid0.Coords) : Prop := k0_cond2 i = 1#1
/-- It holds at the last point only. -/
theorem hcondLast : ∀ t : Fin cfg0.N, condLast (grid0.coords t) ↔ t.val = 31 :=
  (by decide +kernel : ∀ t : Fin grid0.N, condLast (grid0.coords t) ↔ t.val = 31)

/-- The first point's `program_id` is the zero word. -/
theorem pid_first : ∀ t : Fin cfg0.N, t.val = 0 → pid (grid0.coords t) = 0#32 :=
  (by decide +kernel : ∀ t : Fin grid0.N, t.val = 0 → pid (grid0.coords t) = 0#32)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from the last point the two scalar windows are idle and not written back. -/
theorem idleAt3 : ∀ t : Fin cfg0.N, ¬condLast (grid0.coords t) → cfg0.idle 3 (grid0.coords t) = true := by decide +kernel
theorem idleAt4 : ∀ t : Fin cfg0.N, ¬condLast (grid0.coords t) → cfg0.idle 4 (grid0.coords t) = true := by decide +kernel
theorem noFlush3 : ∀ t : Fin cfg0.N, ¬condLast (grid0.coords t) → (cfg0.win 3).flush t = false := by decide +kernel
theorem noFlush4 : ∀ t : Fin cfg0.N, ¬condLast (grid0.coords t) → (cfg0.win 4).flush t = false := by decide +kernel
/-- At the last point they are live. -/
theorem liveAt3 : ∀ t : Fin cfg0.N, condLast (grid0.coords t) → cfg0.idle 3 (grid0.coords t) = false := by decide +kernel
theorem liveAt4 : ∀ t : Fin cfg0.N, condLast (grid0.coords t) → cfg0.idle 4 (grid0.coords t) = false := by decide +kernel

/-! ## The memrefs the body is called with -/

abbrev ms0 (t : Fin cfg0.N) : Memref sig .tc .vmem S256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The five scratch operands: whole scoped buffers of the kernel's own. -/
abbrev sc0 : Memref sig .tc .vmem S8192x256 .bf16 := Memref.whole cc0_scratch0
abbrev sc1 : Memref sig .tc .vmem S256x8192 .bf16 := Memref.whole cc0_scratch1
abbrev sc2 : Memref sig .tc .vmem S1x8192 .f32 := Memref.whole cc0_scratch2
abbrev sc3 : Memref sig .tc .vmem S264x8192 .f32 := Memref.whole cc0_scratch3
abbrev sc4 : Memref sig .tc .vmem S1x1 .f32 := Memref.whole cc0_scratch4

/-- The class invariant with the scratch operands as memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d)) ∗ (∃ r, prngReg c r)) := by
  unfold Pipeline.ΦA; rw [scopedRest0_eq]; simp only [sc0, sc1, sc2, sc3, sc4, owns_whole]; try rfl

/-- The all-zero offset of a whole-buffer access, however the zeros are spelt. -/
theorem hz2 : (![0, 0] : Fin 2 → Nat) = fun _ => 0 := by
  funext a; match a with | ⟨0, _⟩ => rfl | ⟨1, _⟩ => rfl

/-! ## Reading a whole-buffer access back -/

/-- One store through the whole-buffer rectangle leaves its payload, whatever the buffer held. -/
theorem read_writes_unit {sp : Space} {S : Shape} {e : EltTy} (m : Memref sig .tc sp S e)
    (f : m.view.ty.Contents (Elt F)) {off : Fin S.rank → Nat} (h : off = fun _ => 0)
    (inb : ∀ a, off a + S.size a ≤ S.size a) (w : S.Idx → Elt F e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- A load through the whole-buffer rectangle of a whole memref at contents `X` reads `X`. -/
theorem readAt_unread_unit {sp : Space} {S : Shape} {e : EltTy} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

end Cert.Kernel.Hand

end
-- ==== Proof.Bits.RunFirst.lean ====
/-
  The body of the vector-quantizer kernel at the first grid point, run whole: it prepares the codebook scratch from the
  codebook block, leaves the output tile, and starts the two accumulators from zero whatever the scratch held.
-/
import proofs.«135943_g45775761441265_cont_8to1_c_906_25_alg».proof.Proof.Bits.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The first point's body: it prepares the codebook scratch from the codebook block and starts the two accumulators;
    whatever the five scratch buffers held is not read into any result. -/
theorem runFirst (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole)
    (hc0 : condFirst i) (hc1 : ¬condLast i) (hi : pid i = 0#32)
    (x : Vec F S256x256 .f32) (e : Vec F S8192x256 .f32) (E : Set ℕ) (K : PUnit → sProp 𝕄) :
    iprop(owns (c : Thread nD τ) arg1 fullShare x ∗ owns (c : Thread nD τ) arg2 fullShare e ∗ (∃ d, owns (c : Thread nD τ) arg3 fullShare d)
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x ∗ owns (c : Thread nD τ) arg2 fullShare e
            ∗ owns (c : Thread nD τ) arg3 fullShare (outT x (prep0 e) (prep1 e) (prep2 e))
            ∗ owns (c : Thread nD τ) arg6 fullShare (prep0 e) ∗ owns (c : Thread nD τ) arg7 fullShare (prep1 e) ∗ owns (c : Thread nD τ) arg8 fullShare (prep2 e)
            ∗ owns (c : Thread nD τ) arg9 fullShare (statT i x (prep1 e) (prep2 e) (junk S264x8192))
            ∗ owns (c : Thread nD τ) arg10 fullShare (sqT i x (prep0 e) (prep1 e) (prep2 e) (junk S1x1))) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  simp only [cc0__vq_body_eq_skeleton]
  unfold cc0__vq_body_skel
  unfold owns
  iintro ⟨⟨%f1, %hf1, H1⟩, ⟨%f2, %hf2, H2⟩, ⟨%d3, %f3, -, H3⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    try rfl
  isplitl [H6]
  · iexists _; isplitr
    swap; · iexact H6
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    try rfl
  isplitl [H7]
  · iexists _; isplitr
    swap; · iexact H7
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    try rfl
  isplitl [H8]
  · iexists _; isplitr
    swap; · iexact H8
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    try rfl
  isplitl [H9]
  · iexists _; isplitr
    swap; · iexact H9
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    exact statT_first i hi x (prep1 e) (prep2 e) _ _
  · iexists _; isplitr
    swap; · iexact H10
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    exact sqT_first i hi x (prep0 e) (prep1 e) (prep2 e) _ _

end Cert.Kernel.Hand

end
-- ==== Proof.Bits.RunMid.lean ====
/-
  The body of the vector-quantizer kernel at a middle grid point (neither the first nor the last), run whole:
  what it leaves in the output tile's staging buffer and in the two accumulators, over the payloads of Step.lean.
-/
import proofs.«135943_g45775761441265_cont_8to1_c_906_25_alg».proof.Proof.Bits.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A middle point's body: it reads the tile and the five scratch buffers, leaves the output tile and advances the
    two accumulators; the codebook scratch is untouched. -/
theorem runMid (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole)
    (hc0 : ¬condFirst i) (hc1 : ¬condLast i)
    (x : Vec F S256x256 .f32) (s0 : Vec F S8192x256 .bf16) (s1 : Vec F S256x8192 .bf16) (s2 : Vec F S1x8192 .f32)
    (s3 : Vec F S264x8192 .f32) (s4 : Vec F S1x1 .f32) (E : Set ℕ) (K : PUnit → sProp 𝕄) :
    iprop(owns (c : Thread nD τ) arg1 fullShare x ∗ (∃ d, owns (c : Thread nD τ) arg3 fullShare d)
        ∗ owns (c : Thread nD τ) arg6 fullShare s0 ∗ owns (c : Thread nD τ) arg7 fullShare s1 ∗ owns (c : Thread nD τ) arg8 fullShare s2
        ∗ owns (c : Thread nD τ) arg9 fullShare s3 ∗ owns (c : Thread nD τ) arg10 fullShare s4
        ∗ (iprop(owns (c : Thread nD τ) arg1 fullShare x ∗ owns (c : Thread nD τ) arg3 fullShare (outT x s0 s1 s2)
            ∗ owns (c : Thread nD τ) arg6 fullShare s0 ∗ owns (c : Thread nD τ) arg7 fullShare s1 ∗ owns (c : Thread nD τ) arg8 fullShare s2
            ∗ owns (c : Thread nD τ) arg9 fullShare (statT i x s1 s2 s3) ∗ owns (c : Thread nD τ) arg10 fullShare (sqT i x s0 s1 s2 s4)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  simp only [cc0__vq_body_eq_skeleton]
  unfold cc0__vq_body_skel
  unfold owns
  iintro ⟨⟨%f1, %hf1, H1⟩, ⟨%d3, %f3, -, H3⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H3]
  · iexists _; isplitr
    swap; · iexact H3
    ipureintro
    rw [read_writes_unit _ _ hz2]
    simp only [readAt_unread_unit (S := S256x256) harg1 hz2, readAt_unread_unit (S := S256x256) harg3 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2]
    try rfl
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [read_writes_unit _ _ hz2]
    sl_unfold_run_names
    simp only [readAt_unread_unit (S := S256x256) harg1 hz2, readAt_unread_unit (S := S256x256) harg3 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2]
    try rfl
  · iexists _; isplitr
    swap; · iexact H10
    ipureintro
    rw [read_writes_unit _ _ hz2]
    sl_unfold_run_names
    simp only [readAt_unread_unit (S := S256x256) harg1 hz2, readAt_unread_unit (S := S256x256) harg3 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2]
    try rfl

end Cert.Kernel.Hand

end
-- ==== Proof.Bits.RunLast.lean ====
/-
  The body of the vector-quantizer kernel at the last grid point, run whole: a middle point's work, and the two scalar
  results stored from the final accumulators.
-/
import proofs.«135943_g45775761441265_cont_8to1_c_906_25_alg».proof.Proof.Bits.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The last point's body: as a middle point's, and it stores the two scalar results computed from the final accumulators. -/
theorem runLast (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole)
    (hc0 : ¬condFirst i) (hc1 : condLast i)
    (x : Vec F S256x256 .f32) (s0 : Vec F S8192x256 .bf16) (s1 : Vec F S256x8192 .bf16) (s2 : Vec F S1x8192 .f32)
    (s3 : Vec F S264x8192 .f32) (s4 : Vec F S1x1 .f32) (E : Set ℕ) (K : PUnit → sProp 𝕄) :
    iprop(owns (c : Thread nD τ) arg1 fullShare x ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1 ∗ owns (c : Thread nD τ) arg8 fullShare s2
        ∗ owns (c : Thread nD τ) arg9 fullShare s3 ∗ owns (c : Thread nD τ) arg10 fullShare s4
        ∗ (iprop(owns (c : Thread nD τ) arg1 fullShare x ∗ owns (c : Thread nD τ) arg3 fullShare (outT x s0 s1 s2)
            ∗ owns (c : Thread nD τ) arg4 fullShare (lossT i x s0 s1 s2 s3 s4) ∗ owns (c : Thread nD τ) arg5 fullShare (perpT i x s1 s2 s3)
            ∗ owns (c : Thread nD τ) arg6 fullShare s0 ∗ owns (c : Thread nD τ) arg7 fullShare s1 ∗ owns (c : Thread nD τ) arg8 fullShare s2
            ∗ owns (c : Thread nD τ) arg9 fullShare (statT i x s1 s2 s3) ∗ owns (c : Thread nD τ) arg10 fullShare (sqT i x s0 s1 s2 s4)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  simp only [cc0__vq_body_eq_skeleton]
  unfold cc0__vq_body_skel
  unfold owns
  iintro ⟨⟨%f1, %hf1, H1⟩, ⟨%d3, %f3, -, H3⟩, ⟨%d4, %f4, -, H4⟩, ⟨%d5, %f5, -, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H3]
  · iexists _; isplitr
    swap; · iexact H3
    ipureintro
    sl_unfold_run_names
    rw [read_writes_unit _ _ hz2]
    simp only [readAt_unread_unit (S := S256x256) harg1 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S264x8192) _ hz2, View.readCov_unit_zero (S := S1x1) _ hz2]
    try rfl
  isplitl [H4]
  · iexists _; isplitr
    swap; · iexact H4
    ipureintro
    sl_unfold_run_names
    rw [read_writes_unit _ _ hz2]
    simp only [readAt_unread_unit (S := S256x256) harg1 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S264x8192) _ hz2, View.readCov_unit_zero (S := S1x1) _ hz2]
    try rfl
  isplitl [H5]
  · iexists _; isplitr
    swap; · iexact H5
    ipureintro
    sl_unfold_run_names
    rw [read_writes_unit _ _ hz2]
    simp only [readAt_unread_unit (S := S256x256) harg1 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S264x8192) _ hz2, View.readCov_unit_zero (S := S1x1) _ hz2]
    try rfl
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_run_names
    rw [read_writes_unit _ _ hz2]
    simp only [readAt_unread_unit (S := S256x256) harg1 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S264x8192) _ hz2, View.readCov_unit_zero (S := S1x1) _ hz2]
    try rfl
  · iexists _; isplitr
    swap; · iexact H10
    ipureintro
    sl_unfold_run_names
    rw [read_writes_unit _ _ hz2]
    simp only [readAt_unread_unit (S := S256x256) harg1 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S264x8192) _ hz2, View.readCov_unit_zero (S := S1x1) _ hz2]
    try rfl

end Cert.Kernel.Hand

end
-- ==== Proof.Bits.Frame.lean ====
/-
  The frame certificate of the vector-quantizer kernel program: the proof data of its one pipeline over Step.lean's
  points (what each grid point leaves in the three output staging buffers and the five scratch buffers), the body
  obligation by the three control cases' runs, the run of @main around the region, and the frame claim.
-/
import proofs.«135943_g45775761441265_cont_8to1_c_906_25_alg».proof.Proof.Bits.RunFirst
import proofs.«135943_g45775761441265_cont_8to1_c_906_25_alg».proof.Proof.Bits.RunMid
import proofs.«135943_g45775761441265_cont_8to1_c_906_25_alg».proof.Proof.Bits.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points' inputs and what they leave -/

/-- A position in the grid's order is below 32. -/
theorem lt32 {n : ℕ} (h : n < cfg0.N) : n < 32 := lt_of_lt_of_eq h (show cfg0.N = 32 from N_0)

/-- The first operand's tile at each point: window 0's block there. -/
def xsOf (c : Dev nD) : (n : ℕ) → n < 32 → Vec F S256x256 .f32 :=
  fun n h => iblk m c 0 ⟨n, lt_of_lt_of_eq h (show 32 = cfg0.N from N_0.symm)⟩

/-- The codebook block: window 1's block (its index map is constant; the first point's is taken). -/
def eOf (c : Dev nD) : Vec F S8192x256 .f32 :=
  iblk m c 1 ⟨0, lt_of_lt_of_eq (by decide : 0 < 32) (show 32 = cfg0.N from N_0.symm)⟩

/-- What point `t` leaves, by Step.lean's recursion over the points before it. -/
def pts (c : Dev nD) (t : Fin cfg0.N) : Pt F :=
  ptAt (xsOf m c) (eOf m c) t.val (lt32 t.isLt)

/-- The same at a position `n` given with its bound. -/
def ptN (c : Dev nD) (n : ℕ) (h : n < cfg0.N) : Pt F := ptAt (xsOf m c) (eOf m c) n (lt32 h)

theorem pts_eq_ptN (c : Dev nD) (t : Fin cfg0.N) : pts m c t = ptN m c t.val t.isLt := rfl

/-- The region invariant before position `n`: before the first point the class's (every scratch at some contents);
    afterwards the five scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) sc0 fullShare (ptN m c n hn).s0 ∗ owns (c : Thread nD τ) sc1 fullShare (ptN m c n hn).s1
      ∗ owns (c : Thread nD τ) sc2 fullShare (ptN m c n hn).s2 ∗ owns (c : Thread nD τ) sc3 fullShare (ptN m c n hn).s3
      ∗ owns (c : Thread nD τ) sc4 fullShare (ptN m c n hn).s4) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (pts m c t).o2
    | ⟨3, _⟩ => (pts m c t).o3
    | ⟨4, _⟩ => (pts m c t).o4
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (pts m c t).o2 := by dsimp only [dats]
theorem after0_3 (c : Dev nD) (t : Fin cfg0.N) : (dats m 0 c).after 3 t = (pts m c t).o3 := by dsimp only [dats]
theorem after0_4 (c : Dev nD) (t : Fin cfg0.N) : (dats m 0 c).after 4 t = (pts m c t).o4 := by dsimp only [dats]

/-! ## The points, case by case -/

theorem pts_first (c : Dev nD) (t : Fin cfg0.N) (h0 : t.val = 0) :
    pts m c t = ptFirst (grid0.coords t) (iblk m c 0 t) (eOf m c) := by
  obtain ⟨n, hn⟩ := t
  cases n with
  | zero => rfl
  | succ n => exact absurd h0 (Nat.succ_ne_zero n)

theorem pts_mid (c : Dev nD) (t : Fin cfg0.N) (h0 : t.val ≠ 0) (h1 : t.val ≠ 31) :
    pts m c t = ptMid (grid0.coords t) (iblk m c 0 t) (ptN m c (t.val - 1) (Nat.lt_of_le_of_lt (Nat.sub_le _ _) t.isLt)) := by
  obtain ⟨n, hn⟩ := t
  cases n with
  | zero => exact absurd rfl h0
  | succ n => exact ptAt_mid (xsOf m c) (eOf m c) n (lt32 hn) h1

theorem pts_last (c : Dev nD) (t : Fin cfg0.N) (h1 : t.val = 31) :
    pts m c t = ptLast (grid0.coords t) (iblk m c 0 t) (ptN m c (t.val - 1) (Nat.lt_of_le_of_lt (Nat.sub_le _ _) t.isLt)) := by
  obtain ⟨n, hn⟩ := t
  dsimp only at h1
  subst h1
  exact ptAt_last (xsOf m c) (eOf m c) (lt32 hn)

/-- At the first point the codebook block is the one `eOf` names. -/
theorem eOf_eq (c : Dev nD) (t : Fin cfg0.N) (h0 : t.val = 0) : eOf m c = iblk m c 1 t := by
  obtain ⟨n, hn⟩ := t
  dsimp only at h0
  subst h0
  rfl

/-! ## The invariant, point by point -/

theorem PhiS_zero (c : Dev nD) (n : ℕ) (h : n ≤ cfg0.N) (hz : n = 0) : PhiS m c n h = Pipeline.ΦA spec0 c := by
  subst hz; rfl

/-- After point `t`: the scratch at what it left. -/
theorem PhiS_succ (c : Dev nD) (t : Fin cfg0.N) :
    PhiS m c (t.val + 1) t.isLt = iprop(iprop(owns (c : Thread nD τ) sc0 fullShare (pts m c t).s0 ∗ owns (c : Thread nD τ) sc1 fullShare (pts m c t).s1
      ∗ owns (c : Thread nD τ) sc2 fullShare (pts m c t).s2 ∗ owns (c : Thread nD τ) sc3 fullShare (pts m c t).s3
      ∗ owns (c : Thread nD τ) sc4 fullShare (pts m c t).s4) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) sc0 fullShare (ptN m c (n - 1) (by omega)).s0 ∗ owns (c : Thread nD τ) sc1 fullShare (ptN m c (n - 1) (by omega)).s1
      ∗ owns (c : Thread nD τ) sc2 fullShare (ptN m c (n - 1) (by omega)).s2 ∗ owns (c : Thread nD τ) sc3 fullShare (ptN m c (n - 1) (by omega)).s3
      ∗ owns (c : Thread nD τ) sc4 fullShare (ptN m c (n - 1) (by omega)).s4) ∗ (∃ r, prngReg c r)) := by
  cases n with
  | zero => exact absurd rfl hz
  | succ n => rfl

theorem PhiS_castSucc (c : Dev nD) (t : Fin cfg0.N) :
    (dats m 0 c).Φ t.castSucc = PhiS m c t.val (Nat.le_of_lt t.isLt) := by
  dsimp only [dats]; simp only [Fin.coe_castSucc]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point: the closed forms of the two conditions say which of the three cases the point is in; the
    case's run applies, the invariant handing it the scratch (at anything before the first point, else at what the point
    before left) and taking it back at what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  rw [show (dats m 0 c).leavesExact 2 t = owns (c : Thread nD τ) (ms2 t) fullShare ((dats m 0 c).after 2 t) from by
    unfold Dat.leavesExact; rw [liveAt2 t], after0_2]
  by_cases h0 : t.val = 0
  · have hcF : condFirst (grid0.coords t) := (hcondFirst t).mpr h0
    have hcL : ¬condLast (grid0.coords t) := fun h => by have := (hcondLast t).mp h; omega
    rw [Dat.leavesExact_idle (dats m 0 c) 3 t (idleAt3 t hcL) (noFlush3 t hcL),
      Dat.leavesExact_idle (dats m 0 c) 4 t (idleAt4 t hcL) (noFlush4 t hcL)]
    rw [pts_first m c t h0, eOf_eq m c t h0]
    dsimp only [ptFirst]
    rw [PhiS_castSucc m c t, PhiS_zero m c _ _ h0, PhiA0_eq]
    iintro ⟨⟨⟨HS0, HS1, HS2, HS3, HS4⟩, Hg⟩, Ho, ⟨%d0, H0⟩, ⟨%d1, H1⟩, ⟨%d2, H2⟩, ⟨%d3, H3⟩, ⟨%d4, H4⟩⟩
    iapply (runFirst c (grid0.coords t) _ _ _ _ _ _ _ _ _ _ _ _ _ _ _ _ _ _ _ _ hcF hcL (pid_first t h0) (iblk m c 0 t) (iblk m c 1 t) Set.univ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    iintro ⟨H0, H1, H2, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexists _; iexact H3
    iexists _; iexact H4
  · by_cases h1 : t.val = 31
    · have hcF : ¬condFirst (grid0.coords t) := fun h => h0 ((hcondFirst t).mp h)
      have hcL : condLast (grid0.coords t) := (hcondLast t).mpr h1
      rw [show (dats m 0 c).leavesExact 3 t = owns (c : Thread nD τ) (ms3 t) fullShare ((dats m 0 c).after 3 t) from by
        unfold Dat.leavesExact; rw [liveAt3 t hcL], after0_3]
      rw [show (dats m 0 c).leavesExact 4 t = owns (c : Thread nD τ) (ms4 t) fullShare ((dats m 0 c).after 4 t) from by
        unfold Dat.leavesExact; rw [liveAt4 t hcL], after0_4]
      rw [pts_last m c t h1]
      dsimp only [ptLast]
      rw [PhiS_castSucc m c t, PhiS_pos m c _ _ h0]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runLast c (grid0.coords t) _ _ _ _ _ _ _ _ _ _ _ _ _ _ _ _ _ _ _ _ hcF hcL (iblk m c 0 t) _ _ _ _ _ Set.univ _)
      isplitl [H0]; · iexact H0
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H2, H3, H4, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      iexact H4
    · have hcF : ¬condFirst (grid0.coords t) := fun h => h0 ((hcondFirst t).mp h)
      have hcL : ¬condLast (grid0.coords t) := fun h => h1 ((hcondLast t).mp h)
      rw [Dat.leavesExact_idle (dats m 0 c) 3 t (idleAt3 t hcL) (noFlush3 t hcL),
        Dat.leavesExact_idle (dats m 0 c) 4 t (idleAt4 t hcL) (noFlush4 t hcL)]
      rw [pts_mid m c t h0 h1]
      dsimp only [ptMid]
      rw [PhiS_castSucc m c t, PhiS_pos m c _ _ h0]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runMid c (grid0.coords t) _ _ _ _ _ _ _ _ _ _ _ _ _ _ _ _ _ _ _ _ hcF hcL (iblk m c 0 t) _ _ _ _ _ Set.univ _)
      isplitl [H0]; · iexact H0
      isplitl [H2]; · iexists _; iexact H2
      isplitl [HS0]; · iexact HS0
      isplitl [HS1]; · iexact HS1
      isplitl [HS2]; · iexact HS2
      isplitl [HS3]; · iexact HS3
      isplitl [HS4]; · iexact HS4
      iintro ⟨H0, H2, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main on the TensorCores terminates, and every final state has every array of the
    pipeline at what the library computes from the proof data and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any `F`: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.Ideal.Step.lean ====
/-
  What one grid point of the vector-quantizer kernel leaves in each buffer, as explicit terms over the
  kernel's payloads (the skeleton's `k0_payN`), at any float instance `F`.

  The kernel keeps five scratch buffers across its 32 grid points: the codebook `e` in its two operand
  layouts (`s0 = e`, `s1 = eᵀ + eᵀ`), the squared norms of the code vectors (`s2`), the accumulated
  statistics matrix (`s3`: rows 0..255 the products xᵀ·enc summed over the row tiles seen so far, rows 256..263
  the column sums of enc) and the accumulated squared error (`s4`). The first point writes `s0, s1, s2`
  from the codebook block and starts the two accumulators from zero (the select on `program_id == 0` discards
  whatever the scratch held); every later point adds its tile's contribution; the last point also computes the
  two scalar results from the final accumulators.
-/
import proofs.«135943_g45775761441265_cont_8to1_c_906_25_alg».proof.Proof.Gen.KernelIdeal.Skeleton
import Idealize.ShloMosaic.Lib.ValueIdx

noncomputable section

namespace Cert.KernelIdeal.Hand

open Idealize.ShloMosaic Idealize.SL.Sem Cert.KernelIdeal Cert.KernelIdeal.Gen

variable {F : FTy → Type} [FloatOps F]

/-- The grid coordinate as the kernel's 32-bit `program_id`. -/
abbrev pid (i : grid0.Coords) : BitVec 32 := BitVec.ofNat 32 (i 0).val

/-- The codebook scratch the first point writes: `e` itself (a change of format), -/
abbrev prep0 (e : Vec F S8192x256 .f32) : FVec F S8192x256 .bf16 := k0_pay15 e
/-- its transpose doubled, -/
abbrev prep1 (e : Vec F S8192x256 .f32) : FVec F S256x8192 .bf16 := k0_pay16 e
/-- and the squared norm of each code vector. -/
abbrev prep2 (e : Vec F S8192x256 .f32) : FVec F S1x8192 .f32 := k0_pay17 e

/-- The soft assignments of the tile's rows (softmax of 2·x·eᵀ − ‖e‖² along the codes), from the tile `x` and
    the scratch `s1`, `s2`. -/
abbrev encT (x : Vec F S256x256 .f32) (s1 : Vec F S256x8192 .bf16) (s2 : Vec F S1x8192 .f32) : FVec F S256x8192 .bf16 :=
  k0_pay20 x s2 s1

/-- The output tile: x + (enc·e − x). -/
abbrev outT (x : Vec F S256x256 .f32) (s0 : Vec F S8192x256 .bf16) (s1 : Vec F S256x8192 .bf16) (s2 : Vec F S1x8192 .f32) :
    FVec F S256x256 .f32 := k0_pay22 x s2 s1 s0

/-- The squared-error accumulator after the point, from what it held before (`s4`; discarded at the first point). -/
abbrev sqT (i : grid0.Coords) (x : Vec F S256x256 .f32) (s0 : Vec F S8192x256 .bf16) (s1 : Vec F S256x8192 .bf16)
    (s2 : Vec F S1x8192 .f32) (s4 : Vec F S1x1 .f32) : FVec F S1x1 .f32 :=
  k0_pay2 (k0_pay23 i s4) (k0_pay24 x s2 s1 s0)

/-- The statistics accumulator after the point as the kernel's value `%51`, from what it held before (`s3`; discarded at the first point). -/
abbrev statV (i : grid0.Coords) (x : Vec F S256x256 .f32) (s1 : Vec F S256x8192 .bf16) (s2 : Vec F S1x8192 .f32)
    (s3 : Vec F S264x8192 .f32) : FVec F S264x8192 .f32 :=
  k0_pay3 (pid i) (k0_pay19 x) (encT x s1 s2) s3
/-- The same as stored (through the kernel's identity shape cast). -/
abbrev statT (i : grid0.Coords) (x : Vec F S256x256 .f32) (s1 : Vec F S256x8192 .bf16) (s2 : Vec F S1x8192 .f32)
    (s3 : Vec F S264x8192 .f32) : FVec F S264x8192 .f32 :=
  k0_pay4 (pid i) (k0_pay19 x) (encT x s1 s2) s3

/-- The loss the last point stores, from the scratch it found. -/
abbrev lossT (i : grid0.Coords) (x : Vec F S256x256 .f32) (s0 : Vec F S8192x256 .bf16) (s1 : Vec F S256x8192 .bf16)
    (s2 : Vec F S1x8192 .f32) (s3 : Vec F S264x8192 .f32) (s4 : Vec F S1x1 .f32) : FVec F S1x1 .f32 :=
  k0_pay5 (pid i) (k0_pay19 x) (encT x s1 s2) (k0_pay23 i s4) (k0_pay24 x s2 s1 s0) s3
    (k0_pay8 (statV i x s1 s2 s3)) (k0_pay9 (statV i x s1 s2 s3)) (k0_pay11 (statV i x s1 s2 s3))
    (k0_pay12 (statV i x s1 s2 s3)) (k0_pay13 (F := F))

/-- The perplexity the last point stores. -/
abbrev perpT (i : grid0.Coords) (x : Vec F S256x256 .f32) (s1 : Vec F S256x8192 .bf16)
    (s2 : Vec F S1x8192 .f32) (s3 : Vec F S264x8192 .f32) : FVec F S1x1 .f32 :=
  k0_pay6 (k0_pay8 (statV i x s1 s2 s3))

/-- What a point leaves: the three output staging buffers and the five scratch buffers. -/
structure Pt (F : FTy → Type) [FloatOps F] where
  o2 : Vec F S256x256 .f32
  o3 : Vec F S1x1 .f32
  o4 : Vec F S1x1 .f32
  s0 : Vec F S8192x256 .bf16
  s1 : Vec F S256x8192 .bf16
  s2 : Vec F S1x8192 .f32
  s3 : Vec F S264x8192 .f32
  s4 : Vec F S1x1 .f32

/-- A placeholder for contents nothing reads (the accumulators before the first point; the scalar outputs where they are idle). -/
abbrev junk (S : Shape) : Vec F S .f32 := broadcast S (Scalar.ofBits .f32 0x00000000#32)

/-- The first point (coordinates `i`, tile `x`, codebook block `e`): it writes the codebook scratch and starts the accumulators. -/
def ptFirst (i : grid0.Coords) (x : Vec F S256x256 .f32) (e : Vec F S8192x256 .f32) : Pt F where
  o2 := outT x (prep0 e) (prep1 e) (prep2 e)
  o3 := junk S1x1
  o4 := junk S1x1
  s0 := prep0 e
  s1 := prep1 e
  s2 := prep2 e
  s3 := statT i x (prep1 e) (prep2 e) (junk S264x8192)
  s4 := sqT i x (prep0 e) (prep1 e) (prep2 e) (junk S1x1)

/-- A later point that is not the last: the accumulators advance, the codebook scratch stays. -/
def ptMid (i : grid0.Coords) (x : Vec F S256x256 .f32) (p : Pt F) : Pt F where
  o2 := outT x p.s0 p.s1 p.s2
  o3 := junk S1x1
  o4 := junk S1x1
  s0 := p.s0
  s1 := p.s1
  s2 := p.s2
  s3 := statT i x p.s1 p.s2 p.s3
  s4 := sqT i x p.s0 p.s1 p.s2 p.s4

/-- The last point: as a middle one, and the two scalar results are stored. -/
def ptLast (i : grid0.Coords) (x : Vec F S256x256 .f32) (p : Pt F) : Pt F where
  o2 := outT x p.s0 p.s1 p.s2
  o3 := lossT i x p.s0 p.s1 p.s2 p.s3 p.s4
  o4 := perpT i x p.s1 p.s2 p.s3
  s0 := p.s0
  s1 := p.s1
  s2 := p.s2
  s3 := statT i x p.s1 p.s2 p.s3
  s4 := sqT i x p.s0 p.s1 p.s2 p.s4

/-- What the points leave, by recursion on the point's position `n` in the grid's order, from the tiles `xs` of the
    first operand (one per point) and the codebook block `e`. -/
def ptAt (xs : (n : ℕ) → n < 32 → Vec F S256x256 .f32) (e : Vec F S8192x256 .f32) : (n : ℕ) → n < 32 → Pt F
  | 0, h => ptFirst (grid0.coords ⟨0, h⟩) (xs 0 h) e
  | n + 1, h =>
    if n + 1 = 31 then ptLast (grid0.coords ⟨n + 1, h⟩) (xs (n + 1) h) (ptAt xs e n (Nat.lt_of_succ_lt h))
    else ptMid (grid0.coords ⟨n + 1, h⟩) (xs (n + 1) h) (ptAt xs e n (Nat.lt_of_succ_lt h))

theorem ptAt_zero (xs : (n : ℕ) → n < 32 → Vec F S256x256 .f32) (e : Vec F S8192x256 .f32) (h : 0 < 32) :
    ptAt xs e 0 h = ptFirst (grid0.coords ⟨0, h⟩) (xs 0 h) e := rfl

theorem ptAt_mid (xs : (n : ℕ) → n < 32 → Vec F S256x256 .f32) (e : Vec F S8192x256 .f32) (n : ℕ) (h : n + 1 < 32)
    (hn : n + 1 ≠ 31) :
    ptAt xs e (n + 1) h = ptMid (grid0.coords ⟨n + 1, h⟩) (xs (n + 1) h) (ptAt xs e n (Nat.lt_of_succ_lt h)) := by
  show (if n + 1 = 31 then _ else _) = _
  rw [if_neg hn]

theorem ptAt_last (xs : (n : ℕ) → n < 32 → Vec F S256x256 .f32) (e : Vec F S8192x256 .f32) (h : 30 + 1 < 32) :
    ptAt xs e 31 h = ptLast (grid0.coords ⟨31, h⟩) (xs 31 h) (ptAt xs e 30 (Nat.lt_of_succ_lt h)) := by
  show (if 30 + 1 = 31 then _ else _) = _
  rw [if_pos rfl]

/-- The comparison `0 == 0` on 32-bit words is the true bit. -/
theorem cmpi_eq_zero_zero : Scalar.cmpi .eq (0#32) (0#32) = 1#1 := by decide

/-- The first point's accumulators do not depend on what the scratch held: the select on `program_id == 0` takes the zero splat. -/
theorem statT_first (i : grid0.Coords) (hi : pid i = 0#32) (x : Vec F S256x256 .f32) (s1 : Vec F S256x8192 .bf16)
    (s2 : Vec F S1x8192 .f32) (s3 s3' : Vec F S264x8192 .f32) : statT i x s1 s2 s3 = statT i x s1 s2 s3' := by
  show k0_pay4 (pid i) (k0_pay19 x) (encT x s1 s2) s3 = k0_pay4 (pid i) (k0_pay19 x) (encT x s1 s2) s3'
  rw [hi]
  unfold k0_pay4 k0_pay3
  simp only [cmpi_eq_zero_zero, ValueIdx.select_one]

theorem sqT_first (i : grid0.Coords) (hi : pid i = 0#32) (x : Vec F S256x256 .f32) (s0 : Vec F S8192x256 .bf16)
    (s1 : Vec F S256x8192 .bf16) (s2 : Vec F S1x8192 .f32) (s4 s4' : Vec F S1x1 .f32) :
    sqT i x s0 s1 s2 s4 = sqT i x s0 s1 s2 s4' := by
  have hi' : BitVec.ofNat 32 (i 0).val = 0#32 := hi
  have h : k0_pay23 i s4 = k0_pay23 i s4' := by
    unfold k0_pay23
    simp only [hi', cmpi_eq_zero_zero, ValueIdx.select_one]
  show k0_pay2 (k0_pay23 i s4) (k0_pay24 x s2 s1 s0) = k0_pay2 (k0_pay23 i s4') (k0_pay24 x s2 s1 s0)
  rw [h]

end Cert.KernelIdeal.Hand

end
-- ==== Proof.Ideal.Runs.lean ====
/-
  What the three control cases of the vector-quantizer kernel's body share: the two branch conditions in closed
  form over the grid, where the two scalar output windows are idle, the staging and scratch memrefs at a point,
  and the region invariant's class form over the five scratch buffers.
-/
import proofs.«135943_g45775761441265_cont_8to1_c_906_25_alg».proof.Proof.Gen.KernelIdeal.Frame
import proofs.«135943_g45775761441265_cont_8to1_c_906_25_alg».proof.Proof.Gen.KernelIdeal.Skeleton
import proofs.«135943_g45775761441265_cont_8to1_c_906_25_alg».proof.Proof.Ideal.Step
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions -/

/-- The condition of the first `scf.if` (the codebook preparation): `program_id == 0`, as the kernel computes it. -/
abbrev condFirst (i : grid0.Coords) : Prop :=
  (Scalar.cmpi .ne (Scalar.extui (Scalar.cmpi .eq (BitVec.ofNat 32 (i 0).val) 0#32)) 0#32) = 1#1
/-- It holds at the first point only. -/
theorem hcondFirst : ∀ t : Fin cfg0.N, condFirst (grid0.coords t) ↔ t.val = 0 :=
  (by decide +kernel : ∀ t : Fin grid0.N, condFirst (grid0.coords t) ↔ t.val = 0)

/-- The condition of the second `scf.if` (the two scalar results): `program_id == 31`. -/
abbrev condLast (i : grid0.Coords) : Prop := k0_cond2 i = 1#1
/-- It holds at the last point only. -/
theorem hcondLast : ∀ t : Fin cfg0.N, condLast (grid0.coords t) ↔ t.val = 31 :=
  (by decide +kernel : ∀ t : Fin grid0.N, condLast (grid0.coords t) ↔ t.val = 31)

/-- The first point's `program_id` is the zero word. -/
theorem pid_first : ∀ t : Fin cfg0.N, t.val = 0 → pid (grid0.coords t) = 0#32 :=
  (by decide +kernel : ∀ t : Fin grid0.N, t.val = 0 → pid (grid0.coords t) = 0#32)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from the last point the two scalar windows are idle and not written back. -/
theorem idleAt3 : ∀ t : Fin cfg0.N, ¬condLast (grid0.coords t) → cfg0.idle 3 (grid0.coords t) = true := by decide +kernel
theorem idleAt4 : ∀ t : Fin cfg0.N, ¬condLast (grid0.coords t) → cfg0.idle 4 (grid0.coords t) = true := by decide +kernel
theorem noFlush3 : ∀ t : Fin cfg0.N, ¬condLast (grid0.coords t) → (cfg0.win 3).flush t = false := by decide +kernel
theorem noFlush4 : ∀ t : Fin cfg0.N, ¬condLast (grid0.coords t) → (cfg0.win 4).flush t = false := by decide +kernel
/-- At the last point they are live. -/
theorem liveAt3 : ∀ t : Fin cfg0.N, condLast (grid0.coords t) → cfg0.idle 3 (grid0.coords t) = false := by decide +kernel
theorem liveAt4 : ∀ t : Fin cfg0.N, condLast (grid0.coords t) → cfg0.idle 4 (grid0.coords t) = false := by decide +kernel

/-! ## The memrefs the body is called with -/

abbrev ms0 (t : Fin cfg0.N) : Memref sig .tc .vmem S256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The five scratch operands: whole scoped buffers of the kernel's own. -/
abbrev sc0 : Memref sig .tc .vmem S8192x256 .bf16 := Memref.whole cc0_scratch0
abbrev sc1 : Memref sig .tc .vmem S256x8192 .bf16 := Memref.whole cc0_scratch1
abbrev sc2 : Memref sig .tc .vmem S1x8192 .f32 := Memref.whole cc0_scratch2
abbrev sc3 : Memref sig .tc .vmem S264x8192 .f32 := Memref.whole cc0_scratch3
abbrev sc4 : Memref sig .tc .vmem S1x1 .f32 := Memref.whole cc0_scratch4

/-- The class invariant with the scratch operands as memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d)) ∗ (∃ r, prngReg c r)) := by
  unfold Pipeline.ΦA; rw [scopedRest0_eq]; simp only [sc0, sc1, sc2, sc3, sc4, owns_whole]; try rfl

/-- The all-zero offset of a whole-buffer access, however the zeros are spelt. -/
theorem hz2 : (![0, 0] : Fin 2 → Nat) = fun _ => 0 := by
  funext a; match a with | ⟨0, _⟩ => rfl | ⟨1, _⟩ => rfl

/-! ## Reading a whole-buffer access back -/

/-- One store through the whole-buffer rectangle leaves its payload, whatever the buffer held. -/
theorem read_writes_unit {sp : Space} {S : Shape} {e : EltTy} (m : Memref sig .tc sp S e)
    (f : m.view.ty.Contents (Elt F)) {off : Fin S.rank → Nat} (h : off = fun _ => 0)
    (inb : ∀ a, off a + S.size a ≤ S.size a) (w : S.Idx → Elt F e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- A load through the whole-buffer rectangle of a whole memref at contents `X` reads `X`. -/
theorem readAt_unread_unit {sp : Space} {S : Shape} {e : EltTy} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

end Cert.KernelIdeal.Hand

end
-- ==== Proof.Ideal.RunFirst.lean ====
/-
  The body of the vector-quantizer kernel at the first grid point, run whole: it prepares the codebook scratch from the
  codebook block, leaves the output tile, and starts the two accumulators from zero whatever the scratch held.
-/
import proofs.«135943_g45775761441265_cont_8to1_c_906_25_alg».proof.Proof.Ideal.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The first point's body: it prepares the codebook scratch from the codebook block and starts the two accumulators;
    whatever the five scratch buffers held is not read into any result. -/
theorem runFirst (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole)
    (hc0 : condFirst i) (hc1 : ¬condLast i) (hi : pid i = 0#32)
    (x : Vec F S256x256 .f32) (e : Vec F S8192x256 .f32) (E : Set ℕ) (K : PUnit → sProp 𝕄) :
    iprop(owns (c : Thread nD τ) arg1 fullShare x ∗ owns (c : Thread nD τ) arg2 fullShare e ∗ (∃ d, owns (c : Thread nD τ) arg3 fullShare d)
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x ∗ owns (c : Thread nD τ) arg2 fullShare e
            ∗ owns (c : Thread nD τ) arg3 fullShare (outT x (prep0 e) (prep1 e) (prep2 e))
            ∗ owns (c : Thread nD τ) arg6 fullShare (prep0 e) ∗ owns (c : Thread nD τ) arg7 fullShare (prep1 e) ∗ owns (c : Thread nD τ) arg8 fullShare (prep2 e)
            ∗ owns (c : Thread nD τ) arg9 fullShare (statT i x (prep1 e) (prep2 e) (junk S264x8192))
            ∗ owns (c : Thread nD τ) arg10 fullShare (sqT i x (prep0 e) (prep1 e) (prep2 e) (junk S1x1))) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  simp only [cc0__vq_body_eq_skeleton]
  unfold cc0__vq_body_skel
  unfold owns
  iintro ⟨⟨%f1, %hf1, H1⟩, ⟨%f2, %hf2, H2⟩, ⟨%d3, %f3, -, H3⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    try rfl
  isplitl [H6]
  · iexists _; isplitr
    swap; · iexact H6
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    try rfl
  isplitl [H7]
  · iexists _; isplitr
    swap; · iexact H7
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    try rfl
  isplitl [H8]
  · iexists _; isplitr
    swap; · iexact H8
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    try rfl
  isplitl [H9]
  · iexists _; isplitr
    swap; · iexact H9
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    exact statT_first i hi x (prep1 e) (prep2 e) _ _
  · iexists _; isplitr
    swap; · iexact H10
    ipureintro
    sl_unfold_run_names
    rw [read_writes_unit _ _ hz2]
    simp only [readAt_unread_unit (S := S256x256) harg1 hz2, readAt_unread_unit (S := S8192x256) harg2 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S8192x256) _ hz2, View.readCov_unit_zero (S := S256x8192) _ hz2, View.readCov_unit_zero (S := S1x8192) _ hz2, View.readCov_unit_zero (S := S264x8192) _ hz2, View.readCov_unit_zero (S := S1x1) _ hz2]
    exact sqT_first i hi x (prep0 e) (prep1 e) (prep2 e) _ _

end Cert.KernelIdeal.Hand

end
-- ==== Proof.Ideal.RunMid.lean ====
/-
  The body of the vector-quantizer kernel at a middle grid point (neither the first nor the last), run whole:
  what it leaves in the output tile's staging buffer and in the two accumulators, over the payloads of Step.lean.
-/
import proofs.«135943_g45775761441265_cont_8to1_c_906_25_alg».proof.Proof.Ideal.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A middle point's body: it reads the tile and the five scratch buffers, leaves the output tile and advances the
    two accumulators; the codebook scratch is untouched. -/
theorem runMid (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole)
    (hc0 : ¬condFirst i) (hc1 : ¬condLast i)
    (x : Vec F S256x256 .f32) (s0 : Vec F S8192x256 .bf16) (s1 : Vec F S256x8192 .bf16) (s2 : Vec F S1x8192 .f32)
    (s3 : Vec F S264x8192 .f32) (s4 : Vec F S1x1 .f32) (E : Set ℕ) (K : PUnit → sProp 𝕄) :
    iprop(owns (c : Thread nD τ) arg1 fullShare x ∗ (∃ d, owns (c : Thread nD τ) arg3 fullShare d)
        ∗ owns (c : Thread nD τ) arg6 fullShare s0 ∗ owns (c : Thread nD τ) arg7 fullShare s1 ∗ owns (c : Thread nD τ) arg8 fullShare s2
        ∗ owns (c : Thread nD τ) arg9 fullShare s3 ∗ owns (c : Thread nD τ) arg10 fullShare s4
        ∗ (iprop(owns (c : Thread nD τ) arg1 fullShare x ∗ owns (c : Thread nD τ) arg3 fullShare (outT x s0 s1 s2)
            ∗ owns (c : Thread nD τ) arg6 fullShare s0 ∗ owns (c : Thread nD τ) arg7 fullShare s1 ∗ owns (c : Thread nD τ) arg8 fullShare s2
            ∗ owns (c : Thread nD τ) arg9 fullShare (statT i x s1 s2 s3) ∗ owns (c : Thread nD τ) arg10 fullShare (sqT i x s0 s1 s2 s4)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  simp only [cc0__vq_body_eq_skeleton]
  unfold cc0__vq_body_skel
  unfold owns
  iintro ⟨⟨%f1, %hf1, H1⟩, ⟨%d3, %f3, -, H3⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H3]
  · iexists _; isplitr
    swap; · iexact H3
    ipureintro
    rw [read_writes_unit _ _ hz2]
    simp only [readAt_unread_unit (S := S256x256) harg1 hz2, readAt_unread_unit (S := S256x256) harg3 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2]
    try rfl
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [read_writes_unit _ _ hz2]
    sl_unfold_run_names
    simp only [readAt_unread_unit (S := S256x256) harg1 hz2, readAt_unread_unit (S := S256x256) harg3 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2]
    try rfl
  · iexists _; isplitr
    swap; · iexact H10
    ipureintro
    rw [read_writes_unit _ _ hz2]
    sl_unfold_run_names
    simp only [readAt_unread_unit (S := S256x256) harg1 hz2, readAt_unread_unit (S := S256x256) harg3 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2]
    try rfl

end Cert.KernelIdeal.Hand

end
-- ==== Proof.Ideal.RunLast.lean ====
/-
  The body of the vector-quantizer kernel at the last grid point, run whole: a middle point's work, and the two scalar
  results stored from the final accumulators.
-/
import proofs.«135943_g45775761441265_cont_8to1_c_906_25_alg».proof.Proof.Ideal.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The last point's body: as a middle point's, and it stores the two scalar results computed from the final accumulators. -/
theorem runLast (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S256x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole)
    (hc0 : ¬condFirst i) (hc1 : condLast i)
    (x : Vec F S256x256 .f32) (s0 : Vec F S8192x256 .bf16) (s1 : Vec F S256x8192 .bf16) (s2 : Vec F S1x8192 .f32)
    (s3 : Vec F S264x8192 .f32) (s4 : Vec F S1x1 .f32) (E : Set ℕ) (K : PUnit → sProp 𝕄) :
    iprop(owns (c : Thread nD τ) arg1 fullShare x ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1 ∗ owns (c : Thread nD τ) arg8 fullShare s2
        ∗ owns (c : Thread nD τ) arg9 fullShare s3 ∗ owns (c : Thread nD τ) arg10 fullShare s4
        ∗ (iprop(owns (c : Thread nD τ) arg1 fullShare x ∗ owns (c : Thread nD τ) arg3 fullShare (outT x s0 s1 s2)
            ∗ owns (c : Thread nD τ) arg4 fullShare (lossT i x s0 s1 s2 s3 s4) ∗ owns (c : Thread nD τ) arg5 fullShare (perpT i x s1 s2 s3)
            ∗ owns (c : Thread nD τ) arg6 fullShare s0 ∗ owns (c : Thread nD τ) arg7 fullShare s1 ∗ owns (c : Thread nD τ) arg8 fullShare s2
            ∗ owns (c : Thread nD τ) arg9 fullShare (statT i x s1 s2 s3) ∗ owns (c : Thread nD τ) arg10 fullShare (sqT i x s0 s1 s2 s4)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  simp only [cc0__vq_body_eq_skeleton]
  unfold cc0__vq_body_skel
  unfold owns
  iintro ⟨⟨%f1, %hf1, H1⟩, ⟨%d3, %f3, -, H3⟩, ⟨%d4, %f4, -, H4⟩, ⟨%d5, %f5, -, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg6.eq_unread hf6; obtain rfl := harg7.eq_unread hf7
  obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H3]
  · iexists _; isplitr
    swap; · iexact H3
    ipureintro
    sl_unfold_run_names
    rw [read_writes_unit _ _ hz2]
    simp only [readAt_unread_unit (S := S256x256) harg1 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S264x8192) _ hz2, View.readCov_unit_zero (S := S1x1) _ hz2]
    try rfl
  isplitl [H4]
  · iexists _; isplitr
    swap; · iexact H4
    ipureintro
    sl_unfold_run_names
    rw [read_writes_unit _ _ hz2]
    simp only [readAt_unread_unit (S := S256x256) harg1 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S264x8192) _ hz2, View.readCov_unit_zero (S := S1x1) _ hz2]
    try rfl
  isplitl [H5]
  · iexists _; isplitr
    swap; · iexact H5
    ipureintro
    sl_unfold_run_names
    rw [read_writes_unit _ _ hz2]
    simp only [readAt_unread_unit (S := S256x256) harg1 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S264x8192) _ hz2, View.readCov_unit_zero (S := S1x1) _ hz2]
    try rfl
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_run_names
    rw [read_writes_unit _ _ hz2]
    simp only [readAt_unread_unit (S := S256x256) harg1 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S264x8192) _ hz2, View.readCov_unit_zero (S := S1x1) _ hz2]
    try rfl
  · iexists _; isplitr
    swap; · iexact H10
    ipureintro
    sl_unfold_run_names
    rw [read_writes_unit _ _ hz2]
    simp only [readAt_unread_unit (S := S256x256) harg1 hz2, readAt_unread_unit (S := S8192x256) harg6 hz2, readAt_unread_unit (S := S256x8192) harg7 hz2, readAt_unread_unit (S := S1x8192) harg8 hz2, readAt_unread_unit (S := S264x8192) harg9 hz2, readAt_unread_unit (S := S1x1) harg10 hz2, View.readCov_unit_zero (S := S264x8192) _ hz2, View.readCov_unit_zero (S := S1x1) _ hz2]
    try rfl

end Cert.KernelIdeal.Hand

end
-- ==== Proof.Ideal.Frame.lean ====
/-
  The frame certificate of the vector-quantizer kernel program: the proof data of its one pipeline over Step.lean's
  points (what each grid point leaves in the three output staging buffers and the five scratch buffers), the body
  obligation by the three control cases' runs, the run of @main around the region, and the frame claim.
-/
import proofs.«135943_g45775761441265_cont_8to1_c_906_25_alg».proof.Proof.Ideal.RunFirst
import proofs.«135943_g45775761441265_cont_8to1_c_906_25_alg».proof.Proof.Ideal.RunMid
import proofs.«135943_g45775761441265_cont_8to1_c_906_25_alg».proof.Proof.Ideal.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points' inputs and what they leave -/

/-- A position in the grid's order is below 32. -/
theorem lt32 {n : ℕ} (h : n < cfg0.N) : n < 32 := lt_of_lt_of_eq h (show cfg0.N = 32 from N_0)

/-- The first operand's tile at each point: window 0's block there. -/
def xsOf (c : Dev nD) : (n : ℕ) → n < 32 → Vec F S256x256 .f32 :=
  fun n h => iblk m c 0 ⟨n, lt_of_lt_of_eq h (show 32 = cfg0.N from N_0.symm)⟩

/-- The codebook block: window 1's block (its index map is constant; the first point's is taken). -/
def eOf (c : Dev nD) : Vec F S8192x256 .f32 :=
  iblk m c 1 ⟨0, lt_of_lt_of_eq (by decide : 0 < 32) (show 32 = cfg0.N from N_0.symm)⟩

/-- What point `t` leaves, by Step.lean's recursion over the points before it. -/
def pts (c : Dev nD) (t : Fin cfg0.N) : Pt F :=
  ptAt (xsOf m c) (eOf m c) t.val (lt32 t.isLt)

/-- The same at a position `n` given with its bound. -/
def ptN (c : Dev nD) (n : ℕ) (h : n < cfg0.N) : Pt F := ptAt (xsOf m c) (eOf m c) n (lt32 h)

theorem pts_eq_ptN (c : Dev nD) (t : Fin cfg0.N) : pts m c t = ptN m c t.val t.isLt := rfl

/-- The region invariant before position `n`: before the first point the class's (every scratch at some contents);
    afterwards the five scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) sc0 fullShare (ptN m c n hn).s0 ∗ owns (c : Thread nD τ) sc1 fullShare (ptN m c n hn).s1
      ∗ owns (c : Thread nD τ) sc2 fullShare (ptN m c n hn).s2 ∗ owns (c : Thread nD τ) sc3 fullShare (ptN m c n hn).s3
      ∗ owns (c : Thread nD τ) sc4 fullShare (ptN m c n hn).s4) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (pts m c t).o2
    | ⟨3, _⟩ => (pts m c t).o3
    | ⟨4, _⟩ => (pts m c t).o4
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (pts m c t).o2 := by dsimp only [dats]
theorem after0_3 (c : Dev nD) (t : Fin cfg0.N) : (dats m 0 c).after 3 t = (pts m c t).o3 := by dsimp only [dats]
theorem after0_4 (c : Dev nD) (t : Fin cfg0.N) : (dats m 0 c).after 4 t = (pts m c t).o4 := by dsimp only [dats]

/-! ## The points, case by case -/

theorem pts_first (c : Dev nD) (t : Fin cfg0.N) (h0 : t.val = 0) :
    pts m c t = ptFirst (grid0.coords t) (iblk m c 0 t) (eOf m c) := by
  obtain ⟨n, hn⟩ := t
  cases n with
  | zero => rfl
  | succ n => exact absurd h0 (Nat.succ_ne_zero n)

theorem pts_mid (c : Dev nD) (t : Fin cfg0.N) (h0 : t.val ≠ 0) (h1 : t.val ≠ 31) :
    pts m c t = ptMid (grid0.coords t) (iblk m c 0 t) (ptN m c (t.val - 1) (Nat.lt_of_le_of_lt (Nat.sub_le _ _) t.isLt)) := by
  obtain ⟨n, hn⟩ := t
  cases n with
  | zero => exact absurd rfl h0
  | succ n => exact ptAt_mid (xsOf m c) (eOf m c) n (lt32 hn) h1

theorem pts_last (c : Dev nD) (t : Fin cfg0.N) (h1 : t.val = 31) :
    pts m c t = ptLast (grid0.coords t) (iblk m c 0 t) (ptN m c (t.val - 1) (Nat.lt_of_le_of_lt (Nat.sub_le _ _) t.isLt)) := by
  obtain ⟨n, hn⟩ := t
  dsimp only at h1
  subst h1
  exact ptAt_last (xsOf m c) (eOf m c) (lt32 hn)

/-- At the first point the codebook block is the one `eOf` names. -/
theorem eOf_eq (c : Dev nD) (t : Fin cfg0.N) (h0 : t.val = 0) : eOf m c = iblk m c 1 t := by
  obtain ⟨n, hn⟩ := t
  dsimp only at h0
  subst h0
  rfl

/-! ## The invariant, point by point -/

theorem PhiS_zero (c : Dev nD) (n : ℕ) (h : n ≤ cfg0.N) (hz : n = 0) : PhiS m c n h = Pipeline.ΦA spec0 c := by
  subst hz; rfl

/-- After point `t`: the scratch at what it left. -/
theorem PhiS_succ (c : Dev nD) (t : Fin cfg0.N) :
    PhiS m c (t.val + 1) t.isLt = iprop(iprop(owns (c : Thread nD τ) sc0 fullShare (pts m c t).s0 ∗ owns (c : Thread nD τ) sc1 fullShare (pts m c t).s1
      ∗ owns (c : Thread nD τ) sc2 fullShare (pts m c t).s2 ∗ owns (c : Thread nD τ) sc3 fullShare (pts m c t).s3
      ∗ owns (c : Thread nD τ) sc4 fullShare (pts m c t).s4) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) sc0 fullShare (ptN m c (n - 1) (by omega)).s0 ∗ owns (c : Thread nD τ) sc1 fullShare (ptN m c (n - 1) (by omega)).s1
      ∗ owns (c : Thread nD τ) sc2 fullShare (ptN m c (n - 1) (by omega)).s2 ∗ owns (c : Thread nD τ) sc3 fullShare (ptN m c (n - 1) (by omega)).s3
      ∗ owns (c : Thread nD τ) sc4 fullShare (ptN m c (n - 1) (by omega)).s4) ∗ (∃ r, prngReg c r)) := by
  cases n with
  | zero => exact absurd rfl hz
  | succ n => rfl

theorem PhiS_castSucc (c : Dev nD) (t : Fin cfg0.N) :
    (dats m 0 c).Φ t.castSucc = PhiS m c t.val (Nat.le_of_lt t.isLt) := by
  dsimp only [dats]; simp only [Fin.coe_castSucc]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point: the closed forms of the two conditions say which of the three cases the point is in; the
    case's run applies, the invariant handing it the scratch (at anything before the first point, else at what the point
    before left) and taking it back at what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  rw [show (dats m 0 c).leavesExact 2 t = owns (c : Thread nD τ) (ms2 t) fullShare ((dats m 0 c).after 2 t) from by
    unfold Dat.leavesExact; rw [liveAt2 t], after0_2]
  by_cases h0 : t.val = 0
  · have hcF : condFirst (grid0.coords t) := (hcondFirst t).mpr h0
    have hcL : ¬condLast (grid0.coords t) := fun h => by have := (hcondLast t).mp h; omega
    rw [Dat.leavesExact_idle (dats m 0 c) 3 t (idleAt3 t hcL) (noFlush3 t hcL),
      Dat.leavesExact_idle (dats m 0 c) 4 t (idleAt4 t hcL) (noFlush4 t hcL)]
    rw [pts_first m c t h0, eOf_eq m c t h0]
    dsimp only [ptFirst]
    rw [PhiS_castSucc m c t, PhiS_zero m c _ _ h0, PhiA0_eq]
    iintro ⟨⟨⟨HS0, HS1, HS2, HS3, HS4⟩, Hg⟩, Ho, ⟨%d0, H0⟩, ⟨%d1, H1⟩, ⟨%d2, H2⟩, ⟨%d3, H3⟩, ⟨%d4, H4⟩⟩
    iapply (runFirst c (grid0.coords t) _ _ _ _ _ _ _ _ _ _ _ _ _ _ _ _ _ _ _ _ hcF hcL (pid_first t h0) (iblk m c 0 t) (iblk m c 1 t) Set.univ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    iintro ⟨H0, H1, H2, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexists _; iexact H3
    iexists _; iexact H4
  · by_cases h1 : t.val = 31
    · have hcF : ¬condFirst (grid0.coords t) := fun h => h0 ((hcondFirst t).mp h)
      have hcL : condLast (grid0.coords t) := (hcondLast t).mpr h1
      rw [show (dats m 0 c).leavesExact 3 t = owns (c : Thread nD τ) (ms3 t) fullShare ((dats m 0 c).after 3 t) from by
        unfold Dat.leavesExact; rw [liveAt3 t hcL], after0_3]
      rw [show (dats m 0 c).leavesExact 4 t = owns (c : Thread nD τ) (ms4 t) fullShare ((dats m 0 c).after 4 t) from by
        unfold Dat.leavesExact; rw [liveAt4 t hcL], after0_4]
      rw [pts_last m c t h1]
      dsimp only [ptLast]
      rw [PhiS_castSucc m c t, PhiS_pos m c _ _ h0]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runLast c (grid0.coords t) _ _ _ _ _ _ _ _ _ _ _ _ _ _ _ _ _ _ _ _ hcF hcL (iblk m c 0 t) _ _ _ _ _ Set.univ _)
      isplitl [H0]; · iexact H0
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H2, H3, H4, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      iexact H4
    · have hcF : ¬condFirst (grid0.coords t) := fun h => h0 ((hcondFirst t).mp h)
      have hcL : ¬condLast (grid0.coords t) := fun h => h1 ((hcondLast t).mp h)
      rw [Dat.leavesExact_idle (dats m 0 c) 3 t (idleAt3 t hcL) (noFlush3 t hcL),
        Dat.leavesExact_idle (dats m 0 c) 4 t (idleAt4 t hcL) (noFlush4 t hcL)]
      rw [pts_mid m c t h0 h1]
      dsimp only [ptMid]
      rw [PhiS_castSucc m c t, PhiS_pos m c _ _ h0]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply (runMid c (grid0.coords t) _ _ _ _ _ _ _ _ _ _ _ _ _ _ _ _ _ _ _ _ hcF hcL (iblk m c 0 t) _ _ _ _ _ Set.univ _)
      isplitl [H0]; · iexact H0
      isplitl [H2]; · iexists _; iexact H2
      isplitl [HS0]; · iexact HS0
      isplitl [HS1]; · iexact HS1
      isplitl [HS2]; · iexact HS2
      isplitl [HS3]; · iexact HS3
      isplitl [HS4]; · iexact HS4
      iintro ⟨H0, H2, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main on the TensorCores terminates, and every final state has every array of the
    pipeline at what the library computes from the proof data and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any `F`: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Ideal.Arrays.lean ====
/-
  From the kernel program's frame run to the contents of its three result buffers: the first result's array is
  covered by the 32 output tiles the points write back (tile t holds rows 256·t .. 256·t + 255), each scalar
  result's 1×1 array is what the last point wrote back, and the host lines after the region reshape the three
  arrays into the results.
-/
import proofs.«135943_g45775761441265_cont_8to1_c_906_25_alg».proof.Proof.Ideal.Step
import proofs.«135943_g45775761441265_cont_8to1_c_906_25_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Rounds
open Idealize.ShloMosaic.Pipeline (Dat Cfg Window)
open Cert.KernelIdeal Cert.KernelIdeal.Gen

variable (m : (ℓ : Loc nD τ sig) → Buf (Elt Ideal) ℓ) (ρ : Dev nD → PrngReg)

/-- The last grid point. -/
def lastPt : Fin cfg0.N := ⟨31, by rw [show cfg0.N = 32 from N_0]; norm_num⟩

/-- The 8192×256 array whose rows 256·t .. 256·t + 255 are tile `t`. -/
def tiled (f : Fin cfg0.N → Vec Ideal S256x256 .f32) : Vec Ideal S8192x256 .f32 :=
  fun j => f ⟨(j 0).val / 256, by rw [show cfg0.N = 32 from N_0]; have := idx2_lt0 j; omega⟩
    (ix2 (⟨(j 0).val % 256, Nat.mod_lt _ (by norm_num)⟩ : Fin 256) (j 1))

/-- Window 2's block index at point `t` is `(t, 0)`. -/
theorem idx_w2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- An index of the array is in point `t`'s block iff each coordinate is in the block's range on its axis. -/
theorem mem_blk_w2 (t : Fin cfg0.N) (i : S8192x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v1_0).slice (win0_2.rect t)).set ↔ _
  rw [View.set_slice_whole, Rect.mem_set_unit]
  exact Iff.rfl

/-- The assembled array read at an index of tile `t`. -/
theorem tiled_apply (f : Fin cfg0.N → Vec Ideal S256x256 .f32) (t : Fin cfg0.N) (j : S256x256.Idx) (i : S8192x256.Idx)
    (h0 : (i 0).val = t.val * 256 + (j 0).val) (h1 : (i 1).val = (j 1).val) : tiled f i = f t j := by
  have hj0 : (j 0).val < 256 := idx2_lt0 j
  unfold tiled
  congr 1
  · exact Fin.ext (by show (i 0).val / 256 = t.val; omega)
  · rw [eq_ix2 j]
    congr 1
    · exact Fin.ext (by show (i 0).val % 256 = (j 0).val; omega)
    · exact Fin.ext h1

theorem flushed_w2 (dats : (p : Fin 1) → (c : Dev nD) → Dat τ (Elt Ideal) Unit ℕ (UR sig nD τ) ℕ (cfgs p) c)
    (P : Dev nD → Fin cfg0.N → Pt Ideal)
    (h2 : ∀ c t, (dats 0 c).after 2 t = (P c t).o2) (c : Dev nD) (t : Fin cfg0.N) :
    (dats 0 c).flushed 2 t = ((cfg0.win 2).blk t).view.read (Elt Ideal) (tiled fun t => (P c t).o2) := by
  show (cfg0.win 2).cut (grid0.coords t) ((dats 0 c).after 2 t) = _
  rw [h2]
  obtain ⟨e0, e1⟩ := idx_w2 t
  funext j
  show (P c t).o2 j = tiled (fun t => (P c t).o2) (((cfg0.win 2).blk t).view.emb j)
  refine (tiled_apply (fun t => (P c t).o2) t j _ ?_ ?_).symm
  · show win0_2.index t (0 : Fin 2) * 256 + 1 * (j 0).val = t.val * 256 + (j 0).val
    omega
  · show win0_2.index t (1 : Fin 2) * 256 + 1 * (j 1).val = (j 1).val
    omega

theorem cover_w2 (i : S8192x256.Idx) : ∃ t : Fin cfg0.N, (cfg0.win 2).flush t = true ∧ i ∈ ((cfg0.win 2).blk t).view.set := by
  have hi0 : (i 0).val < 8192 := idx2_lt0 i
  have hi1 : (i 1).val < 256 := idx2_lt1 i
  refine ⟨⟨(i 0).val / 256, by rw [show cfg0.N = 32 from N_0]; omega⟩, flush0_2 _, ?_⟩
  rw [mem_blk_w2]
  obtain ⟨e0, e1⟩ := idx_w2 ⟨(i 0).val / 256, by rw [show cfg0.N = 32 from N_0]; omega⟩
  intro a
  match a with
  | ⟨0, _⟩ => show win0_2.index _ (0 : Fin 2) * 256 ≤ (i 0).val ∧ (i 0).val < win0_2.index _ (0 : Fin 2) * 256 + 256; rw [e0]; show (i 0).val / 256 * 256 ≤ _ ∧ _ < (i 0).val / 256 * 256 + 256; omega
  | ⟨1, _⟩ => show win0_2.index _ (1 : Fin 2) * 256 ≤ (i 1).val ∧ (i 1).val < win0_2.index _ (1 : Fin 2) * 256 + 256; rw [e1]; omega

/-- The first result's array after the run: the tiles assembled. -/
theorem final2 (dats : (p : Fin 1) → (c : Dev nD) → Dat τ (Elt Ideal) Unit ℕ (UR sig nD τ) ℕ (cfgs p) c)
    (P : Dev nD → Fin cfg0.N → Pt Ideal)
    (h2 : ∀ c t, (dats 0 c).after 2 t = (P c t).o2) (c : Dev nD) :
    (dats 0 c).arrAt 2 cfg0.N = tiled (fun t => (P c t).o2) :=
  (dats 0 c).arrAt_eq_of_cover 2 _ (fun t _ => flushed_w2 dats P h2 c t) cover_w2

/-! ## The scalar results: 1×1 arrays the last point alone writes back -/

/-- A 1×1 array has one index. -/
theorem idx1x1_eq (x y : S1x1.Idx) : x = y :=
  Shape.idx_ext₂ (by have := idx2_lt0 x; have := idx2_lt0 y; omega) (by have := idx2_lt1 x; have := idx2_lt1 y; omega)

/-- The only point whose number is 31 modulo 32 is the last. -/
theorem eq_lastPt (t : Fin cfg0.N) (h : t.val % 32 = 31) : t = lastPt := by
  have : t.val < 32 := lt_of_lt_of_eq t.isLt (show cfg0.N = 32 from N_0)
  exact Fin.ext (by show t.val = 31; omega)

theorem lastPt_mod : lastPt.val % 32 = 31 := rfl

/-- Window 3's block index is `(0, 0)` at every point. -/
theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4's block index is `(0, 0)` at every point. -/
theorem idx_w4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem mem_blk_w3 (t : Fin cfg0.N) (i : S1x1.Idx) :
    i ∈ ((cfg0.win 3).blk t).view.set ↔ ∀ a : Fin 2, win0_3.index t a * S1x1.size a ≤ (i a).val ∧ (i a).val < win0_3.index t a * S1x1.size a + S1x1.size a := by
  show i ∈ ((View.whole main_v1_1).slice (win0_3.rect t)).set ↔ _
  rw [View.set_slice_whole, Rect.mem_set_unit]
  exact Iff.rfl
theorem mem_blk_w4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v1_2).slice (win0_4.rect t)).set ↔ _
  rw [View.set_slice_whole, Rect.mem_set_unit]
  exact Iff.rfl

theorem cover_w3 (i : S1x1.Idx) : ∃ t : Fin cfg0.N, (cfg0.win 3).flush t = true ∧ i ∈ ((cfg0.win 3).blk t).view.set := by
  refine ⟨lastPt, (flush0_3 lastPt).mpr lastPt_mod, ?_⟩
  rw [mem_blk_w3]
  obtain ⟨e0, e1⟩ := idx_w3 lastPt
  have h0 : (i 0).val < 1 := idx2_lt0 i
  have h1 : (i 1).val < 1 := idx2_lt1 i
  intro a
  match a with
  | ⟨0, _⟩ => show win0_3.index lastPt (0 : Fin 2) * 1 ≤ (i 0).val ∧ (i 0).val < win0_3.index lastPt (0 : Fin 2) * 1 + 1; omega
  | ⟨1, _⟩ => show win0_3.index lastPt (1 : Fin 2) * 1 ≤ (i 1).val ∧ (i 1).val < win0_3.index lastPt (1 : Fin 2) * 1 + 1; omega
theorem cover_w4 (i : S1x1.Idx) : ∃ t : Fin cfg0.N, (cfg0.win 4).flush t = true ∧ i ∈ ((cfg0.win 4).blk t).view.set := by
  refine ⟨lastPt, (flush0_4 lastPt).mpr lastPt_mod, ?_⟩
  rw [mem_blk_w4]
  obtain ⟨e0, e1⟩ := idx_w4 lastPt
  have h0 : (i 0).val < 1 := idx2_lt0 i
  have h1 : (i 1).val < 1 := idx2_lt1 i
  intro a
  match a with
  | ⟨0, _⟩ => show win0_4.index lastPt (0 : Fin 2) * 1 ≤ (i 0).val ∧ (i 0).val < win0_4.index lastPt (0 : Fin 2) * 1 + 1; omega
  | ⟨1, _⟩ => show win0_4.index lastPt (1 : Fin 2) * 1 ≤ (i 1).val ∧ (i 1).val < win0_4.index lastPt (1 : Fin 2) * 1 + 1; omega

/-- What a point that writes window 3 back writes is the last point's scalar, the whole 1×1 array. -/
theorem flushed_w3 (dats : (p : Fin 1) → (c : Dev nD) → Dat τ (Elt Ideal) Unit ℕ (UR sig nD τ) ℕ (cfgs p) c)
    (P : Dev nD → Fin cfg0.N → Pt Ideal)
    (h3 : ∀ c t, (dats 0 c).after 3 t = (P c t).o3) (c : Dev nD) (t : Fin cfg0.N) (hf : (cfg0.win 3).flush t = true) :
    (dats 0 c).flushed 3 t = ((cfg0.win 3).blk t).view.read (Elt Ideal) ((P c lastPt).o3) := by
  obtain rfl : t = lastPt := eq_lastPt t ((flush0_3 t).mp hf)
  show (cfg0.win 3).cut (grid0.coords lastPt) ((dats 0 c).after 3 lastPt) = _
  rw [h3]
  funext j
  show (P c lastPt).o3 _ = (P c lastPt).o3 (((cfg0.win 3).blk lastPt).view.emb j)
  exact congrArg _ (idx1x1_eq _ _)
theorem flushed_w4 (dats : (p : Fin 1) → (c : Dev nD) → Dat τ (Elt Ideal) Unit ℕ (UR sig nD τ) ℕ (cfgs p) c)
    (P : Dev nD → Fin cfg0.N → Pt Ideal)
    (h4 : ∀ c t, (dats 0 c).after 4 t = (P c t).o4) (c : Dev nD) (t : Fin cfg0.N) (hf : (cfg0.win 4).flush t = true) :
    (dats 0 c).flushed 4 t = ((cfg0.win 4).blk t).view.read (Elt Ideal) ((P c lastPt).o4) := by
  obtain rfl : t = lastPt := eq_lastPt t ((flush0_4 t).mp hf)
  show (cfg0.win 4).cut (grid0.coords lastPt) ((dats 0 c).after 4 lastPt) = _
  rw [h4]
  funext j
  show (P c lastPt).o4 _ = (P c lastPt).o4 (((cfg0.win 4).blk lastPt).view.emb j)
  exact congrArg _ (idx1x1_eq _ _)

/-- The second result's array after the run: the last point's first scalar. -/
theorem final3 (dats : (p : Fin 1) → (c : Dev nD) → Dat τ (Elt Ideal) Unit ℕ (UR sig nD τ) ℕ (cfgs p) c)
    (P : Dev nD → Fin cfg0.N → Pt Ideal)
    (h3 : ∀ c t, (dats 0 c).after 3 t = (P c t).o3) (c : Dev nD) :
    (dats 0 c).arrAt 3 cfg0.N = (P c lastPt).o3 :=
  (dats 0 c).arrAt_eq_of_cover 3 _ (fun t hf => flushed_w3 dats P h3 c t hf) cover_w3
/-- The third result's array after the run: the last point's second scalar. -/
theorem final4 (dats : (p : Fin 1) → (c : Dev nD) → Dat τ (Elt Ideal) Unit ℕ (UR sig nD τ) ℕ (cfgs p) c)
    (P : Dev nD → Fin cfg0.N → Pt Ideal)
    (h4 : ∀ c t, (dats 0 c).after 4 t = (P c t).o4) (c : Dev nD) :
    (dats 0 c).arrAt 4 cfg0.N = (P c lastPt).o4 :=
  (dats 0 c).arrAt_eq_of_cover 4 _ (fun t hf => flushed_w4 dats P h4 c t hf) cover_w4

/-! ## The host lines after the region: each result is its array reshaped -/

/-- The first result is the first output array, reshaped to 8×1024×256. -/
theorem tail_v2 (dats : (p : Fin 1) → (c : Dev nD) → Dat τ (Elt Ideal) Unit ℕ (UR sig nD τ) ℕ (cfgs p) c) (c : Dev nD) :
    Pipeline.afterTail₀ cfgs dats 0 (V0 m) [hostOps1] c main_v2
      = shapeCast S8x1024x256 ((dats 0 c).arrAt 2 cfg0.N) Facts₀.shapeCasts_S8192x256_S8x1024x256 := by
  unfold Pipeline.afterTail₀
  show StableHlo.after hostOps1 _ (Proc.devRef .tc main_v2) = _
  after_results
  exact congrArg (fun A => shapeCast S8x1024x256 A Facts₀.shapeCasts_S8192x256_S8x1024x256)
    (Pipeline.withArrays_arr spec0 winFacts0.arr_inj c (V0 m c) (fun w => (dats 0 c).arrAt w cfg0.N) 2)

/-- The second result is the second output array (1×1), reshaped to a scalar. -/
theorem tail_v3 (dats : (p : Fin 1) → (c : Dev nD) → Dat τ (Elt Ideal) Unit ℕ (UR sig nD τ) ℕ (cfgs p) c) (c : Dev nD) :
    Pipeline.afterTail₀ cfgs dats 0 (V0 m) [hostOps1] c main_v3
      = shapeCast S_ ((dats 0 c).arrAt 3 cfg0.N) Facts₀.shapeCasts_S1x1_S_ := by
  unfold Pipeline.afterTail₀
  show StableHlo.after hostOps1 _ (Proc.devRef .tc main_v3) = _
  after_results
  exact congrArg (fun A => shapeCast S_ A Facts₀.shapeCasts_S1x1_S_)
    (Pipeline.withArrays_arr spec0 winFacts0.arr_inj c (V0 m c) (fun w => (dats 0 c).arrAt w cfg0.N) 3)

/-- The third result is the third output array (1×1), reshaped to a scalar. -/
theorem tail_v4 (dats : (p : Fin 1) → (c : Dev nD) → Dat τ (Elt Ideal) Unit ℕ (UR sig nD τ) ℕ (cfgs p) c) (c : Dev nD) :
    Pipeline.afterTail₀ cfgs dats 0 (V0 m) [hostOps1] c main_v4
      = shapeCast S_ ((dats 0 c).arrAt 4 cfg0.N) Facts₀.shapeCasts_S1x1_S_ := by
  unfold Pipeline.afterTail₀
  show StableHlo.after hostOps1 _ (Proc.devRef .tc main_v4) = _
  after_results
  exact congrArg (fun A => shapeCast S_ A Facts₀.shapeCasts_S1x1_S_)
    (Pipeline.withArrays_arr spec0 winFacts0.arr_inj c (V0 m c) (fun w => (dats 0 c).arrAt w cfg0.N) 4)

/-- For ANY proof data of the one pipeline whose arrays are the region-entry contents and whose output staging buffers
    hold, after the body at each point, the components `o2`, `o3`, `o4` of a family `P`: a frame run ends with
    the three results at the tiles assembled and at the last point's two scalars, reshaped, and the arguments unchanged. -/
theorem results_of_run
    (dats : (p : Fin 1) → (c : Dev nD) → Dat τ (Elt Ideal) Unit ℕ (UR sig nD τ) ℕ (cfgs p) c)
    (hA : ∀ c w, (dats 0 c).A w = V m c (Pipeline.arrRef spec0 w))
    (P : Dev nD → Fin cfg0.N → Pt Ideal)
    (h2 : ∀ c t, (dats 0 c).after 2 t = (P c t).o2)
    (h3 : ∀ c t, (dats 0 c).after 3 t = (P c t).o3)
    (h4 : ∀ c t, (dats 0 c).after 4 t = (P c t).o4)
    (hrun : θ_run defs (onTc (τ := τ) (main (F := Ideal))) (s₀ m ρ)
      (Pipeline.FramePost cfgs dats 0 (Pipeline.afterTail₀ cfgs dats 0 (V0 m) [hostOps1]))) :
    θ_run defs (onTc (τ := τ) (main (F := Ideal))) ⟨m, fun _ => 0, ρ⟩ (fun r => ∀ c : Dev nD,
      r.2.mem ((c.tc : Thread nD τ).loc main_v2)
          = shapeCast S8x1024x256 (tiled fun t => (P c t).o2) Facts₀.shapeCasts_S8192x256_S8x1024x256
      ∧ r.2.mem ((c.tc : Thread nD τ).loc main_v3) = shapeCast S_ (P c lastPt).o3 Facts₀.shapeCasts_S1x1_S_
      ∧ r.2.mem ((c.tc : Thread nD τ).loc main_v4) = shapeCast S_ (P c lastPt).o4 Facts₀.shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((h c).2 main_v2 (Pipeline.mem_restRefs_of main_v2 (by decide) (by decide))).trans (tail_v2 m dats c)).trans
        (congrArg (fun A => shapeCast S8x1024x256 A Facts₀.shapeCasts_S8192x256_S8x1024x256) (final2 dats P h2 c)),
     (((h c).2 main_v3 (Pipeline.mem_restRefs_of main_v3 (by decide) (by decide))).trans (tail_v3 m dats c)).trans
        (congrArg (fun A => shapeCast S_ A Facts₀.shapeCasts_S1x1_S_) (final3 dats P h3 c)),
     (((h c).2 main_v4 (Pipeline.mem_restRefs_of main_v4 (by decide) (by decide))).trans (tail_v4 m dats c)).trans
        (congrArg (fun A => shapeCast S_ A Facts₀.shapeCasts_S1x1_S_) (final4 dats P h4 c)),
     ((h c).2 main_arg0 (Pipeline.mem_restRefs_of main_arg0 (by decide) (by decide))).trans (W_main_arg0 m dats c),
     ((h c).1 1).trans (((dats 0 c).arrAt_in 1 rfl _).trans ((hA c 1).trans (V_main_arg1 m c)))⟩) hrun

end Cert.KernelIdeal.Hand

end
-- ==== Proof.Spec.lean ====
/-
  The vector quantizer's soft-assignment step, index by index, over the extended reals.

  For a row `xr` of the flattened input and the codebook `e` (8192 code vectors of 256 entries) the
  soft assignment of the row to code `j` is the softmax over the codes of minus the squared distance.
  The kernel takes the softmax of `2·x·e_j − ‖e_j‖²` (the row's own ‖x‖² is a constant along the codes)
  and multiplies by the reciprocal of the sum; the reference takes the softmax of
  `−(‖x‖² + ‖e_j‖² − 2·x·e_j)` and divides by the sum. On real inputs the two agree (`encK_eq_encR`).
  Everything after the assignments — the quantized rows, the squared error, the code usage statistics and the
  scalar losses — is stated over an abstract assignment matrix `enc`, once in the kernel's arrangement
  and once in the reference's, with the laws that join them.
-/
import Idealize.ShloMosaic.PureOps.Ideal
import Idealize.ShloMosaic.PureOps.Ideal.Laws
import Mathlib.Algebra.BigOperators.Fin
import Mathlib.Data.EReal.Basic

noncomputable section

namespace VQ

open Idealize.ShloMosaic

/-! ## The literals, as the words both programs print -/

def c0 : EReal := Ideal.ofBits .f32 0x00000000#32        -- 0
def c1 : EReal := Ideal.ofBits .f32 0x3F800000#32        -- 1
def c2 : EReal := Ideal.ofBits .f32 0x40000000#32        -- 2
def cNegInf : EReal := Ideal.ofBits .f32 0xFF800000#32   -- −∞
def c8192 : EReal := Ideal.ofBits .f32 0x46000000#32     -- 8192, the number of rows
def cTiny : EReal := Ideal.ofBits .f32 0x2EDBE6FF#32     -- the f32 nearest 1e-10
def c001 : EReal := Ideal.ofBits .f32 0x3C23D70A#32      -- the f32 nearest 0.01
def c099 : EReal := Ideal.ofBits .f32 0x3F7D70A4#32      -- the f32 nearest 0.99
def cEps : EReal := Ideal.ofBits .f32 0x3727C5AC#32      -- the f32 nearest 1e-5
def cNEps : EReal := Ideal.ofBits .f32 0x3DA7C5AC#32     -- the f32 nearest 8192·1e-5
def cCount : EReal := Ideal.ofBits .f32 0x4A000000#32    -- 2097152 = 8192·256
def c025 : EReal := Ideal.ofBits .f32 0x3E800000#32      -- 0.25
def c08 : EReal := Ideal.ofBits .f32 0x3F4CCCCD#32       -- the f32 nearest 0.8

/-- An extended real that is a real number. -/
def IsReal (a : EReal) : Prop := ∃ r : ℝ, a = (r : EReal)
/-- … and positive. -/
def IsPos (a : EReal) : Prop := ∃ r : ℝ, 0 < r ∧ a = (r : EReal)

/-! ## What the literal words denote -/

theorem c0_eq : c0 = 0 := Ideal.ofBits_zero_f32
theorem c1_eq : c1 = 1 := by
  unfold c1; simp [Ideal.ofBits, Ideal.ieee, -EReal.coe_mul]; norm_num
theorem c2_eq : c2 = ((2 : ℝ) : EReal) := by
  unfold c2; simp [Ideal.ofBits, Ideal.ieee, -EReal.coe_mul]; norm_num
theorem cNegInf_eq : cNegInf = ⊥ := by
  unfold cNegInf; simp [Ideal.ofBits, Ideal.ieee]
theorem c001_pos : IsPos c001 := by
  unfold c001 IsPos; simp [Ideal.ofBits, Ideal.ieee, -EReal.coe_mul]
theorem cEps_pos : IsPos cEps := by
  unfold cEps IsPos; simp [Ideal.ofBits, Ideal.ieee, -EReal.coe_mul]
theorem cNEps_pos : IsPos cNEps := by
  unfold cNEps IsPos; simp [Ideal.ofBits, Ideal.ieee, -EReal.coe_mul]

/-! ## Reals and positive reals among the extended reals are closed under the operations used -/

theorem IsPos.isReal {a : EReal} (h : IsPos a) : IsReal a := let ⟨r, _, hr⟩ := h; ⟨r, hr⟩

theorem IsReal.add {a b : EReal} (ha : IsReal a) (hb : IsReal b) : IsReal (a + b) := by
  obtain ⟨r, rfl⟩ := ha; obtain ⟨t, rfl⟩ := hb; exact ⟨r + t, (EReal.coe_add r t).symm⟩
theorem IsReal.mul {a b : EReal} (ha : IsReal a) (hb : IsReal b) : IsReal (a * b) := by
  obtain ⟨r, rfl⟩ := ha; obtain ⟨t, rfl⟩ := hb; exact ⟨r * t, (EReal.coe_mul r t).symm⟩
theorem IsPos.add {a b : EReal} (ha : IsPos a) (hb : IsPos b) : IsPos (a + b) := by
  obtain ⟨r, hr, rfl⟩ := ha; obtain ⟨t, ht, rfl⟩ := hb; exact ⟨r + t, add_pos hr ht, (EReal.coe_add r t).symm⟩
theorem IsPos.mul {a b : EReal} (ha : IsPos a) (hb : IsPos b) : IsPos (a * b) := by
  obtain ⟨r, hr, rfl⟩ := ha; obtain ⟨t, ht, rfl⟩ := hb; exact ⟨r * t, mul_pos hr ht, (EReal.coe_mul r t).symm⟩
/-- The quotient of two positive reals is their real quotient. -/
theorem IsPos.div {a b : EReal} (ha : IsPos a) (hb : IsPos b) : IsPos (Ideal.div a b) := by
  obtain ⟨r, hr, rfl⟩ := ha; obtain ⟨t, ht, rfl⟩ := hb
  refine ⟨r * (1 / t), mul_pos hr (one_div_pos.mpr ht), ?_⟩
  rw [Ideal.div_coe ht.ne', EReal.coe_mul]

/-- A finite sum of reals, taken among the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} [Fintype ι] (f : ι → EReal) (h : ∀ i, IsReal (f i)) : IsReal (∑ i, f i) := by
  choose g hg using h
  exact ⟨∑ i, g i, by rw [← coe_sum]; exact Finset.sum_congr rfl fun i _ => hg i⟩

theorem isPos_sum {ι : Type*} [Fintype ι] [Nonempty ι] (f : ι → EReal) (h : ∀ i, IsPos (f i)) : IsPos (∑ i, f i) := by
  choose g hg0 hg using h
  exact ⟨∑ i, g i, Finset.sum_pos (fun i _ => hg0 i) Finset.univ_nonempty,
    by rw [← coe_sum]; exact Finset.sum_congr rfl fun i _ => hg i⟩

/-- The fold of `max` from `⊥` over a nonempty finite family of reals is a real `M`, and the same fold of the family
    with every member lowered by `c` is `M − c`. -/
theorem fold_max_coe {ι : Type*} (s : Finset ι) (hs : s.Nonempty) (g : ι → ℝ) :
    ∃ M : ℝ, ∀ c : ℝ, s.fold max (⊥ : EReal) (fun j => ((g j - c : ℝ) : EReal)) = ((M - c : ℝ) : EReal) := by
  induction hs using Finset.Nonempty.cons_induction with
  | singleton a => exact ⟨g a, fun c => by rw [Finset.fold_singleton]; exact max_eq_left bot_le⟩
  | cons a s ha hs ih =>
    obtain ⟨M, hM⟩ := ih
    refine ⟨max (g a) M, fun c => ?_⟩
    rw [Finset.fold_cons, hM c, ← max_sub_sub_right]
    exact (EReal.coe_strictMono.monotone.map_max).symm

/-! ## One row's soft assignments -/

section Row

variable (e : Fin 8192 → Fin 256 → EReal) (xr : Fin 256 → EReal)

/-- ‖e_j‖². -/
def esq (j : Fin 8192) : EReal := ∑ k : Fin 256, e j k * e j k

/-- The kernel's logit: x·(e_j + e_j) − ‖e_j‖². -/
def tK (j : Fin 8192) : EReal := (∑ k : Fin 256, xr k * (e j k + e j k)) - esq e j
/-- The row's maximum logit, folded from −∞. -/
def mK : EReal := (Finset.univ : Finset (Fin 8192)).fold max cNegInf (tK e xr)
def pK (j : Fin 8192) : EReal := Ideal.exp (tK e xr j - mK e xr)
def sK : EReal := ∑ j : Fin 8192, pK e xr j
/-- The kernel's soft assignment: exp(logit − max) times the reciprocal of the sum. -/
def encK (j : Fin 8192) : EReal := pK e xr j * Ideal.div c1 (sK e xr)

/-- The reference's logit: −((‖x‖² + ‖e_j‖²) − 2·(x·e_j)), over the temperature 1. -/
def tR (j : Fin 8192) : EReal :=
  Ideal.div (-(((∑ k : Fin 256, xr k * xr k) + esq e j) - c2 * (∑ k : Fin 256, xr k * e j k))) c1
/-- The row's maximum logit: jax's softmax takes the maximum with −∞ once more. -/
def mR : EReal := max cNegInf ((Finset.univ : Finset (Fin 8192)).fold max cNegInf (tR e xr))
def pR (j : Fin 8192) : EReal := Ideal.exp (tR e xr j - mR e xr)
def sR : EReal := ∑ j : Fin 8192, pR e xr j
/-- The reference's soft assignment: exp(logit − max) over the sum. -/
def encR (j : Fin 8192) : EReal := Ideal.div (pR e xr j) (sR e xr)

/-- On real inputs `E`, `X` both programs' exp(logit − max) are one family of positive reals: with
    `a j = X·(E_j + E_j) − ‖E_j‖²` and `N = ‖X‖²` the reference's logit is `a j − N`, its maximum `M − N` for the kernel's
    maximum `M`, and the difference logit − max is `a j − M` in both. -/
theorem row_real (E : Fin 8192 → Fin 256 → ℝ) (X : Fin 256 → ℝ) :
    ∃ P : Fin 8192 → ℝ, (∀ j, 0 < P j) ∧
      (∀ j, pK (fun j k => ((E j k : ℝ) : EReal)) (fun k => ((X k : ℝ) : EReal)) j = ((P j : ℝ) : EReal)) ∧
      (∀ j, pR (fun j k => ((E j k : ℝ) : EReal)) (fun k => ((X k : ℝ) : EReal)) j = ((P j : ℝ) : EReal)) := by
  have hesq : ∀ j, esq (fun j k => ((E j k : ℝ) : EReal)) j = ((∑ k, E j k * E j k : ℝ) : EReal) := fun j => by
    unfold esq; simp only [← EReal.coe_mul]; exact coe_sum _ _
  have htK : ∀ j, tK (fun j k => ((E j k : ℝ) : EReal)) (fun k => ((X k : ℝ) : EReal)) j
      = (((∑ k, X k * (E j k + E j k)) - ∑ k, E j k * E j k : ℝ) : EReal) := fun j => by
    unfold tK; rw [hesq]; simp only [← EReal.coe_add, ← EReal.coe_mul]; rw [coe_sum, ← EReal.coe_sub]
  have htR : ∀ j, tR (fun j k => ((E j k : ℝ) : EReal)) (fun k => ((X k : ℝ) : EReal)) j
      = ((((∑ k, X k * (E j k + E j k)) - ∑ k, E j k * E j k) - ∑ k, X k * X k : ℝ) : EReal) := fun j => by
    have h2 : ∑ k, X k * (E j k + E j k) = 2 * ∑ k, X k * E j k := by
      rw [Finset.mul_sum]; exact Finset.sum_congr rfl fun k _ => by ring
    unfold tR; rw [hesq, c1_eq, c2_eq]; simp only [← EReal.coe_mul]
    rw [coe_sum, coe_sum, ← EReal.coe_add, ← EReal.coe_mul, ← EReal.coe_sub, ← EReal.coe_neg, ← EReal.coe_one,
      Ideal.div_coe one_ne_zero, ← EReal.coe_mul, h2]
    congr 1; ring
  obtain ⟨M, hM⟩ := fold_max_coe Finset.univ Finset.univ_nonempty
    (fun j : Fin 8192 => (∑ k, X k * (E j k + E j k)) - ∑ k, E j k * E j k)
  have hmK : mK (fun j k => ((E j k : ℝ) : EReal)) (fun k => ((X k : ℝ) : EReal)) = ((M : ℝ) : EReal) := by
    have h0 := hM 0
    simp only [sub_zero] at h0
    unfold mK; rw [cNegInf_eq, funext htK, h0]
  have hmR : mR (fun j k => ((E j k : ℝ) : EReal)) (fun k => ((X k : ℝ) : EReal))
      = ((M - ∑ k, X k * X k : ℝ) : EReal) := by
    unfold mR; rw [cNegInf_eq, funext htR, hM]; exact max_eq_right bot_le
  refine ⟨fun j => Real.exp (((∑ k, X k * (E j k + E j k)) - ∑ k, E j k * E j k) - M), fun j => Real.exp_pos _,
    fun j => ?_, fun j => ?_⟩
  · unfold pK; rw [htK, hmK, ← EReal.coe_sub]
    exact Ideal.exp_coe _
  · unfold pR; rw [htR, hmR, ← EReal.coe_sub, sub_sub_sub_cancel_right]
    exact Ideal.exp_coe _

/-- … so on real inputs each program's assignment is that positive real over the positive real sum of the family. -/
theorem enc_real (he : ∀ j k, IsReal (e j k)) (hx : ∀ k, IsReal (xr k)) :
    ∃ (P : Fin 8192 → ℝ) (S : ℝ), (∀ j, 0 < P j) ∧ 0 < S ∧
      (∀ j, encK e xr j = ((P j * (1 / S) : ℝ) : EReal)) ∧ (∀ j, encR e xr j = ((P j * (1 / S) : ℝ) : EReal)) := by
  choose E hE using he
  choose X hX using hx
  obtain rfl : e = fun j k => ((E j k : ℝ) : EReal) := funext fun j => funext fun k => hE j k
  obtain rfl : xr = fun k => ((X k : ℝ) : EReal) := funext hX
  obtain ⟨P, hP, hK, hR⟩ := row_real E X
  have hS : 0 < ∑ j, P j := Finset.sum_pos (fun j _ => hP j) Finset.univ_nonempty
  refine ⟨P, ∑ j, P j, hP, hS, fun j => ?_, fun j => ?_⟩
  · unfold encK sK; simp only [hK]; rw [coe_sum, c1_eq, Ideal.div_coe hS.ne', one_mul, EReal.coe_mul]
  · unfold encR sR; simp only [hR]; rw [coe_sum, Ideal.div_coe hS.ne', EReal.coe_mul]

/-- On real inputs the two softmaxes are one: the row's ‖x‖² cancels in logit − max, and multiplying by the reciprocal of
    a positive real sum is dividing by it. -/
theorem encK_eq_encR (he : ∀ j k, IsReal (e j k)) (hx : ∀ k, IsReal (xr k)) (j : Fin 8192) :
    encK e xr j = encR e xr j := by
  obtain ⟨P, S, _, _, hK, hR⟩ := enc_real e xr he hx
  rw [hK, hR]

/-- A soft assignment of real inputs is a positive real. -/
theorem encR_pos (he : ∀ j k, IsReal (e j k)) (hx : ∀ k, IsReal (xr k)) (j : Fin 8192) : IsPos (encR e xr j) := by
  obtain ⟨P, S, hP, hS, _, hR⟩ := enc_real e xr he hx
  exact ⟨P j * (1 / S), mul_pos (hP j) (one_div_pos.mpr hS), hR j⟩

end Row

/-! ## From an assignment matrix to the results -/

section Whole

variable (e : Fin 8192 → Fin 256 → EReal) (x : Fin 8192 → Fin 256 → EReal) (enc : Fin 8192 → Fin 8192 → EReal)

/-- The quantized row: enc·e. -/
def quant (r : Fin 8192) (k : Fin 256) : EReal := ∑ j : Fin 8192, enc r j * e j k
/-- Quantized minus input. -/
def diff (r : Fin 8192) (k : Fin 256) : EReal := quant e enc r k - x r k
/-- The straight-through result x + (quantized − x). -/
def out (r : Fin 8192) (k : Fin 256) : EReal := x r k + diff e x enc r k
/-- The total squared error. -/
def sqerr : EReal := ∑ r : Fin 8192, ∑ k : Fin 256, diff e x enc r k * diff e x enc r k
/-- The column sums of the assignments (how much each code is used). -/
def colsum (j : Fin 8192) : EReal := ∑ r : Fin 8192, enc r j
/-- xᵀ·enc: entry (k, j). -/
def dwK (k : Fin 256) (j : Fin 8192) : EReal := ∑ r : Fin 8192, x r k * enc r j
/-- encᵀ·x: entry (j, k), as the reference multiplies. -/
def dwR (j : Fin 8192) (k : Fin 256) : EReal := ∑ r : Fin 8192, enc r j * x r k

theorem dwR_eq_dwK (j : Fin 8192) (k : Fin 256) : dwR x enc j k = dwK x enc k j := by
  unfold dwR dwK; exact Finset.sum_congr rfl fun r _ => mul_comm _ _

end Whole

/-! ## The scalar results from the statistics -/

section Scalars

variable (cs : Fin 8192 → EReal) (dw : Fin 256 → Fin 8192 → EReal) (sq : EReal)

/-- The mean assignment per code. -/
def avg (j : Fin 8192) : EReal := Ideal.div (cs j) c8192
/-- Σ avg·log(avg + tiny). -/
def entSum : EReal := ∑ j : Fin 8192, avg cs j * Ideal.log (avg cs j + cTiny)
/-- The mean squared error. -/
def mse : EReal := Ideal.div sq cCount

/-! ### the kernel's arrangement -/
def entK : EReal := c0 - entSum cs
def usageK (j : Fin 8192) : EReal := c001 * cs j
def usumK : EReal := ∑ j : Fin 8192, usageK cs j
def upK (j : Fin 8192) : EReal := Ideal.div (usageK cs j) (usumK cs + cEps)
def divK : EReal := c0 - ∑ j : Fin 8192, upK cs j * Ideal.log (upK cs j + cTiny)
def clusK (j : Fin 8192) : EReal := Ideal.div (usageK cs j + cEps) (usumK cs + cNEps) * usumK cs
/-- Σ_j (Σ_k (0.01·dw_kj)²) / (cluster_j·cluster_j). -/
def regK : EReal :=
  ∑ j : Fin 8192, Ideal.div (∑ k : Fin 256, (c001 * dw k j) * (c001 * dw k j)) (clusK cs j * clusK cs j)
def lossK : EReal := ((mse sq + c025 * mse sq) + regK cs dw) + c08 * (entK cs + divK cs)
def perpK : EReal := Ideal.exp (entK cs)

/-! ### the reference's arrangement (its running averages start from zero: 0.99·0 + 0.01·new) -/
def entR : EReal := -(entSum cs)
def usageR (j : Fin 8192) : EReal := c099 * c0 + c001 * cs j
def usumR : EReal := ∑ j : Fin 8192, usageR cs j
def upR (j : Fin 8192) : EReal := Ideal.div (usageR cs j) (usumR cs + cEps)
def divR : EReal := -(∑ j : Fin 8192, upR cs j * Ideal.log (upR cs j + cTiny))
def clusR (j : Fin 8192) : EReal := Ideal.div (usageR cs j + cEps) (usumR cs + cNEps) * usumR cs
def ewR (j : Fin 8192) (k : Fin 256) : EReal := Ideal.div (c099 * c0 + c001 * dw k j) (clusR cs j)
/-- Σ_{j,k} ((0.99·0 + 0.01·dw_kj) / cluster_j)². -/
def regR : EReal := ∑ j : Fin 8192, ∑ k : Fin 256, ewR cs dw j k * ewR cs dw j k
def lossR : EReal := ((mse sq + c025 * mse sq) + regR cs dw) + c08 * (entR cs + divR cs)
def perpR : EReal := Ideal.exp (entR cs)

/-! ### the two arrangements piece by piece: 0.99·0 + y = y and 0 − s = −s -/

theorem usageR_eq (j : Fin 8192) : usageR cs j = usageK cs j := by
  unfold usageR usageK; rw [c0_eq, mul_zero, zero_add]
theorem usumR_eq : usumR cs = usumK cs := by
  unfold usumR usumK; exact Finset.sum_congr rfl fun j _ => usageR_eq cs j
theorem upR_eq (j : Fin 8192) : upR cs j = upK cs j := by
  unfold upR upK; rw [usageR_eq, usumR_eq]
theorem clusR_eq (j : Fin 8192) : clusR cs j = clusK cs j := by
  unfold clusR clusK; rw [usageR_eq, usumR_eq]
theorem entK_eq : entK cs = entR cs := by
  unfold entK entR; rw [c0_eq, sub_eq_add_neg, zero_add]
theorem divK_eq : divK cs = divR cs := by
  unfold divK divR; rw [c0_eq, sub_eq_add_neg, zero_add]; simp only [upR_eq]

theorem perpK_eq_perpR : perpK cs = perpR cs := by
  unfold perpK perpR; rw [entK_eq]

/-- With positive real usage every cluster size is a positive real. -/
theorem clusK_pos (hcs : ∀ j, IsPos (cs j)) (j : Fin 8192) : IsPos (clusK cs j) := by
  have hu : ∀ j, IsPos (usageK cs j) := fun j => c001_pos.mul (hcs j)
  have hs : IsPos (usumK cs) := isPos_sum _ hu
  exact (((hu j).add cEps_pos).div (hs.add cNEps_pos)).mul hs

/-- For a positive real cluster size `c` and real `a_k`: Σ_k (a_k/c)·(a_k/c) = (Σ_k a_k·a_k)/(c·c). -/
theorem regK_eq_regR (hcs : ∀ j, IsPos (cs j)) (hdw : ∀ k j, IsReal (dw k j)) : regK cs dw = regR cs dw := by
  unfold regK regR
  refine Finset.sum_congr rfl fun j _ => ?_
  obtain ⟨c, hc, hcl⟩ := clusK_pos cs hcs j
  obtain ⟨q, _, hq⟩ := c001_pos
  choose D hD using hdw
  have hc0 : c ≠ 0 := hc.ne'
  have hew : ∀ k, ewR cs dw j k = (((q * D k j) * (1 / c) : ℝ) : EReal) := fun k => by
    unfold ewR
    rw [c0_eq, mul_zero, zero_add, clusR_eq, hcl, hq, hD, Ideal.div_coe hc0, ← EReal.coe_mul, ← EReal.coe_mul]
  simp only [hew]
  rw [hcl]
  simp only [hq, hD, ← EReal.coe_mul]
  rw [coe_sum, coe_sum, Ideal.div_coe (mul_ne_zero hc0 hc0), ← EReal.coe_mul, Finset.sum_mul]
  refine congrArg _ (Finset.sum_congr rfl fun k _ => ?_)
  field_simp

/-- With positive real usage and real products the two arrangements of the loss agree: 0.99·0 + y = y, 0 − s = −s,
    and (a/c)² summed over k is (Σ a²)/(c·c) for a nonzero real c. -/
theorem lossK_eq_lossR (hcs : ∀ j, IsPos (cs j)) (hdw : ∀ k j, IsReal (dw k j)) :
    lossK cs dw sq = lossR cs dw sq := by
  unfold lossK lossR; rw [regK_eq_regR cs dw hcs hdw, entK_eq, divK_eq]

end Scalars

/-! ## Realness of the statistics of real inputs -/

theorem colsum_pos (enc : Fin 8192 → Fin 8192 → EReal) (h : ∀ r j, IsPos (enc r j)) (j : Fin 8192) :
    IsPos (colsum enc j) := by
  unfold colsum; exact isPos_sum _ fun r => h r j

theorem dwK_real (x : Fin 8192 → Fin 256 → EReal) (enc : Fin 8192 → Fin 8192 → EReal) (hx : ∀ r k, IsReal (x r k))
    (h : ∀ r j, IsPos (enc r j)) (k : Fin 256) (j : Fin 8192) : IsReal (dwK x enc k j) := by
  unfold dwK; exact isReal_sum _ fun r => (hx r k).mul (h r j).isReal

/-! ## Sums over the rows, tile by tile -/

/-- Row `256·t + r` of the flattened input, for tile `t` and row `r` within it. -/
def tileRow (t : Fin 32) (r : Fin 256) : Fin 8192 := ⟨256 * t.val + r.val, by have := t.isLt; have := r.isLt; omega⟩

/-- A sum over the 8192 rows is the sum over the 32 tiles of the sums over each tile's 256 rows. -/
theorem sum_rows_tiles {M : Type*} [AddCommMonoid M] (f : Fin 8192 → M) :
    ∑ r : Fin 8192, f r = ∑ t : Fin 32, ∑ r : Fin 256, f (tileRow t r) := by
  rw [← Fintype.sum_prod_type' (fun t r => f (tileRow t r))]
  refine (Fintype.sum_equiv (finProdFinEquiv.trans (finCongr (by norm_num : 32 * 256 = 8192))) _ _ fun p => ?_).symm
  refine congrArg f (Fin.ext ?_)
  simp [tileRow, finProdFinEquiv]
  omega

/-- Row `1024·b + s` of the flattened input, for batch `b` and position `s`. -/
def batchRow (b : Fin 8) (s : Fin 1024) : Fin 8192 := ⟨1024 * b.val + s.val, by have := b.isLt; have := s.isLt; omega⟩

theorem sum_rows_batches {M : Type*} [AddCommMonoid M] (f : Fin 8192 → M) :
    ∑ r : Fin 8192, f r = ∑ b : Fin 8, ∑ s : Fin 1024, f (batchRow b s) := by
  rw [← Fintype.sum_prod_type' (fun b s => f (batchRow b s))]
  refine (Fintype.sum_equiv (finProdFinEquiv.trans (finCongr (by norm_num : 8 * 1024 = 8192))) _ _ fun p => ?_).symm
  refine congrArg f (Fin.ext ?_)
  simp [batchRow, finProdFinEquiv]
  omega

end VQ

end
-- ==== Proof.Results.lean ====
/-
  The three results of the soft-assignment step as functions of the two argument arrays: the straight-through
  output (an array of the input's shape), the loss and the perplexity (scalars). Both programs are shown to end
  at these. The assignments are taken in the reference's softmax form; the statistics (column sums of the
  assignments, xᵀ·enc, the total squared error) feed the reference's arrangement of the scalar formulas.
-/
import proofs.«135943_g45775761441265_cont_8to1_c_906_25_alg».proof.Proof.Spec
import Idealize.ShloMosaic.Lib.ValueIdx

noncomputable section

namespace VQ

open Idealize.ShloMosaic Idealize.ShloMosaic.ValueIdx

abbrev SX : Shape := ⟨3, ![8, 1024, 256]⟩
abbrev SE : Shape := ⟨2, ![8192, 256]⟩
abbrev S0 : Shape := ⟨0, ![]⟩

/-- Batch and position of a flattened row. -/
def rowB (r : Fin 8192) : Fin 8 := ⟨r.val / 1024, by have := r.isLt; omega⟩
def rowS (r : Fin 8192) : Fin 1024 := ⟨r.val % 1024, Nat.mod_lt _ (by norm_num)⟩

/-- The input with its two leading axes flattened: row `r` is (batch r / 1024, position r % 1024). -/
def flatX (xa : SX.Idx → EReal) : Fin 8192 → Fin 256 → EReal := fun r k => xa (ix3 (rowB r) (rowS r) k)
/-- The codebook by code and entry. -/
def codes (ea : SE.Idx → EReal) : Fin 8192 → Fin 256 → EReal := fun j k => ea (ix2 j k)
/-- The soft assignments of every row. -/
def encM (xa : SX.Idx → EReal) (ea : SE.Idx → EReal) : Fin 8192 → Fin 8192 → EReal :=
  fun r j => encR (codes ea) (flatX xa r) j

/-- The straight-through output, an array of the input's shape. -/
def outArr (xa : SX.Idx → EReal) (ea : SE.Idx → EReal) : SX.Idx → EReal :=
  fun i => out (codes ea) (flatX xa) (encM xa ea) (batchRow (i 0) (i 1)) (i 2)
/-- The loss. -/
def lossVal (xa : SX.Idx → EReal) (ea : SE.Idx → EReal) : EReal :=
  lossR (colsum (encM xa ea)) (dwK (flatX xa) (encM xa ea)) (sqerr (codes ea) (flatX xa) (encM xa ea))
/-- The perplexity. -/
def perpVal (xa : SX.Idx → EReal) (ea : SE.Idx → EReal) : EReal := perpR (colsum (encM xa ea))

theorem rowB_batchRow (b : Fin 8) (s : Fin 1024) : rowB (batchRow b s) = b := by
  apply Fin.ext; show (1024 * b.val + s.val) / 1024 = b.val; have := s.isLt; omega
theorem rowS_batchRow (b : Fin 8) (s : Fin 1024) : rowS (batchRow b s) = s := by
  apply Fin.ext; show (1024 * b.val + s.val) % 1024 = s.val; have := s.isLt; omega
theorem batchRow_rowB_rowS (r : Fin 8192) : batchRow (rowB r) (rowS r) = r := by
  apply Fin.ext; show 1024 * (r.val / 1024) + r.val % 1024 = r.val; omega

end VQ

end
-- ==== Proof.Ideal.Inputs.lean ====
/-
  The blocks the kernel's two input windows hold, read off the argument arrays: tile t of the first window is
  rows 256·t .. 256·t + 255 of the input flattened to 8192 rows (the host reshape before the region), and the
  second window's block is the whole codebook at every point.
-/
import proofs.«135943_g45775761441265_cont_8to1_c_906_25_alg».proof.Proof.Gen.KernelIdeal.Frame
import proofs.«135943_g45775761441265_cont_8to1_c_906_25_alg».proof.Proof.Spec
import proofs.«135943_g45775761441265_cont_8to1_c_906_25_alg».proof.Proof.Results
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- A grid point as a tile number. -/
def tileOf (t : Fin cfg0.N) : Fin 32 := ⟨t.val, lt_of_lt_of_eq t.isLt (show cfg0.N = 32 from N_0)⟩

/-- The flattened input as the region finds it: the host reshape of the first argument, written before the region. -/
theorem V_main_v0 (c : Dev nD) :
    (V m c main_v0 : S8192x256.Idx → EReal)
      = shapeCast S8192x256 (m ((c.tc : Thread nD τ).loc main_arg0)) Facts₀.shapeCasts_S8x1024x256_S8192x256 := by
  show StableHlo.after hostOps0 (fun b => m (c, b)) (Proc.devRef .tc main_v0) = _
  after_results
  rfl

/-- The reshape to 8192 rows read at row `256·t + r`: both arrays are laid out row-major, so the entry is the input's at
    batch `(256·t + r) / 1024`, position `(256·t + r) % 1024`. -/
theorem flat_apply (xa : Vec Ideal S8x1024x256 .f32) (h : S8x1024x256.ShapeCasts S8192x256) (i : S8192x256.Idx)
    (t : Fin 32) (r k : Fin 256) (h0 : (i 0).val = 256 * t.val + r.val) (h1 : (i 1).val = k.val) :
    shapeCast S8192x256 xa h i = VQ.flatX xa (VQ.tileRow t r) k := by
  unfold VQ.flatX
  refine shapeCast_apply xa h i (ix3 (VQ.rowB (VQ.tileRow t r)) (VQ.rowS (VQ.tileRow t r)) k) ?_
  rw [Shape.rowMajor_val_three, Shape.rowMajor_val_two]
  show ((256 * t.val + r.val) / 1024 * 1024 + (256 * t.val + r.val) % 1024) * 256 + k.val = (i 0).val * 256 + (i 1).val
  rw [h0, h1]
  omega

/-- The first window's block at point `t`: the rows of tile `t` of the flattened input. -/
theorem iblk0_apply (c : Dev nD) (t : Fin cfg0.N) (r k : Fin 256) :
    (iblk m c 0 t : Vec Ideal S256x256 .f32) (ix2 r k)
      = VQ.flatX (m ((c.tc : Thread nD τ).loc main_arg0)) (VQ.tileRow (tileOf t) r) k := by
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_v0 (((cfg0.win 0).blk t).view.emb (ix2 r k)) = _
  rw [V_main_v0]
  refine flat_apply _ _ _ (tileOf t) r k ?_ ?_
  · show win0_0.index t 0 * 256 + 1 * r.val = 256 * t.val + r.val
    rw [(hi t).1]; omega
  · show win0_0.index t 1 * 256 + 1 * k.val = k.val
    rw [(hi t).2]; omega

/-- The second window's block at any point: the whole codebook. -/
theorem iblk1_apply (c : Dev nD) (t : Fin cfg0.N) (j : Fin 8192) (k : Fin 256) :
    (iblk m c 1 t : Vec Ideal S8192x256 .f32) (ix2 j k) = m ((c.tc : Thread nD τ).loc main_arg1) (ix2 j k) := by
  have hi : ∀ t : Fin cfg0.N, win0_1.index t 0 = 0 ∧ win0_1.index t 1 = 0 :=
    (by decide +kernel : ∀ t : Fin grid0.N, win0_1.index t 0 = 0 ∧ win0_1.index t 1 = 0)
  unfold iblk
  rw [View.read_apply]
  show V m c main_arg1 _ = m (c.tc.loc main_arg1) _
  rw [V_main_arg1]
  congr 1
  funext a
  apply Fin.ext
  match a with
  | ⟨0, _⟩ => show win0_1.index t 0 * 8192 + 1 * j.val = j.val; rw [(hi t).1]; omega
  | ⟨1, _⟩ => show win0_1.index t 1 * 256 + 1 * k.val = k.val; rw [(hi t).2]; omega

end Cert.KernelIdeal.Hand
end
-- ==== Proof.Ideal.TileEnc.lean ====
/-
  One tile of the kernel read index by index over the extended reals: the codebook scratch the first point
  writes, the tile's soft assignments, the output tile and the squared differences.
-/
import proofs.«135943_g45775761441265_cont_8to1_c_906_25_alg».proof.Proof.Ideal.Step
import proofs.«135943_g45775761441265_cont_8to1_c_906_25_alg».proof.Proof.Spec
import proofs.«135943_g45775761441265_cont_8to1_c_906_25_alg».proof.Proof.Results
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Idealize.SL.Sem Cert.KernelIdeal Cert.KernelIdeal.Gen

/-- Row `r` of a tile. -/
def rowOf (x : Vec Ideal S256x256 .f32) (r : Fin 256) : Fin 256 → EReal := fun k => x (ix2 r k)

variable (e : Vec Ideal S8192x256 .f32) (x : Vec Ideal S256x256 .f32)

namespace Enc

/-! ## Two layout readings: a vector as a column, a column spread along the rows -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The indices a one-axis reduction of a 256×8192 array reads -/

/-- The index a sum over the rows of a 256×8192 array reads at row `k`, column `j`. -/
theorem lift0_eq (h : S256x8192.Reduces [0] S8192) (j : Fin 8192) (k : Fin 256) :
    h.lift (ix1 j) k = ix2 k j := by
  funext a
  match a with
  | ⟨0, _⟩ => exact Fin.ext rfl
  | ⟨1, _⟩ => exact Fin.ext rfl

/-- The index a reduction along the columns of a 256×8192 array reads at row `r`, column `j`. -/
theorem lift1_eq (h : S256x8192.Reduces [1] S256) (r : Fin 256) (j : Fin 8192) :
    h.lift (ix1 r) j = ix2 r j := by
  funext a
  match a with
  | ⟨0, _⟩ => exact Fin.ext rfl
  | ⟨1, _⟩ => exact Fin.ext rfl

/-- The transposed codebook at `(k, j)` is the codebook at `(j, k)`. -/
theorem pay14_apply (k : Fin 256) (j : Fin 8192) : k0_pay14 e (ix2 k j) = e (ix2 j k) := by
  unfold k0_pay14
  exact transpose_ix2_apply e _ k j

/-! ## The two products at an entry

Each product contracts the left operand's columns with the right operand's rows; the operand indices at an output entry
and a contraction position are read off axis by axis. -/

theorem dotA_lhs_0 (j : S256x8192.Idx) (q : dot_S256x256_S256x8192_S256x8192_1_0_0_1_n_n.contr.Idx) :
    (dot_S256x256_S256x8192_S256x8192_1_0_0_1_n_n.lhsIdx j q (0 : Fin 2)).val = (j (0 : Fin 2)).val := rfl

theorem dotA_lhs_1 (j : S256x8192.Idx) (q : dot_S256x256_S256x8192_S256x8192_1_0_0_1_n_n.contr.Idx) :
    (dot_S256x256_S256x8192_S256x8192_1_0_0_1_n_n.lhsIdx j q (1 : Fin 2)).val = (q ⟨0, by decide⟩).val :=
  dot_S256x256_S256x8192_S256x8192_1_0_0_1_n_n.lhsIdx_val_of_single rfl j q

theorem dotA_rhs_0 (j : S256x8192.Idx) (q : dot_S256x256_S256x8192_S256x8192_1_0_0_1_n_n.contr.Idx) :
    (dot_S256x256_S256x8192_S256x8192_1_0_0_1_n_n.rhsIdx j q (0 : Fin 2)).val = (q ⟨0, by decide⟩).val :=
  dot_S256x256_S256x8192_S256x8192_1_0_0_1_n_n.rhsIdx_val_of_single rfl j q

theorem dotA_rhs_1 (j : S256x8192.Idx) (q : dot_S256x256_S256x8192_S256x8192_1_0_0_1_n_n.contr.Idx) :
    (dot_S256x256_S256x8192_S256x8192_1_0_0_1_n_n.rhsIdx j q (1 : Fin 2)).val = (j (1 : Fin 2)).val := rfl

/-- The first product at an entry: the row of the left operand against the column of the right. -/
theorem matmulA_apply (a : FVec Ideal S256x256 .bf16) (b : FVec Ideal S256x8192 .bf16) (r : Fin 256) (j : Fin 8192) :
    matmul (F := Ideal) (φ₁ := .bf16) (φ₂ := .bf16) dot_S256x256_S256x8192_S256x8192_1_0_0_1_n_n none a b
        (constant (F := Ideal) S256x8192 .f32 0x00000000#32) (ix2 r j)
      = ∑ k : Fin 256, a (ix2 r k) * b (ix2 k j) := by
  refine (Ideal.matmul_constant_zero_apply _ _ a b (ix2 r j)).trans ?_
  rw [← Equiv.sum_comp (contrEquiv1 dot_S256x256_S256x8192_S256x8192_1_0_0_1_n_n 256 rfl rfl).symm]
  refine Finset.sum_congr rfl fun k _ => ?_
  have hk := contrEquiv1_symm_val dot_S256x256_S256x8192_S256x8192_1_0_0_1_n_n 256 rfl rfl k
  have hl : dot_S256x256_S256x8192_S256x8192_1_0_0_1_n_n.lhsIdx (ix2 r j)
      ((contrEquiv1 dot_S256x256_S256x8192_S256x8192_1_0_0_1_n_n 256 rfl rfl).symm k) = ix2 r k := by
    funext c
    match c with
    | ⟨0, _⟩ => exact Fin.ext (dotA_lhs_0 _ _)
    | ⟨1, _⟩ => exact Fin.ext ((dotA_lhs_1 _ _).trans hk)
  have hr : dot_S256x256_S256x8192_S256x8192_1_0_0_1_n_n.rhsIdx (ix2 r j)
      ((contrEquiv1 dot_S256x256_S256x8192_S256x8192_1_0_0_1_n_n 256 rfl rfl).symm k) = ix2 k j := by
    funext c
    match c with
    | ⟨0, _⟩ => exact Fin.ext ((dotA_rhs_0 _ _).trans hk)
    | ⟨1, _⟩ => exact Fin.ext (dotA_rhs_1 _ _)
  rw [hl, hr]

theorem dotB_lhs_0 (j : S256x256.Idx) (q : dot_S256x8192_S8192x256_S256x256_1_0_0_1_n_n.contr.Idx) :
    (dot_S256x8192_S8192x256_S256x256_1_0_0_1_n_n.lhsIdx j q (0 : Fin 2)).val = (j (0 : Fin 2)).val := rfl

theorem dotB_lhs_1 (j : S256x256.Idx) (q : dot_S256x8192_S8192x256_S256x256_1_0_0_1_n_n.contr.Idx) :
    (dot_S256x8192_S8192x256_S256x256_1_0_0_1_n_n.lhsIdx j q (1 : Fin 2)).val = (q ⟨0, by decide⟩).val :=
  dot_S256x8192_S8192x256_S256x256_1_0_0_1_n_n.lhsIdx_val_of_single rfl j q

theorem dotB_rhs_0 (j : S256x256.Idx) (q : dot_S256x8192_S8192x256_S256x256_1_0_0_1_n_n.contr.Idx) :
    (dot_S256x8192_S8192x256_S256x256_1_0_0_1_n_n.rhsIdx j q (0 : Fin 2)).val = (q ⟨0, by decide⟩).val :=
  dot_S256x8192_S8192x256_S256x256_1_0_0_1_n_n.rhsIdx_val_of_single rfl j q

theorem dotB_rhs_1 (j : S256x256.Idx) (q : dot_S256x8192_S8192x256_S256x256_1_0_0_1_n_n.contr.Idx) :
    (dot_S256x8192_S8192x256_S256x256_1_0_0_1_n_n.rhsIdx j q (1 : Fin 2)).val = (j (1 : Fin 2)).val := rfl

/-- The second product at an entry: a row of assignments against a column of the codebook. -/
theorem matmulB_apply (a : FVec Ideal S256x8192 .bf16) (b : FVec Ideal S8192x256 .bf16) (r k : Fin 256) :
    matmul (F := Ideal) (φ₁ := .bf16) (φ₂ := .bf16) dot_S256x8192_S8192x256_S256x256_1_0_0_1_n_n none a b
        (constant (F := Ideal) S256x256 .f32 0x00000000#32) (ix2 r k)
      = ∑ j : Fin 8192, a (ix2 r j) * b (ix2 j k) := by
  refine (Ideal.matmul_constant_zero_apply _ _ a b (ix2 r k)).trans ?_
  rw [← Equiv.sum_comp (contrEquiv1 dot_S256x8192_S8192x256_S256x256_1_0_0_1_n_n 8192 rfl rfl).symm]
  refine Finset.sum_congr rfl fun j _ => ?_
  have hj := contrEquiv1_symm_val dot_S256x8192_S8192x256_S256x256_1_0_0_1_n_n 8192 rfl rfl j
  have hl : dot_S256x8192_S8192x256_S256x256_1_0_0_1_n_n.lhsIdx (ix2 r k)
      ((contrEquiv1 dot_S256x8192_S8192x256_S256x256_1_0_0_1_n_n 8192 rfl rfl).symm j) = ix2 r j := by
    funext c
    match c with
    | ⟨0, _⟩ => exact Fin.ext (dotB_lhs_0 _ _)
    | ⟨1, _⟩ => exact Fin.ext ((dotB_lhs_1 _ _).trans hj)
  have hr : dot_S256x8192_S8192x256_S256x256_1_0_0_1_n_n.rhsIdx (ix2 r k)
      ((contrEquiv1 dot_S256x8192_S8192x256_S256x256_1_0_0_1_n_n 8192 rfl rfl).symm j) = ix2 j k := by
    funext c
    match c with
    | ⟨0, _⟩ => exact Fin.ext ((dotB_rhs_0 _ _).trans hj)
    | ⟨1, _⟩ => exact Fin.ext (dotB_rhs_1 _ _)
  rw [hl, hr]

/-! ## The softmax of a tile, stage by stage -/

/-- The tile as the first product's left operand: the change of format is the identity on the extended reals. -/
theorem pay18_apply (r k : Fin 256) : k0_pay18 x (ix2 r k) = x (ix2 r k) := by
  unfold k0_pay18
  rw [shapeCast_self]

theorem pay19_apply (r k : Fin 256) : k0_pay19 x (ix2 r k) = x (ix2 r k) := by
  unfold k0_pay19
  exact pay18_apply x r k

section Softmax
variable (s1 : Vec Ideal S256x8192 .bf16) (s2 : Vec Ideal S1x8192 .f32)

/-- The tile's logits: the tile times the doubled transposed codebook, minus the squared norms along each row. -/
def logitV : FVec Ideal S256x8192 .f32 :=
  subf (matmul (F := Ideal) (φ₁ := .bf16) (φ₂ := .bf16) dot_S256x256_S256x8192_S256x8192_1_0_0_1_n_n none (k0_pay19 x) s1
      (constant (F := Ideal) S256x8192 .f32 0x00000000#32))
    (broadcastTo S256x8192 s2 Facts₀.broadcasts_S1x8192_S256x8192)

/-- Each row's largest logit, as a column. -/
def maxV : FVec Ideal S256x1 .f32 :=
  shapeCast S256x1 (multiReduction (F := Ideal) .maximumf [1] S256 (logitV x s1 s2) 0xFF800000#32
    Facts₀.reduces_S256x8192_S256 (.inl rfl) rfl) Facts₀.shapeCasts_S256_S256x1

/-- The exponentials of the logits less their row's maximum. -/
def expV : FVec Ideal S256x8192 .f32 :=
  exp (subf (logitV x s1 s2) (broadcastTo S256x8192 (maxV x s1 s2) Facts₀.broadcasts_S256x1_S256x8192))

/-- Each row's sum of exponentials, as a column. -/
def sumV : FVec Ideal S256x1 .f32 :=
  shapeCast S256x1 (multiReduction (F := Ideal) .add [1] S256 (expV x s1 s2) 0x00000000#32
    Facts₀.reduces_S256x8192_S256 (.inl rfl) rfl) Facts₀.shapeCasts_S256_S256x1

/-- The soft assignments are the exponentials times the reciprocal of their row's sum. -/
theorem pay20_eq : k0_pay20 x s2 s1 =
    truncf .bf16 (mulf (expV x s1 s2)
      (broadcastTo S256x8192 (divf (broadcast S256x1 (Scalar.ofBits (F := Ideal) .f32 0x3F800000#32)) (sumV x s1 s2))
        Facts₀.broadcasts_S256x1_S256x8192)) Facts₀.bitsLt_bf16_f32 := by
  unfold k0_pay20 sumV expV maxV logitV
  rfl

variable (h1 : ∀ (k : Fin 256) (j : Fin 8192), s1 (ix2 k j) = e (ix2 j k) + e (ix2 j k))
  (h2 : ∀ j : Fin 8192, s2 (ix2 0 j) = VQ.esq (VQ.codes e) j)

include h1 h2 in
theorem logitV_apply (r : Fin 256) (j : Fin 8192) :
    logitV x s1 s2 (ix2 r j) = VQ.tK (VQ.codes e) (rowOf x r) j := by
  unfold logitV
  rw [subf_apply, matmulA_apply, broadcastTo_1b_ab_apply, h2]
  unfold VQ.tK
  refine congrArg (· - VQ.esq (VQ.codes e) j) (Finset.sum_congr rfl fun k _ => ?_)
  rw [pay19_apply, h1]
  rfl

include h1 h2 in
theorem maxV_apply (r : Fin 256) : maxV x s1 s2 (ix2 r 0) = VQ.mK (VQ.codes e) (rowOf x r) := by
  unfold maxV
  refine (shapeCast_a_a1_apply _ _ r (0 : Fin 1)).trans ?_
  refine (Ideal.multiReduction_maximumf_single _ _ _ _ _ _).trans ?_
  have hf : (logitV x s1 s2 ∘ Facts₀.reduces_S256x8192_S256.lift (ix1 r)) = VQ.tK (VQ.codes e) (rowOf x r) :=
    funext fun (j : Fin 8192) => by
      show logitV x s1 s2 (Facts₀.reduces_S256x8192_S256.lift (ix1 r) j) = _
      rw [lift1_eq, logitV_apply e x s1 s2 h1 h2]
  rw [hf]
  rfl

include h1 h2 in
theorem expV_apply (r : Fin 256) (j : Fin 8192) :
    expV x s1 s2 (ix2 r j) = VQ.pK (VQ.codes e) (rowOf x r) j := by
  unfold expV
  show Ideal.exp (logitV x s1 s2 (ix2 r j) - broadcastTo S256x8192 (maxV x s1 s2) Facts₀.broadcasts_S256x1_S256x8192 (ix2 r j)) = _
  rw [broadcastTo_a1_ab_apply, logitV_apply e x s1 s2 h1 h2, maxV_apply e x s1 s2 h1 h2]
  rfl

include h1 h2 in
theorem sumV_apply (r : Fin 256) : sumV x s1 s2 (ix2 r 0) = VQ.sK (VQ.codes e) (rowOf x r) := by
  unfold sumV
  refine (shapeCast_a_a1_apply _ _ r (0 : Fin 1)).trans ?_
  refine (Ideal.multiReduction_add_single _ _ _ _ _ _).trans ?_
  unfold VQ.sK
  refine Finset.sum_congr rfl fun (j : Fin 8192) _ => ?_
  rw [lift1_eq, expV_apply e x s1 s2 h1 h2]

end Softmax

end Enc

open Enc

/-- The first scratch is the codebook itself: the change of format is the identity on the extended reals. -/
theorem prep0_apply (j : Fin 8192) (k : Fin 256) : prep0 e (ix2 j k) = e (ix2 j k) := by
  show k0_pay15 e (ix2 j k) = _
  unfold k0_pay15
  rw [shapeCast_self]
  rfl

/-- The second scratch is the transposed codebook doubled. -/
theorem prep1_apply (k : Fin 256) (j : Fin 8192) : prep1 e (ix2 k j) = e (ix2 j k) + e (ix2 j k) := by
  show k0_pay16 e (ix2 k j) = _
  unfold k0_pay16
  rw [shapeCast_self]
  show k0_pay14 e (ix2 k j) + k0_pay14 e (ix2 k j) = _
  rw [pay14_apply]

/-- The third scratch holds each code vector's squared norm. -/
theorem prep2_apply (j : Fin 8192) : prep2 e (ix2 0 j) = VQ.esq (VQ.codes e) j := by
  show k0_pay17 e (ix2 0 j) = _
  unfold k0_pay17
  rw [shapeCast_self]
  refine (shapeCast_a_1a_apply _ _ (0 : Fin 1) j).trans ?_
  refine (Ideal.multiReduction_add_single _ _ _ _ _ _).trans ?_
  unfold VQ.esq VQ.codes
  refine Finset.sum_congr rfl fun (k : Fin 256) _ => ?_
  show k0_pay14 e _ * k0_pay14 e _ = _
  rw [lift0_eq, pay14_apply]

/-- The tile's soft assignments, over scratch that holds what the first point wrote (in the sense of the three readings). -/
theorem encT_apply (s1 : Vec Ideal S256x8192 .bf16) (s2 : Vec Ideal S1x8192 .f32)
    (h1 : ∀ (k : Fin 256) (j : Fin 8192), s1 (ix2 k j) = e (ix2 j k) + e (ix2 j k))
    (h2 : ∀ j : Fin 8192, s2 (ix2 0 j) = VQ.esq (VQ.codes e) j)
    (r : Fin 256) (j : Fin 8192) :
    encT x s1 s2 (ix2 r j) = VQ.encK (VQ.codes e) (rowOf x r) j := by
  show k0_pay20 x s2 s1 (ix2 r j) = _
  rw [pay20_eq]
  show expV x s1 s2 (ix2 r j) * broadcastTo S256x8192 (divf (broadcast S256x1 (Scalar.ofBits (F := Ideal) .f32 0x3F800000#32)) (sumV x s1 s2))
        Facts₀.broadcasts_S256x1_S256x8192 (ix2 r j) = _
  rw [broadcastTo_a1_ab_apply, divf_apply, broadcast_apply, expV_apply e x s1 s2 h1 h2, sumV_apply e x s1 s2 h1 h2]
  rfl

/-- The quantized-minus-input difference at an entry of the tile. -/
def diffT (r k : Fin 256) : EReal :=
  (∑ j : Fin 8192, VQ.encK (VQ.codes e) (rowOf x r) j * e (ix2 j k)) - x (ix2 r k)

/-- The quantized rows less the tile, at an entry. -/
theorem Enc.pay21_apply (s0 : Vec Ideal S8192x256 .bf16) (s1 : Vec Ideal S256x8192 .bf16) (s2 : Vec Ideal S1x8192 .f32)
    (h0 : ∀ (j : Fin 8192) (k : Fin 256), s0 (ix2 j k) = e (ix2 j k))
    (h1 : ∀ (k : Fin 256) (j : Fin 8192), s1 (ix2 k j) = e (ix2 j k) + e (ix2 j k))
    (h2 : ∀ j : Fin 8192, s2 (ix2 0 j) = VQ.esq (VQ.codes e) j)
    (r k : Fin 256) :
    k0_pay21 x s2 s1 s0 (ix2 r k) = diffT e x r k := by
  unfold k0_pay21
  rw [subf_apply, matmulB_apply, pay18_apply]
  unfold diffT
  refine congrArg (· - x (ix2 r k)) (Finset.sum_congr rfl fun j _ => ?_)
  rw [h0]
  exact congrArg (· * e (ix2 j k)) (encT_apply e x s1 s2 h1 h2 r j)

/-- The output tile: the input plus the difference. -/
theorem outT_apply (s0 : Vec Ideal S8192x256 .bf16) (s1 : Vec Ideal S256x8192 .bf16) (s2 : Vec Ideal S1x8192 .f32)
    (h0 : ∀ (j : Fin 8192) (k : Fin 256), s0 (ix2 j k) = e (ix2 j k))
    (h1 : ∀ (k : Fin 256) (j : Fin 8192), s1 (ix2 k j) = e (ix2 j k) + e (ix2 j k))
    (h2 : ∀ j : Fin 8192, s2 (ix2 0 j) = VQ.esq (VQ.codes e) j)
    (r k : Fin 256) :
    outT x s0 s1 s2 (ix2 r k) = x (ix2 r k) + diffT e x r k := by
  show k0_pay22 x s2 s1 s0 (ix2 r k) = _
  unfold k0_pay22
  rw [addf_apply, pay18_apply, pay21_apply e x s0 s1 s2 h0 h1 h2]

/-- The squared differences, as the 1×256×256 array the kernel sums. -/
theorem dsq_apply (s0 : Vec Ideal S8192x256 .bf16) (s1 : Vec Ideal S256x8192 .bf16) (s2 : Vec Ideal S1x8192 .f32)
    (h0 : ∀ (j : Fin 8192) (k : Fin 256), s0 (ix2 j k) = e (ix2 j k))
    (h1 : ∀ (k : Fin 256) (j : Fin 8192), s1 (ix2 k j) = e (ix2 j k) + e (ix2 j k))
    (h2 : ∀ j : Fin 8192, s2 (ix2 0 j) = VQ.esq (VQ.codes e) j)
    (r k : Fin 256) :
    k0_pay24 x s2 s1 s0 (ix3 0 r k) = diffT e x r k * diffT e x r k := by
  unfold k0_pay24
  refine (shapeCast_ab_1ab_apply _ _ (0 : Fin 1) r k).trans ?_
  rw [mulf_apply, pay21_apply e x s0 s1 s2 h0 h1 h2]

end Cert.KernelIdeal.Hand

end
-- ==== Proof.Ideal.TileAcc.lean ====
/-
  The two accumulators of the kernel read index by index over the extended reals: what a point adds to the
  squared-error cell and to the statistics matrix (rows 0..255: xᵀ·enc of the tile; rows 256..263: the column sums
  of the tile's assignments, through the appended columns of ones).
-/
import proofs.«135943_g45775761441265_cont_8to1_c_906_25_alg».proof.Proof.Ideal.Step
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Idealize.SL.Sem Cert.KernelIdeal Cert.KernelIdeal.Gen

/-! ### Small facts the readings below use -/

/-- Selecting on "the grid coordinate is zero" is the `if`. -/
theorem select_pid0 {α : Type} (a : BitVec 32) (A B : α) :
    Scalar.select (Scalar.cmpi .eq a 0#32) A B = if a = 0#32 then A else B := by
  by_cases h : a = 0#32
  · subst h; rfl
  · have hb : (a == 0#32) = false := by simpa using h
    rw [if_neg h]
    simp [Scalar.select, Scalar.cmpi, IntOp.cmpi, hb]

/-- A rank-3 index set with a unit leading axis is the product of its two other coordinate ranges … -/
def idxEquiv3u {n1 n2 : Nat} : (⟨3, ![1, n1, n2]⟩ : Shape).Idx ≃ Fin n1 × Fin n2 where
  toFun i := (i 1, i 2)
  invFun p := ix3 0 p.1 p.2
  left_inv i := by
    funext a
    match a with
    | ⟨0, _⟩ => exact Fin.ext (by have h : (i 0).val < 1 := (i 0).isLt; show 0 = (i 0).val; omega)
    | ⟨1, _⟩ => rfl
    | ⟨2, _⟩ => rfl
  right_inv _ := rfl
/-- … so a sum over it is the double sum over those coordinates. -/
theorem sum_idx3u {M : Type*} [AddCommMonoid M] {n1 n2 : Nat} (f : (⟨3, ![1, n1, n2]⟩ : Shape).Idx → M) :
    ∑ i, f i = ∑ a : Fin n1, ∑ b : Fin n2, f (ix3 0 a b) := by
  rw [← Equiv.sum_comp (idxEquiv3u (n1 := n1) (n2 := n2)).symm f, Fintype.sum_prod_type]
  rfl

/-- The bf16 word 0x3F80 denotes one. -/
theorem ofBits_one_bf16 : Ideal.ofBits .bf16 0x3F80#16 = 1 := by
  simp [Ideal.ofBits, Ideal.ieee, -EReal.coe_mul]; norm_num

/-! ### The statistics product's operand indices, coordinate by coordinate

The product contracts axis 0 of both operands: at result index (a, j) and contraction position r the left operand
is read at (r, a) and the right one at (r, j). On the contracted axis the coordinate is the contraction position's;
on the kept axis it is the result index's coordinate. -/

theorem stat_lidx_0 (j : S264x8192.Idx) (k : dot_S256x264_S256x8192_S264x8192_0_0_1_1_n_n.contr.Idx) :
    (dot_S256x264_S256x8192_S264x8192_0_0_1_1_n_n.lhsIdx j k 0 : ℕ) = k ⟨0, by decide⟩ :=
  DotDims.lhsIdx_val_of_single _ (cl := 0) rfl j k
theorem stat_lidx_1 (j : S264x8192.Idx) (k : dot_S256x264_S256x8192_S264x8192_0_0_1_1_n_n.contr.Idx) :
    (dot_S256x264_S256x8192_S264x8192_0_0_1_1_n_n.lhsIdx j k 1 : ℕ) = j 0 := rfl
theorem stat_ridx_0 (j : S264x8192.Idx) (k : dot_S256x264_S256x8192_S264x8192_0_0_1_1_n_n.contr.Idx) :
    (dot_S256x264_S256x8192_S264x8192_0_0_1_1_n_n.rhsIdx j k 0 : ℕ) = k ⟨0, by decide⟩ :=
  DotDims.rhsIdx_val_of_single _ (cr := 0) rfl j k
theorem stat_ridx_1 (j : S264x8192.Idx) (k : dot_S256x264_S256x8192_S264x8192_0_0_1_1_n_n.contr.Idx) :
    (dot_S256x264_S256x8192_S264x8192_0_0_1_1_n_n.rhsIdx j k 1 : ℕ) = j 1 := rfl

/-- The statistics product into the zero accumulator at (a, j): the sum over the tile's rows r of left(r, a)·right(r, j). -/
theorem stat_matmul_apply (L : FVec Ideal S256x264 .bf16) (R : FVec Ideal S256x8192 .bf16) (a : Fin 264) (j : Fin 8192) :
    matmul dot_S256x264_S256x8192_S264x8192_0_0_1_1_n_n none L R (constant S264x8192 .f32 0x00000000#32) (ix2 a j)
      = ∑ r : Fin 256, L (ix2 r a) * R (ix2 r j) := by
  refine (Ideal.matmul_constant_zero_apply dot_S256x264_S256x8192_S264x8192_0_0_1_1_n_n none L R (ix2 a j)).trans ?_
  rw [← Equiv.sum_comp (contrEquiv1 dot_S256x264_S256x8192_S264x8192_0_0_1_1_n_n 256 rfl rfl).symm]
  refine Finset.sum_congr rfl fun r _ => ?_
  have hl : dot_S256x264_S256x8192_S264x8192_0_0_1_1_n_n.lhsIdx (ix2 a j)
      ((contrEquiv1 dot_S256x264_S256x8192_S264x8192_0_0_1_1_n_n 256 rfl rfl).symm r) = ix2 r a :=
    Shape.idx_ext₂ ((stat_lidx_0 _ _).trans (contrEquiv1_symm_val dot_S256x264_S256x8192_S264x8192_0_0_1_1_n_n 256 rfl rfl r))
      (stat_lidx_1 _ _)
  have hr : dot_S256x264_S256x8192_S264x8192_0_0_1_1_n_n.rhsIdx (ix2 a j)
      ((contrEquiv1 dot_S256x264_S256x8192_S264x8192_0_0_1_1_n_n 256 rfl rfl).symm r) = ix2 r j :=
    Shape.idx_ext₂ ((stat_ridx_0 _ _).trans (contrEquiv1_symm_val dot_S256x264_S256x8192_S264x8192_0_0_1_1_n_n 256 rfl rfl r))
      (stat_ridx_1 _ _)
  rw [hl, hr]

/-! ### The widened left operand: the tile with eight columns of ones appended -/

/-- At a column below 256 it is the tile's entry … -/
theorem cat_lo (v5 : FVec Ideal S256x256 .bf16) (c : FVec Ideal S256x8 .bf16) (r k : Fin 256) :
    concatenate S256x264 1 [⟨S256x256, v5⟩, ⟨S256x8, c⟩] Facts₀.concatenates_S256x256_S256x8_S256x264_d1
        (ix2 r (⟨k.val, by have := k.isLt; omega⟩ : Fin 264)) = v5 (ix2 r k) :=
  concatenate_pair_apply_left (t := S256x264) 1 v5 c Facts₀.concatenates_S256x256_S256x8_S256x264_d1
    (ix2 r (⟨k.val, by have := k.isLt; omega⟩ : Fin 264)) rfl (ix2 r k)
    (fun b => match b with | ⟨0, _⟩ => rfl | ⟨1, _⟩ => rfl)

/-- … and at a column from 256 on it is the appended block's. -/
theorem cat_hi (v5 : FVec Ideal S256x256 .bf16) (c : FVec Ideal S256x8 .bf16) (r : Fin 256) (a : Fin 264) (ha : 256 ≤ a.val) :
    concatenate S256x264 1 [⟨S256x256, v5⟩, ⟨S256x8, c⟩] Facts₀.concatenates_S256x256_S256x8_S256x264_d1 (ix2 r a)
      = c (ix2 r (⟨a.val - 256, by have := a.isLt; omega⟩ : Fin 8)) :=
  concatenate_pair_apply_right (t := S256x264) 1 v5 c Facts₀.concatenates_S256x256_S256x8_S256x264_d1 (ix2 r a) rfl rfl
    (ix2 r (⟨a.val - 256, by have := a.isLt; omega⟩ : Fin 8))
    (fun b hb => match b, hb with | ⟨0, _⟩, _ => rfl | ⟨1, _⟩, hb => absurd rfl hb)
    (by show (a.val - 256) + 256 = a.val; omega)

/-- The statistics value at (a, j): the carried entry plus the sum over the tile's rows of the widened left operand's
    column a times the assignments' column j. -/
theorem pay3_apply (a0 : BitVec 32) (v5 : FVec Ideal S256x256 .bf16) (v24 : FVec Ideal S256x8192 .bf16)
    (v47 : Vec Ideal S264x8192 .f32) (a : Fin 264) (j : Fin 8192) :
    k0_pay3 a0 v5 v24 v47 (ix2 a j)
      = (if a0 = 0#32 then 0 else v47 (ix2 a j))
        + ∑ r : Fin 256, concatenate S256x264 1 [⟨S256x256, v5⟩, ⟨S256x8, broadcast S256x8 (Ideal.ofBits .bf16 0x3F80#16)⟩]
            Facts₀.concatenates_S256x256_S256x8_S256x264_d1 (ix2 r a) * v24 (ix2 r j) := by
  unfold k0_pay3
  rw [addf_apply, stat_matmul_apply, select_pid0]
  congr 1
  by_cases h : a0 = 0#32
  · rw [if_pos h, if_pos h]; exact Ideal.ofBits_zero_f32
  · rw [if_neg h, if_neg h]

variable (i : grid0.Coords) (x : Vec Ideal S256x256 .f32)

/-- What the accumulators start the point from: zero at the first point, else what they held. -/
def carry (i : grid0.Coords) (a : EReal) : EReal := if pid i = 0#32 then 0 else a

/-- The squared-error cell the point starts from, read at its one index. -/
theorem pay23_apply (s4 : Vec Ideal S1x1 .f32) (j : S1x1.Idx) : k0_pay23 i s4 j = carry i (s4 j) := by
  unfold k0_pay23 carry
  dsimp only
  rw [select_pid0]
  by_cases h : pid i = 0#32
  · rw [if_pos h, if_pos h]; exact Ideal.ofBits_zero_f32
  · rw [if_neg h, if_neg h]

/-- The tile in the matrix unit's operand format is the tile (the format change is the identity on the extended reals). -/
theorem pay19_apply (r k : Fin 256) : k0_pay19 x (ix2 r k) = x (ix2 r k) := by
  unfold k0_pay19 k0_pay18
  rw [truncf_apply, shapeCast_self]

/-- The squared-error cell after the point: the carried value plus the sum of the tile's squared differences. -/
theorem sqT_apply (s0 : Vec Ideal S8192x256 .bf16) (s1 : Vec Ideal S256x8192 .bf16) (s2 : Vec Ideal S1x8192 .f32)
    (s4 : Vec Ideal S1x1 .f32) :
    sqT i x s0 s1 s2 s4 (ix2 0 0)
      = carry i (s4 (ix2 0 0)) + ∑ r : Fin 256, ∑ k : Fin 256, k0_pay24 x s2 s1 s0 (ix3 0 r k) := by
  show k0_pay2 (k0_pay23 i s4) (k0_pay24 x s2 s1 s0) (ix2 0 0) = _
  unfold k0_pay2
  rw [shapeCast_self]
  unfold k0_pay1
  rw [addf_apply, broadcast_apply, pay23_apply]
  unfold extractAt shapeCast
  exact congrArg (carry i (s4 (ix2 0 0)) + ·)
    ((Ideal.multiReduction_add_total (k0_pay24 x s2 s1 s0) _ Facts₀.reduces_S1x256x256_S1
      (fun b => match b with | ⟨0, _⟩ => rfl) _ _ _).trans (sum_idx3u _))

/-- The stored statistics are the computed ones (the cast between equal shapes is the identity). -/
theorem statT_eq_statV (s1 : Vec Ideal S256x8192 .bf16) (s2 : Vec Ideal S1x8192 .f32) (s3 : Vec Ideal S264x8192 .f32) :
    statT i x s1 s2 s3 = statV i x s1 s2 s3 := by
  show k0_pay4 _ _ _ _ = _
  unfold k0_pay4
  exact shapeCast_self _ _

/-- Rows 0..255 of the statistics: the carried value plus Σ over the tile's rows of x·enc. -/
theorem statV_apply_lo (s1 : Vec Ideal S256x8192 .bf16) (s2 : Vec Ideal S1x8192 .f32) (s3 : Vec Ideal S264x8192 .f32)
    (k : Fin 256) (j : Fin 8192) :
    statV i x s1 s2 s3 (ix2 (⟨k.val, by have := k.isLt; omega⟩ : Fin 264) j)
      = carry i (s3 (ix2 (⟨k.val, by have := k.isLt; omega⟩ : Fin 264) j)) + ∑ r : Fin 256, x (ix2 r k) * encT x s1 s2 (ix2 r j) := by
  show k0_pay3 (pid i) (k0_pay19 x) (encT x s1 s2) s3 (ix2 _ j) = _
  rw [pay3_apply]
  unfold carry
  congr 1
  refine Finset.sum_congr rfl fun r _ => ?_
  rw [cat_lo, pay19_apply]

/-- Rows 256..263: the carried value plus the column sum of the tile's assignments (the appended entries are ones). -/
theorem statV_apply_hi (s1 : Vec Ideal S256x8192 .bf16) (s2 : Vec Ideal S1x8192 .f32) (s3 : Vec Ideal S264x8192 .f32)
    (a : Fin 264) (ha : 256 ≤ a.val) (j : Fin 8192) :
    statV i x s1 s2 s3 (ix2 a j) = carry i (s3 (ix2 a j)) + ∑ r : Fin 256, encT x s1 s2 (ix2 r j) := by
  show k0_pay3 (pid i) (k0_pay19 x) (encT x s1 s2) s3 (ix2 a j) = _
  rw [pay3_apply]
  unfold carry
  congr 1
  refine Finset.sum_congr rfl fun r _ => ?_
  rw [cat_hi _ _ r a ha, broadcast_apply, ofBits_one_bf16, one_mul]

end Cert.KernelIdeal.Hand

end
-- ==== Proof.Ideal.TileScalars.lean ====
/-
  The two scalar results the last point stores, read over the extended reals as the kernel's arrangement of the
  loss and of the perplexity, from the statistics matrix and the squared-error cell as the point has just updated them.
-/
import proofs.«135943_g45775761441265_cont_8to1_c_906_25_alg».proof.Proof.Ideal.Step
import proofs.«135943_g45775761441265_cont_8to1_c_906_25_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Idealize.SL.Sem Cert.KernelIdeal Cert.KernelIdeal.Gen

variable (i : grid0.Coords) (x : Vec Ideal S256x256 .f32)

/-- Row 256 of the statistics: the column sums of the assignments. -/
def csOf (v : Vec Ideal S264x8192 .f32) : Fin 8192 → EReal := fun j => v (ix2 (⟨256, by norm_num⟩ : Fin 264) j)
/-- Rows 0..255: xᵀ·enc. -/
def dwOf (v : Vec Ideal S264x8192 .f32) : Fin 256 → Fin 8192 → EReal :=
  fun k j => v (ix2 (⟨k.val, by have := k.isLt; omega⟩ : Fin 264) j)

/-- The one-row cube's indices are its last coordinates. -/
def laneEquiv : Fin 8192 ≃ S1x1x8192.Idx where
  toFun j := ix3 (0 : Fin 1) (0 : Fin 1) j
  invFun i := i 2
  left_inv j := rfl
  right_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl

theorem sum_lane (f : S1x1x8192.Idx → EReal) : ∑ i, f i = ∑ j : Fin 8192, f (ix3 (0 : Fin 1) (0 : Fin 1) j) :=
  (Equiv.sum_comp laneEquiv f).symm

/-- The row read as a one-row cube. -/
theorem cube_apply (v : FVec Ideal S1x8192 .f32) (h : S1x8192.ShapeCasts S1x1x8192) (j : Fin 8192) :
    shapeCast S1x1x8192 v h (ix3 (0 : Fin 1) (0 : Fin 1) j) = v (ix2 (0 : Fin 1) j) := by
  refine (shapeCast_addUnit_apply ![1, 8192] v h _).trans ?_
  refine congrArg v ?_
  funext a
  match a with
  | ⟨0, _⟩ => rfl
  | ⟨1, _⟩ => rfl

/-- A row summed over its lanes, as the kernel takes it: through the one-row cube, the total reduction, the one-cell cube,
    the extraction of its cell and the splat to the one-cell matrix. -/
theorem laneSum_apply (v : FVec Ideal S1x8192 .f32) (h1 : S1x8192.ShapeCasts S1x1x8192) (h2 : S1x1x8192.Reduces [1, 2] S1)
    (h3 : S1.ShapeCasts S1x1x1) (h4 : ∀ a, (![0, 0, 0] : Fin 3 → Nat) a < S1x1x1.size a) (i : S1x1.Idx) :
    broadcast S1x1 (extractAt ![0, 0, 0] (shapeCast S1x1x1
        (multiReduction .add [1, 2] S1 (shapeCast S1x1x8192 v h1) 0x00000000#32 h2 (.inl rfl) rfl) h3) h4) i
      = ∑ j : Fin 8192, v (ix2 (0 : Fin 1) j) := by
  show multiReduction .add [1, 2] S1 (shapeCast S1x1x8192 v h1) 0x00000000#32 h2 (.inl rfl) rfl _ = _
  refine (Ideal.multiReduction_add_total _ _ h2 (fun b => by match b with | ⟨0, _⟩ => rfl) _ _ _).trans ?_
  rw [sum_lane]
  exact Finset.sum_congr rfl fun j _ => cube_apply v h1 j

/-- The one cell spread along a row. -/
theorem spread_apply (v : FVec Ideal S1x1 .f32) (h : S1x1.Broadcasts S1x8192) (j : Fin 8192) :
    broadcastTo S1x8192 v h (ix2 (0 : Fin 1) j) = v (ix2 (0 : Fin 1) (0 : Fin 1)) := by
  refine broadcastTo_apply v h _ _ fun a => ?_
  match a with
  | ⟨0, _⟩ => rfl
  | ⟨1, _⟩ => rfl

/-- Every index of a one-row matrix is in row 0. -/
theorem idx1n (q : S1x8192.Idx) : q = ix2 (0 : Fin 1) (q 1) := by
  funext a
  match a with
  | ⟨0, _⟩ => exact Fin.ext (by have h : (q 0).val < 1 := (q 0).isLt; show (q 0).val = 0; omega)
  | ⟨1, _⟩ => rfl

/-- Row 256 of the statistics, as the kernel slices it. -/
theorem csRow_apply (v : FVec Ideal S264x8192 .f32) (j : Fin 8192) : k0_pay7 v (ix2 (0 : Fin 1) j) = csOf v j := by
  unfold k0_pay7
  refine extractStridedSlice_apply _ v _ _ _ fun a => ?_
  match a with
  | ⟨0, _⟩ => rfl
  | ⟨1, _⟩ => exact (Nat.zero_add _).symm

theorem csRow_fun (v : FVec Ideal S264x8192 .f32) : k0_pay7 v = fun q => csOf v (q 1) := by
  funext q
  rw [idx1n q]
  exact csRow_apply v (q 1)

/-- Rows 0..255 of the statistics, as the kernel slices them. -/
theorem dwRows_apply (v : FVec Ideal S264x8192 .f32) (h : S264x8192.Slices ![0, 0] S256x8192) (k : Fin 256) (j : Fin 8192) :
    extractStridedSlice S256x8192 ![0, 0] v h (ix2 k j) = dwOf v k j := by
  refine extractStridedSlice_apply _ v h _ _ fun a => ?_
  match a with
  | ⟨0, _⟩ => exact (Nat.zero_add _).symm
  | ⟨1, _⟩ => exact (Nat.zero_add _).symm

/-- A matrix summed down its columns, then read as a one-row matrix. -/
theorem colSum_apply (w : FVec Ideal S256x8192 .f32) (h : S256x8192.Reduces [0] S8192) (h' : S8192.ShapeCasts S1x8192) (j : Fin 8192) :
    shapeCast S1x8192 (multiReduction .add [0] S8192 w 0x00000000#32 h (.inl rfl) rfl) h' (ix2 (0 : Fin 1) j)
      = ∑ k : Fin 256, w (ix2 k j) := by
  refine (shapeCast_addUnit_apply ![8192] _ h' _).trans ?_
  refine (Ideal.multiReduction_add_single w _ h _ _ _).trans ?_
  refine Finset.sum_congr rfl fun k _ => congrArg w ?_
  funext a
  match a with
  | ⟨0, _⟩ => exact Fin.ext rfl
  | ⟨1, _⟩ => exact Fin.ext rfl

section Stats
variable (v : FVec Ideal S264x8192 .f32)

/-- The entropy of the mean assignments, as the kernel computes it from row 256. -/
theorem pay8_apply (i : S1x1.Idx) : k0_pay8 v i = VQ.entK (csOf v) := by
  unfold k0_pay8
  rw [csRow_fun]
  refine (subf_apply _ _ i).trans ?_
  unfold VQ.entK VQ.entSum
  refine congrArg (VQ.c0 - ·) ?_
  refine (laneSum_apply _ _ _ _ _ i).trans ?_
  exact Finset.sum_congr rfl fun j _ => rfl

/-- The scaled usage of a code. -/
theorem pay10_apply (j : Fin 8192) : k0_pay10 v (ix2 (0 : Fin 1) j) = VQ.usageK (csOf v) j := by
  unfold k0_pay10
  rw [csRow_fun]
  rfl

theorem pay10_fun : k0_pay10 v = fun q => VQ.usageK (csOf v) (q 1) := by
  funext q
  rw [idx1n q]
  exact pay10_apply v (q 1)

/-- The total scaled usage. -/
theorem pay11_apply (i : S1x1.Idx) : k0_pay11 v i = VQ.usumK (csOf v) := by
  unfold k0_pay11
  rw [pay10_fun]
  exact laneSum_apply _ _ _ _ _ i

/-- The scaled usage plus epsilon. -/
theorem pay12_apply (j : Fin 8192) : k0_pay12 v (ix2 (0 : Fin 1) j) = VQ.usageK (csOf v) j + VQ.cEps := by
  unfold k0_pay12
  rw [pay10_fun]
  rfl

theorem pay13_apply (i : S1x1.Idx) : k0_pay13 (F := Ideal) i = VQ.cNEps := rfl

/-- The entropy of the normalized usage, as the kernel computes it. -/
theorem pay9_apply (i : S1x1.Idx) : k0_pay9 v i = VQ.divK (csOf v) := by
  unfold k0_pay9
  rw [csRow_fun]
  refine (subf_apply _ _ i).trans ?_
  unfold VQ.divK
  refine congrArg (VQ.c0 - ·) ?_
  refine (laneSum_apply _ _ _ _ _ i).trans ?_
  refine Finset.sum_congr rfl fun j _ => ?_
  refine congrArg (fun a => a * Ideal.log (a + VQ.cTiny)) ?_
  unfold VQ.upK
  refine congrArg (Ideal.div (VQ.usageK (csOf v) j)) ?_
  refine (spread_apply _ _ j).trans ?_
  refine congrArg (· + VQ.cEps) ?_
  exact laneSum_apply _ _ _ _ _ _

end Stats

/-- The loss as the kernel assembles it, from whatever it is given for the two entropies (`ent`, `dv`), the total
    scaled usage (`us`), the scaled usage plus epsilon per code (`u`) and the count epsilon (`ne`). -/
theorem pay5_apply (arg0 : BitVec 32) (v5 : FVec Ideal S256x256 .bf16) (v24 : FVec Ideal S256x8192 .bf16)
    (v33 : FVec Ideal S1x1 .f32) (v35 : FVec Ideal S1x256x256 .f32) (v47 : Vec Ideal S264x8192 .f32)
    (v71 v93 v100 : FVec Ideal S1x1 .f32) (v102 : FVec Ideal S1x8192 .f32) (v103 : FVec Ideal S1x1 .f32) (i : S1x1.Idx)
    (ent dv us ne : EReal) (u : Fin 8192 → EReal)
    (h71 : v71 i = ent) (h93 : v93 i = dv) (h100 : v100 (ix2 (0 : Fin 1) (0 : Fin 1)) = us)
    (h102 : ∀ j, v102 (ix2 (0 : Fin 1) j) = u j) (h103 : v103 (ix2 (0 : Fin 1) (0 : Fin 1)) = ne) :
    k0_pay5 arg0 v5 v24 v33 v35 v47 v71 v93 v100 v102 v103 i
      = ((Ideal.div (k0_pay1 v33 v35 i) VQ.cCount + VQ.c025 * Ideal.div (k0_pay1 v33 v35 i) VQ.cCount)
          + ∑ j : Fin 8192, Ideal.div
              (∑ k : Fin 256, (VQ.c001 * dwOf (k0_pay3 arg0 v5 v24 v47) k j) * (VQ.c001 * dwOf (k0_pay3 arg0 v5 v24 v47) k j))
              ((Ideal.div (u j) (us + ne) * us) * (Ideal.div (u j) (us + ne) * us)))
        + VQ.c08 * (ent + dv) := by
  unfold k0_pay5
  refine (addf_apply _ _ i).trans ?_
  refine congrArg₂ (· + ·) ?_ (congrArg (VQ.c08 * ·) (congrArg₂ (· + ·) h71 h93))
  refine (addf_apply _ _ i).trans ?_
  refine congrArg₂ (fun a b : EReal => a + b) rfl ?_
  refine (laneSum_apply _ _ _ _ _ i).trans ?_
  refine Finset.sum_congr rfl fun j _ => ?_
  refine (divf_apply _ _ _).trans ?_
  refine congrArg₂ Ideal.div ?_ ?_
  · refine (colSum_apply _ _ _ j).trans ?_
    refine Finset.sum_congr rfl fun k _ => ?_
    exact congrArg (fun a => (VQ.c001 * a) * (VQ.c001 * a)) (dwRows_apply _ _ k j)
  · refine congrArg (fun a => a * a) ?_
    refine congrArg₂ (· * ·) ?_ ((spread_apply _ _ j).trans h100)
    refine congrArg₂ Ideal.div (h102 j) ?_
    refine (spread_apply _ _ j).trans ?_
    exact congrArg₂ (· + ·) h100 h103

/-- The perplexity stored: the exponential of the entropy of the mean assignments. -/
theorem perpT_apply (s1 : Vec Ideal S256x8192 .bf16) (s2 : Vec Ideal S1x8192 .f32) (s3 : Vec Ideal S264x8192 .f32) :
    perpT i x s1 s2 s3 (ix2 0 0) = VQ.perpK (csOf (statV i x s1 s2 s3)) :=
  congrArg Ideal.exp (pay8_apply (statV i x s1 s2 s3) _)

/-- The loss stored, in the kernel's arrangement. -/
theorem lossT_apply (s0 : Vec Ideal S8192x256 .bf16) (s1 : Vec Ideal S256x8192 .bf16) (s2 : Vec Ideal S1x8192 .f32)
    (s3 : Vec Ideal S264x8192 .f32) (s4 : Vec Ideal S1x1 .f32) :
    lossT i x s0 s1 s2 s3 s4 (ix2 0 0)
      = VQ.lossK (csOf (statV i x s1 s2 s3)) (dwOf (statV i x s1 s2 s3)) (sqT i x s0 s1 s2 s4 (ix2 0 0)) := by
  have hsq : sqT i x s0 s1 s2 s4 (ix2 0 0) = k0_pay1 (k0_pay23 i s4) (k0_pay24 x s2 s1 s0) (ix2 0 0) := by
    show k0_pay2 (k0_pay23 i s4) (k0_pay24 x s2 s1 s0) (ix2 0 0) = _
    unfold k0_pay2
    exact congrFun (shapeCast_self _ _) _
  rw [hsq]
  exact pay5_apply _ _ _ _ _ _ _ _ _ _ _ _ _ _ _ _ _ (pay8_apply (statV i x s1 s2 s3) _) (pay9_apply (statV i x s1 s2 s3) _)
    (pay11_apply (statV i x s1 s2 s3) _) (fun j => pay12_apply (statV i x s1 s2 s3) j) (pay13_apply _)

end Cert.KernelIdeal.Hand

end
-- ==== Proof.Ideal.Points.lean ====
/-
  The kernel's 32 grid points composed: by induction on the point, the codebook scratch stays what the first
  point wrote, the statistics matrix and the squared-error cell hold the sums over the tiles seen so far, every
  point's output tile is the straight-through result of its rows, and the last point's two scalars are the
  kernel's arrangement of the loss and the perplexity over the statistics of all 8192 rows.
-/
import proofs.«135943_g45775761441265_cont_8to1_c_906_25_alg».proof.Proof.Ideal.TileEnc
import proofs.«135943_g45775761441265_cont_8to1_c_906_25_alg».proof.Proof.Ideal.TileAcc
import proofs.«135943_g45775761441265_cont_8to1_c_906_25_alg».proof.Proof.Ideal.TileScalars

noncomputable section

namespace Cert.KernelIdeal.Hand

open Idealize.ShloMosaic Idealize.ShloMosaic.ValueIdx Idealize.SL.Sem Cert.KernelIdeal Cert.KernelIdeal.Gen

/-- The one-axis grid's n-th point has coordinate n. -/
theorem pid_coords (n : ℕ) (h : n < 32) : pid (grid0.coords ⟨n, h⟩) = BitVec.ofNat 32 n := by
  have hs : grid0.stride 0 = 1 := by decide
  show BitVec.ofNat 32 (n / grid0.stride 0 % 32) = _
  rw [hs, Nat.div_one, Nat.mod_eq_of_lt h]

theorem carry_first (h : 0 < 32) (a : EReal) : carry (grid0.coords ⟨0, h⟩) a = 0 := by
  unfold carry; rw [pid_coords]; exact if_pos rfl

theorem carry_later (n : ℕ) (h : n + 1 < 32) (a : EReal) : carry (grid0.coords ⟨n + 1, h⟩) a = a := by
  unfold carry; rw [pid_coords]; refine if_neg ?_
  intro hc
  have h2 := congrArg BitVec.toNat hc
  rw [BitVec.toNat_ofNat, BitVec.toNat_ofNat] at h2
  omega

/-- The sum of a quantity of the tiles over the points up to the n-th. -/
def accTo (g : (t : ℕ) → t < 32 → EReal) (n : ℕ) (h : n < 32) : EReal :=
  ∑ t : Fin (n + 1), g t.val (by have := t.isLt; omega)

theorem accTo_zero (g : (t : ℕ) → t < 32 → EReal) (h : 0 < 32) : accTo g 0 h = g 0 h := by
  unfold accTo; rw [Fin.sum_univ_one]; rfl

theorem accTo_succ (g : (t : ℕ) → t < 32 → EReal) (n : ℕ) (h : n + 1 < 32) :
    accTo g (n + 1) h = accTo g n (Nat.lt_of_succ_lt h) + g (n + 1) h := by
  unfold accTo; rw [Fin.sum_univ_castSucc]; rfl

theorem accTo_last (g : (t : ℕ) → t < 32 → EReal) (h : 31 < 32) : accTo g 31 h = ∑ t : Fin 32, g t.val t.isLt := rfl

variable (xs : (n : ℕ) → n < 32 → Vec Ideal S256x256 .f32) (e : Vec Ideal S8192x256 .f32)

/-- The rows of all the tiles as one matrix: row 256·n + r is row r of tile n. -/
def rowsOf (xs : (n : ℕ) → n < 32 → Vec Ideal S256x256 .f32) : Fin 8192 → Fin 256 → EReal :=
  fun r k => xs (r.val / 256) (by have := r.isLt; omega) (ix2 (⟨r.val % 256, Nat.mod_lt _ (by norm_num)⟩ : Fin 256) k)

/-- The kernel's soft assignments of every row. -/
def encKM (xs : (n : ℕ) → n < 32 → Vec Ideal S256x256 .f32) (e : Vec Ideal S8192x256 .f32) : Fin 8192 → Fin 8192 → EReal :=
  fun r j => VQ.encK (VQ.codes e) (rowsOf xs r) j

/-! ### The fields of a later point, whether it is the last or not -/

theorem ptAt_succ_s0 (n : ℕ) (h : n + 1 < 32) :
    (ptAt xs e (n + 1) h).s0 = (ptAt xs e n (Nat.lt_of_succ_lt h)).s0 := by
  show (if n + 1 = 31 then ptLast _ _ _ else ptMid _ _ _).s0 = _
  split <;> rfl

theorem ptAt_succ_s1 (n : ℕ) (h : n + 1 < 32) :
    (ptAt xs e (n + 1) h).s1 = (ptAt xs e n (Nat.lt_of_succ_lt h)).s1 := by
  show (if n + 1 = 31 then ptLast _ _ _ else ptMid _ _ _).s1 = _
  split <;> rfl

theorem ptAt_succ_s2 (n : ℕ) (h : n + 1 < 32) :
    (ptAt xs e (n + 1) h).s2 = (ptAt xs e n (Nat.lt_of_succ_lt h)).s2 := by
  show (if n + 1 = 31 then ptLast _ _ _ else ptMid _ _ _).s2 = _
  split <;> rfl

theorem ptAt_succ_s3 (n : ℕ) (h : n + 1 < 32) :
    (ptAt xs e (n + 1) h).s3
      = statT (grid0.coords ⟨n + 1, h⟩) (xs (n + 1) h) (ptAt xs e n (Nat.lt_of_succ_lt h)).s1
          (ptAt xs e n (Nat.lt_of_succ_lt h)).s2 (ptAt xs e n (Nat.lt_of_succ_lt h)).s3 := by
  show (if n + 1 = 31 then ptLast _ _ _ else ptMid _ _ _).s3 = _
  split <;> rfl

theorem ptAt_succ_s4 (n : ℕ) (h : n + 1 < 32) :
    (ptAt xs e (n + 1) h).s4
      = sqT (grid0.coords ⟨n + 1, h⟩) (xs (n + 1) h) (ptAt xs e n (Nat.lt_of_succ_lt h)).s0
          (ptAt xs e n (Nat.lt_of_succ_lt h)).s1 (ptAt xs e n (Nat.lt_of_succ_lt h)).s2
          (ptAt xs e n (Nat.lt_of_succ_lt h)).s4 := by
  show (if n + 1 = 31 then ptLast _ _ _ else ptMid _ _ _).s4 = _
  split <;> rfl

theorem ptAt_succ_o2 (n : ℕ) (h : n + 1 < 32) :
    (ptAt xs e (n + 1) h).o2
      = outT (xs (n + 1) h) (ptAt xs e n (Nat.lt_of_succ_lt h)).s0
          (ptAt xs e n (Nat.lt_of_succ_lt h)).s1 (ptAt xs e n (Nat.lt_of_succ_lt h)).s2 := by
  show (if n + 1 = 31 then ptLast _ _ _ else ptMid _ _ _).o2 = _
  split <;> rfl

/-- What holds after the n-th point: the codebook scratch is what the first point wrote, the accumulators hold the
    sums over the tiles seen so far, and the output tile is the straight-through result of the tile's rows. -/
structure Inv (n : ℕ) (h : n < 32) : Prop where
  s0 : ∀ (j : Fin 8192) (k : Fin 256), (ptAt xs e n h).s0 (ix2 j k) = e (ix2 j k)
  s1 : ∀ (k : Fin 256) (j : Fin 8192), (ptAt xs e n h).s1 (ix2 k j) = e (ix2 j k) + e (ix2 j k)
  s2 : ∀ j : Fin 8192, (ptAt xs e n h).s2 (ix2 0 j) = VQ.esq (VQ.codes e) j
  s4 : (ptAt xs e n h).s4 (ix2 0 0)
        = accTo (fun t ht => ∑ r : Fin 256, ∑ k : Fin 256, diffT e (xs t ht) r k * diffT e (xs t ht) r k) n h
  s3lo : ∀ (k : Fin 256) (j : Fin 8192),
      (ptAt xs e n h).s3 (ix2 (⟨k.val, by have := k.isLt; omega⟩ : Fin 264) j)
        = accTo (fun t ht => ∑ r : Fin 256, xs t ht (ix2 r k) * VQ.encK (VQ.codes e) (rowOf (xs t ht) r) j) n h
  s3hi : ∀ (a : Fin 264), 256 ≤ a.val → ∀ j : Fin 8192,
      (ptAt xs e n h).s3 (ix2 a j)
        = accTo (fun t ht => ∑ r : Fin 256, VQ.encK (VQ.codes e) (rowOf (xs t ht) r) j) n h
  o2 : ∀ r k : Fin 256, (ptAt xs e n h).o2 (ix2 r k) = xs n h (ix2 r k) + diffT e (xs n h) r k

theorem inv_zero (h : 0 < 32) : Inv xs e 0 h where
  s0 := fun j k => prep0_apply e j k
  s1 := fun k j => prep1_apply e k j
  s2 := fun j => prep2_apply e j
  s4 := by
    show sqT (grid0.coords ⟨0, h⟩) (xs 0 h) (prep0 e) (prep1 e) (prep2 e) (junk S1x1) (ix2 0 0) = _
    rw [sqT_apply, carry_first, zero_add, accTo_zero]
    exact Finset.sum_congr rfl fun r _ => Finset.sum_congr rfl fun k _ =>
      dsq_apply e (xs 0 h) _ _ _ (prep0_apply e) (prep1_apply e) (prep2_apply e) r k
  s3lo := fun k j => by
    show statT (grid0.coords ⟨0, h⟩) (xs 0 h) (prep1 e) (prep2 e) (junk S264x8192) _ = _
    rw [statT_eq_statV, statV_apply_lo, carry_first, zero_add, accTo_zero]
    exact Finset.sum_congr rfl fun r _ => by rw [encT_apply e (xs 0 h) _ _ (prep1_apply e) (prep2_apply e) r j]
  s3hi := fun a ha j => by
    show statT (grid0.coords ⟨0, h⟩) (xs 0 h) (prep1 e) (prep2 e) (junk S264x8192) _ = _
    rw [statT_eq_statV, statV_apply_hi _ _ _ _ _ a ha, carry_first, zero_add, accTo_zero]
    exact Finset.sum_congr rfl fun r _ => encT_apply e (xs 0 h) _ _ (prep1_apply e) (prep2_apply e) r j
  o2 := fun r k => outT_apply e (xs 0 h) _ _ _ (prep0_apply e) (prep1_apply e) (prep2_apply e) r k

theorem inv_succ (n : ℕ) (h : n + 1 < 32) (ih : Inv xs e n (Nat.lt_of_succ_lt h)) : Inv xs e (n + 1) h where
  s0 := fun j k => by rw [ptAt_succ_s0]; exact ih.s0 j k
  s1 := fun k j => by rw [ptAt_succ_s1]; exact ih.s1 k j
  s2 := fun j => by rw [ptAt_succ_s2]; exact ih.s2 j
  s4 := by
    rw [ptAt_succ_s4, sqT_apply, carry_later, ih.s4, accTo_succ]
    refine congrArg (_ + ·) ?_
    exact Finset.sum_congr rfl fun r _ => Finset.sum_congr rfl fun k _ =>
      dsq_apply e (xs (n + 1) h) _ _ _ ih.s0 ih.s1 ih.s2 r k
  s3lo := fun k j => by
    rw [ptAt_succ_s3, statT_eq_statV, statV_apply_lo, carry_later, ih.s3lo, accTo_succ]
    refine congrArg (_ + ·) ?_
    exact Finset.sum_congr rfl fun r _ => by rw [encT_apply e (xs (n + 1) h) _ _ ih.s1 ih.s2 r j]
  s3hi := fun a ha j => by
    rw [ptAt_succ_s3, statT_eq_statV, statV_apply_hi _ _ _ _ _ a ha, carry_later, ih.s3hi a ha, accTo_succ]
    refine congrArg (_ + ·) ?_
    exact Finset.sum_congr rfl fun r _ => encT_apply e (xs (n + 1) h) _ _ ih.s1 ih.s2 r j
  o2 := fun r k => by
    rw [ptAt_succ_o2]
    exact outT_apply e (xs (n + 1) h) _ _ _ ih.s0 ih.s1 ih.s2 r k

theorem inv_all : ∀ (n : ℕ) (h : n < 32), Inv xs e n h
  | 0, h => inv_zero xs e h
  | n + 1, h => inv_succ xs e n h (inv_all n (Nat.lt_of_succ_lt h))

/-! ### The rows of the whole input, tile by tile -/

/-- Row r of tile t is row 256·t + r of the whole. -/
theorem rowsOf_tileRow (t : Fin 32) (r : Fin 256) : rowsOf xs (VQ.tileRow t r) = rowOf (xs t.val t.isLt) r := by
  funext k
  have gen : ∀ (m : ℕ) (hm : m < 32) (r' : Fin 256), m = t.val → r' = r →
      xs m hm (ix2 r' k) = xs t.val t.isLt (ix2 r k) := by
    intro m hm r' h1 h2; subst h1; subst h2; rfl
  unfold rowsOf rowOf
  exact gen _ _ _ (by show (256 * t.val + r.val) / 256 = t.val; have := r.isLt; omega)
    (Fin.ext (by show (256 * t.val + r.val) % 256 = r.val; have := r.isLt; omega))

theorem encKM_tileRow (t : Fin 32) (r : Fin 256) (j : Fin 8192) :
    encKM xs e (VQ.tileRow t r) j = VQ.encK (VQ.codes e) (rowOf (xs t.val t.isLt) r) j := by
  unfold encKM; rw [rowsOf_tileRow]

theorem diff_tileRow (t : Fin 32) (r k : Fin 256) :
    VQ.diff (VQ.codes e) (rowsOf xs) (encKM xs e) (VQ.tileRow t r) k = diffT e (xs t.val t.isLt) r k := by
  unfold VQ.diff VQ.quant encKM; rw [rowsOf_tileRow]; rfl

/-- Every point's output tile: the straight-through result of the tile's rows. -/
theorem pt_o2 (n : ℕ) (h : n < 32) (r k : Fin 256) :
    (ptAt xs e n h).o2 (ix2 r k) = VQ.out (VQ.codes e) (rowsOf xs) (encKM xs e) (VQ.tileRow ⟨n, h⟩ r) k := by
  rw [(inv_all xs e n h).o2 r k]
  unfold VQ.out
  rw [diff_tileRow, rowsOf_tileRow]
  rfl

/-! ### The statistics after the last point are those of all 8192 rows -/

theorem cs_last (h : 31 < 32) : csOf (ptAt xs e 31 h).s3 = VQ.colsum (encKM xs e) := by
  funext j
  unfold csOf VQ.colsum
  rw [(inv_all xs e 31 h).s3hi ⟨256, by norm_num⟩ (le_refl _) j, accTo_last, VQ.sum_rows_tiles]
  exact Finset.sum_congr rfl fun t _ => Finset.sum_congr rfl fun r _ => (encKM_tileRow xs e t r j).symm

theorem dw_last (h : 31 < 32) : dwOf (ptAt xs e 31 h).s3 = VQ.dwK (rowsOf xs) (encKM xs e) := by
  funext k j
  unfold dwOf VQ.dwK
  rw [(inv_all xs e 31 h).s3lo k j, accTo_last, VQ.sum_rows_tiles]
  refine Finset.sum_congr rfl fun t _ => Finset.sum_congr rfl fun r _ => ?_
  rw [encKM_tileRow, rowsOf_tileRow]
  rfl

theorem sq_last (h : 31 < 32) :
    (ptAt xs e 31 h).s4 (ix2 0 0) = VQ.sqerr (VQ.codes e) (rowsOf xs) (encKM xs e) := by
  unfold VQ.sqerr
  rw [(inv_all xs e 31 h).s4, accTo_last, VQ.sum_rows_tiles]
  refine Finset.sum_congr rfl fun t _ => Finset.sum_congr rfl fun r _ => Finset.sum_congr rfl fun k _ => ?_
  rw [diff_tileRow]

/-- The last point's scalars are computed from the accumulators as the point itself leaves them. -/
theorem o3_last (h : 30 + 1 < 32) :
    (ptAt xs e 31 h).o3 (ix2 0 0)
      = VQ.lossK (csOf (ptAt xs e 31 h).s3) (dwOf (ptAt xs e 31 h).s3) ((ptAt xs e 31 h).s4 (ix2 0 0)) := by
  rw [ptAt_last]
  dsimp only [ptLast]
  rw [statT_eq_statV]
  exact lossT_apply _ _ _ _ _ _ _

theorem o4_last (h : 30 + 1 < 32) :
    (ptAt xs e 31 h).o4 (ix2 0 0) = VQ.perpK (csOf (ptAt xs e 31 h).s3) := by
  rw [ptAt_last]
  dsimp only [ptLast]
  rw [statT_eq_statV]
  exact perpT_apply _ _ _ _ _

/-- The loss the last point stores. -/
theorem pt_o3 :
    (ptAt xs e 31 (by norm_num)).o3 (ix2 0 0)
      = VQ.lossK (VQ.colsum (encKM xs e)) (VQ.dwK (rowsOf xs) (encKM xs e)) (VQ.sqerr (VQ.codes e) (rowsOf xs) (encKM xs e)) := by
  rw [o3_last, cs_last, dw_last, sq_last]

/-- The perplexity the last point stores. -/
theorem pt_o4 :
    (ptAt xs e 31 (by norm_num)).o4 (ix2 0 0) = VQ.perpK (VQ.colsum (encKM xs e)) := by
  rw [o4_last, cs_last]

end Cert.KernelIdeal.Hand

end
-- ==== Proof.Finite.lean ====
/-
  The precondition read: when the printed predicate "every entry of both inputs has absolute value below +∞"
  is all ones, every entry of both arrays is a real number (neither infinity).
-/
import proofs.«135943_g45775761441265_cont_8to1_c_906_25_alg».proof.Pre_finite_inputs
import proofs.«135943_g45775761441265_cont_8to1_c_906_25_alg».proof.Proof.Spec
import Idealize.ShloMosaic.PureOps.Ideal
import Idealize.ShloMosaic.PureOps.Ideal.Laws
import Idealize.ShloMosaic.Lib.ValueIdx
import Idealize.ShloMosaic.Lib.ReduceAll

noncomputable section

namespace Cert.Pre_finite_inputs.Read

open Idealize.ShloMosaic Idealize.ShloMosaic.ValueIdx Cert.Pre_finite_inputs

variable [Cert.Pre_finite_inputs.Facts]

/-- The scalar result has one index. -/
instance : Subsingleton S_.Idx := ⟨fun a b => funext fun d => d.elim0⟩

/-- The word 0x7F800000 is +∞. -/
theorem ofBits_inf : Ideal.ofBits .f32 0x7F800000#32 = ⊤ := by
  simp [Ideal.ofBits, Ideal.ieee]

/-- An extended real whose absolute value max a (−a) compares below +∞ is a real number: at either infinity the
    absolute value is +∞ itself. -/
theorem isReal_of_abs_lt (a : EReal)
    (h : FloatOps.cmpf (F := Ideal) (φ := .f32) .olt (FloatOps.hostAbsf (F := Ideal) (φ := .f32) a)
      (Ideal.ofBits .f32 0x7F800000#32) = 1#1) : VQ.IsReal a := by
  rw [ofBits_inf] at h
  induction a using EReal.rec with
  | bot => exact absurd h (by simp [Ideal.cmpf_def, Ideal.cmp, Ideal.absf_def])
  | top => exact absurd h (by simp [Ideal.cmpf_def, Ideal.cmp, Ideal.absf_def])
  | coe r => exact ⟨r, rfl⟩

/-- If the predicate is all ones then both arrays hold only real numbers. -/
theorem real_of_pre (x : FVec Ideal S8x1024x256 .f32) (e : FVec Ideal S8192x256 .f32)
    (h : Cert.Pre_finite_inputs.fn (F := Ideal) x e = fun _ => 1#1) :
    (∀ i, VQ.IsReal (x i)) ∧ (∀ i, VQ.IsReal (e i)) := by
  have h0 := congrFun h ValueIdx.ix0
  dsimp only [Cert.Pre_finite_inputs.fn] at h0
  obtain ⟨hx, he⟩ := IntOp.andi_eq_one.1 h0
  refine ⟨fun i => ?_, fun i => ?_⟩
  · exact isReal_of_abs_lt _ (Host.reduce_andi_all _ _ _ _ _ hx i)
  · exact isReal_of_abs_lt _ (Host.reduce_andi_all _ _ _ _ _ he i)

end Cert.Pre_finite_inputs.Read

end
-- ==== Proof.Ideal.Value.lean ====
/-
  The kernel program's three results as functions of the argument arrays. The frame run names every output tile
  and the last point's two scalars through the points' recursion; the recursion's closed forms are the
  straight-through result of each tile's rows and the kernel's arrangement of the loss and the perplexity over the
  statistics of all 8192 rows; the input blocks are the flattened input's tiles and the codebook; and on real inputs
  the kernel's softmax form and its arrangement of the scalars are the reference's.
-/
import proofs.«135943_g45775761441265_cont_8to1_c_906_25_alg».proof.Proof.Ideal.Frame
import proofs.«135943_g45775761441265_cont_8to1_c_906_25_alg».proof.Proof.Ideal.Arrays
import proofs.«135943_g45775761441265_cont_8to1_c_906_25_alg».proof.Proof.Ideal.Inputs
import proofs.«135943_g45775761441265_cont_8to1_c_906_25_alg».proof.Proof.Ideal.Points
import proofs.«135943_g45775761441265_cont_8to1_c_906_25_alg».proof.Proof.Finite
import proofs.«135943_g45775761441265_cont_8to1_c_906_25_alg».proof.Proof.Gen.Pre_finite_inputs
import proofs.«135943_g45775761441265_cont_8to1_c_906_25_alg».proof.Defs

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The two argument arrays as the program finds them. -/
abbrev xaOf (c : Dev nD) : VQ.SX.Idx → EReal := m ((c.tc : Thread nD τ).loc main_arg0)
abbrev eaOf (c : Dev nD) : VQ.SE.Idx → EReal := m ((c.tc : Thread nD τ).loc main_arg1)

/-! ### The input blocks are the flattened input's tiles and the codebook -/

/-- The rows of all the tiles are the rows of the flattened input. -/
theorem rowsOf_xsOf (c : Dev nD) : rowsOf (xsOf m c) = VQ.flatX (xaOf m c) := by
  funext r k
  unfold rowsOf xsOf
  rw [iblk0_apply]
  exact congrArg (fun q => VQ.flatX (xaOf m c) q k)
    (Fin.ext (by show 256 * (r.val / 256) + r.val % 256 = r.val; omega))

/-- The codebook block is the codebook. -/
theorem codes_eOf (c : Dev nD) : VQ.codes (eOf m c) = VQ.codes (eaOf m c) := by
  funext j k
  unfold VQ.codes eOf
  exact iblk1_apply m c _ j k

/-! ### On real inputs the kernel's soft assignments are the reference's -/

theorem encKM_eq (c : Dev nD) (hx : ∀ i, VQ.IsReal (xaOf m c i)) (he : ∀ i, VQ.IsReal (eaOf m c i)) :
    encKM (xsOf m c) (eOf m c) = VQ.encM (xaOf m c) (eaOf m c) := by
  funext r j
  show VQ.encK (VQ.codes (eOf m c)) (rowsOf (xsOf m c) r) j = VQ.encR (VQ.codes (eaOf m c)) (VQ.flatX (xaOf m c) r) j
  rw [rowsOf_xsOf, codes_eOf]
  exact VQ.encK_eq_encR _ _ (fun j k => he _) (fun k => hx _) j

/-- The assignments of real inputs are positive reals. -/
theorem encM_pos (c : Dev nD) (hx : ∀ i, VQ.IsReal (xaOf m c i)) (he : ∀ i, VQ.IsReal (eaOf m c i)) (r j : Fin 8192) :
    VQ.IsPos (VQ.encM (xaOf m c) (eaOf m c) r j) :=
  VQ.encR_pos _ _ (fun j k => he _) (fun k => hx _) j

/-! ### The three results -/

/-- The assembled output tiles, reshaped, are the straight-through output of the argument arrays. -/
theorem v2_eq (c : Dev nD) (hx : ∀ i, VQ.IsReal (xaOf m c i)) (he : ∀ i, VQ.IsReal (eaOf m c i)) :
    shapeCast S8x1024x256 (tiled fun t => (pts m c t).o2) Facts₀.shapeCasts_S8192x256_S8x1024x256
      = VQ.outArr (xaOf m c) (eaOf m c) := by
  funext i
  have h0 : (i 0).val < 8 := (i 0).isLt
  have h1 : (i 1).val < 1024 := (i 1).isLt
  have h2 : (i 2).val < 256 := (i 2).isLt
  have hlt : 1024 * (i 0).val + (i 1).val < 8192 := by omega
  refine (shapeCast_apply _ _ i (ix2 (⟨1024 * (i 0).val + (i 1).val, hlt⟩ : Fin 8192) (⟨(i 2).val, h2⟩ : Fin 256)) ?_).trans ?_
  · rw [Shape.rowMajor_val_two, Shape.rowMajor_val_three]
    show (1024 * (i 0).val + (i 1).val) * 256 + (i 2).val = ((i 0).val * 1024 + (i 1).val) * 256 + (i 2).val
    omega
  · show (ptAt (xsOf m c) (eOf m c) ((1024 * (i 0).val + (i 1).val) / 256) _).o2
        (ix2 (⟨(1024 * (i 0).val + (i 1).val) % 256, _⟩ : Fin 256) (⟨(i 2).val, h2⟩ : Fin 256)) = _
    rw [pt_o2, rowsOf_xsOf, codes_eOf, encKM_eq m c hx he]
    exact congrArg (fun q => VQ.out (VQ.codes (eaOf m c)) (VQ.flatX (xaOf m c)) (VQ.encM (xaOf m c) (eaOf m c)) q (i 2))
      (Fin.ext (by
        show 256 * ((1024 * (i 0).val + (i 1).val) / 256) + (1024 * (i 0).val + (i 1).val) % 256 = 1024 * (i 0).val + (i 1).val
        omega))

/-- The rank-0 reshape of a 1×1 array reads its one entry. -/
theorem shapeCast_S1x1_S_apply (X : Vec Ideal S1x1 .f32) (j : S_.Idx) :
    shapeCast S_ X Facts₀.shapeCasts_S1x1_S_ j = X (ix2 0 0) := by
  refine shapeCast_apply X _ j (ix2 0 0) ?_
  rw [Shape.rowMajor_val_two]
  show 0 * _ + 0 = (Shape.rowMajorPi _ j).val
  rw [Shape.rowMajorPi_zero, Nat.zero_mul]

/-- The last point's loss, reshaped, is the loss of the argument arrays. -/
theorem v3_eq (c : Dev nD) (hx : ∀ i, VQ.IsReal (xaOf m c i)) (he : ∀ i, VQ.IsReal (eaOf m c i)) :
    shapeCast S_ (pts m c lastPt).o3 Facts₀.shapeCasts_S1x1_S_ = fun _ => VQ.lossVal (xaOf m c) (eaOf m c) := by
  funext j
  rw [shapeCast_S1x1_S_apply]
  show (ptAt (xsOf m c) (eOf m c) 31 _).o3 (ix2 0 0) = _
  rw [pt_o3, rowsOf_xsOf, codes_eOf, encKM_eq m c hx he]
  unfold VQ.lossVal
  exact VQ.lossK_eq_lossR _ _ _ (VQ.colsum_pos _ (encM_pos m c hx he))
    (VQ.dwK_real _ _ (fun r k => hx _) (encM_pos m c hx he))

/-- The last point's perplexity, reshaped, is the perplexity of the argument arrays. -/
theorem v4_eq (c : Dev nD) (hx : ∀ i, VQ.IsReal (xaOf m c i)) (he : ∀ i, VQ.IsReal (eaOf m c i)) :
    shapeCast S_ (pts m c lastPt).o4 Facts₀.shapeCasts_S1x1_S_ = fun _ => VQ.perpVal (xaOf m c) (eaOf m c) := by
  funext j
  rw [shapeCast_S1x1_S_apply]
  show (ptAt (xsOf m c) (eOf m c) 31 _).o4 (ix2 0 0) = _
  rw [pt_o4, encKM_eq m c hx he]
  unfold VQ.perpVal
  exact VQ.perpK_eq_perpR _

/-- Under the precondition (every input entry finite) the kernel program runs to the end with its three results at
    the straight-through output, the loss and the perplexity of the argument arrays, and the arguments unchanged. -/
theorem kernel_run (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v2) = VQ.outArr (xaOf m c) (eaOf m c)
      ∧ r.2.mem ((c.tc : Thread nD τ).loc main_v3) = (fun _ => VQ.lossVal (xaOf m c) (eaOf m c))
      ∧ r.2.mem ((c.tc : Thread nD τ).loc main_v4) = (fun _ => VQ.perpVal (xaOf m c) (eaOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ?_)
    (results_of_run m ρ (dats m) (A_eq m) (pts m) (after0_2 m) (after0_3 m) (after0_4 m) (run_main m ρ))
  obtain ⟨hx, he⟩ := Cert.Pre_finite_inputs.Read.real_of_pre (xaOf m c) (eaOf m c) (hpre c)
  obtain ⟨e2, e3, e4, ea0, ea1⟩ := h c
  exact ⟨e2.trans (v2_eq m c hx he), e3.trans (v3_eq m c hx he), e4.trans (v4_eq m c hx he), ea0, ea1⟩

end Cert.KernelIdeal.Hand

end
-- ==== Proof.Ref.Enc.lean ====
/-
  The reference program's intermediate arrays read index by index over the extended reals, up to the soft
  assignments and the straight-through output: the flattened input, the logits −(‖x‖² + ‖e‖² − 2·x·e), the
  softmax along the codes, the quantized rows, and the first result.
-/
import proofs.«135943_g45775761441265_cont_8to1_c_906_25_alg».proof.Proof.Gen.ReferenceIdeal.Run
import proofs.«135943_g45775761441265_cont_8to1_c_906_25_alg».proof.Proof.Spec
import proofs.«135943_g45775761441265_cont_8to1_c_906_25_alg».proof.Proof.Results
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.ShloMosaic.StableHlo Idealize.SL.Sem

variable (V0 : Valuation τ sig (Elt Ideal))

/-- The input array and the codebook as the program finds them. -/
abbrev XA : VQ.SX.Idx → EReal := V0 (Proc.devRef .tc main_arg0)
abbrev EA : VQ.SE.Idx → EReal := V0 (Proc.devRef .tc main_arg1)

/-! ## The operations of the program read at an index, over any operand -/

/-- A sum along the second axis of an [8192, 256] array from the zero word: row `r`'s sum. -/
theorem rowSum256_apply (x : FVec Ideal S8192x256 .f32) (r : Fin 8192) :
    Host.reduceAdd x (constant (F := Ideal) S_ .f32 0x00000000#32) reducesTo_S8192x256_S8192_d1 h_S_ (ix1 r)
      = ∑ k : Fin 256, x (ix2 r k) := by
  have hR : S8192x256.Reduces [1] S8192 := by decide
  refine (Ideal.hostReduceAdd_single reducesTo_S8192x256_S8192_d1 hR x _ (ix1 r)).trans ?_
  rw [constant_apply, Ideal.ofBits_zero_f32, zero_add]
  refine Finset.sum_congr rfl fun k _ => congrArg x (funext fun c => ?_)
  match c with
  | ⟨0, _⟩ => rfl
  | ⟨1, _⟩ => rfl

/-- The same along the second axis of an [8192, 8192] array. -/
theorem rowSum8192_apply (x : FVec Ideal S8192x8192 .f32) (r : Fin 8192) :
    Host.reduceAdd x (constant (F := Ideal) S_ .f32 0x00000000#32) reducesTo_S8192x8192_S8192_d1 h_S_ (ix1 r)
      = ∑ j : Fin 8192, x (ix2 r j) := by
  have hR : S8192x8192.Reduces [1] S8192 := by decide
  refine (Ideal.hostReduceAdd_single reducesTo_S8192x8192_S8192_d1 hR x _ (ix1 r)).trans ?_
  rw [constant_apply, Ideal.ofBits_zero_f32, zero_add]
  refine Finset.sum_congr rfl fun k _ => congrArg x (funext fun c => ?_)
  match c with
  | ⟨0, _⟩ => rfl
  | ⟨1, _⟩ => rfl

/-- A maximum along the second axis of an [8192, 8192] array from the word of −∞: the fold of `max` over row `r`. -/
theorem rowMax8192_apply (x : FVec Ideal S8192x8192 .f32) (r : Fin 8192) :
    Host.reduce FloatOps.maximumf x (constant (F := Ideal) S_ .f32 0xFF800000#32) reducesTo_S8192x8192_S8192_d1 h_S_ (ix1 r)
      = (Finset.univ : Finset (Fin 8192)).fold max (Ideal.ofBits .f32 0xFF800000#32) (fun j => x (ix2 r j)) := by
  have hR : S8192x8192.Reduces [1] S8192 := by decide
  refine (Host.reduce_eq_fold_single FloatOps.maximumf x _ reducesTo_S8192x8192_S8192_d1 hR h_S_ (ix1 r)).trans ?_
  have hf : (x ∘ hR.lift (ix1 r)) = fun j : Fin 8192 => x (ix2 r j) := by
    funext k
    refine congrArg x (funext fun c => ?_)
    match c with
    | ⟨0, _⟩ => rfl
    | ⟨1, _⟩ => rfl
  rw [hf]
  rfl

/-- The rows times a [256, 8192] array: entry (r, j) is the sum over the 256 shared coordinates of the products. -/
theorem dot1_apply (l : FVec Ideal S8192x256 .f32) (rt : FVec Ideal S256x8192 .f32) (r j : Fin 8192) :
    Host.dotGeneral dot_S8192x256_S256x8192_S8192x8192_1_0_0_1_n_n none l rt (ix2 r j)
      = ∑ k : Fin 256, l (ix2 r k) * rt (ix2 k j) := by
  refine (Ideal.dotGeneral_apply dot_S8192x256_S256x8192_S8192x8192_1_0_0_1_n_n none .single l rt (ix2 r j)).trans ?_
  rw [← Equiv.sum_comp (contrEquiv1 dot_S8192x256_S256x8192_S8192x8192_1_0_0_1_n_n 256 rfl rfl).symm]
  refine Finset.sum_congr rfl fun k _ => ?_
  have hk := contrEquiv1_symm_val dot_S8192x256_S256x8192_S8192x8192_1_0_0_1_n_n 256 rfl rfl k
  have hl : dot_S8192x256_S256x8192_S8192x8192_1_0_0_1_n_n.lhsIdx (ix2 r j)
      ((contrEquiv1 dot_S8192x256_S256x8192_S8192x8192_1_0_0_1_n_n 256 rfl rfl).symm k) = ix2 r k := by
    funext c
    match c with
    | ⟨0, _⟩ => exact Fin.ext rfl
    | ⟨1, _⟩ =>
      exact Fin.ext ((DotDims.lhsIdx_val_of_single _ (cl := (1 : Fin 2)) rfl (ix2 r j) _).trans hk)
  have hr : dot_S8192x256_S256x8192_S8192x8192_1_0_0_1_n_n.rhsIdx (ix2 r j)
      ((contrEquiv1 dot_S8192x256_S256x8192_S8192x8192_1_0_0_1_n_n 256 rfl rfl).symm k) = ix2 k j := by
    funext c
    match c with
    | ⟨0, _⟩ =>
      exact Fin.ext ((DotDims.rhsIdx_val_of_single _ (cr := (0 : Fin 2)) rfl (ix2 r j) _).trans hk)
    | ⟨1, _⟩ => exact Fin.ext rfl
  rw [hl, hr]

/-- An [8192, 8192] array times an [8192, 256] one: entry (r, k) is the sum over the 8192 shared coordinates. -/
theorem dot2_apply (l : FVec Ideal S8192x8192 .f32) (rt : FVec Ideal S8192x256 .f32) (r : Fin 8192) (k : Fin 256) :
    Host.dotGeneral dot_S8192x8192_S8192x256_S8192x256_1_0_0_1_n_n none l rt (ix2 r k)
      = ∑ j : Fin 8192, l (ix2 r j) * rt (ix2 j k) := by
  refine (Ideal.dotGeneral_apply dot_S8192x8192_S8192x256_S8192x256_1_0_0_1_n_n none .single l rt (ix2 r k)).trans ?_
  rw [← Equiv.sum_comp (contrEquiv1 dot_S8192x8192_S8192x256_S8192x256_1_0_0_1_n_n 8192 rfl rfl).symm]
  refine Finset.sum_congr rfl fun j _ => ?_
  have hj := contrEquiv1_symm_val dot_S8192x8192_S8192x256_S8192x256_1_0_0_1_n_n 8192 rfl rfl j
  have hl : dot_S8192x8192_S8192x256_S8192x256_1_0_0_1_n_n.lhsIdx (ix2 r k)
      ((contrEquiv1 dot_S8192x8192_S8192x256_S8192x256_1_0_0_1_n_n 8192 rfl rfl).symm j) = ix2 r j := by
    funext c
    match c with
    | ⟨0, _⟩ => exact Fin.ext rfl
    | ⟨1, _⟩ =>
      exact Fin.ext ((DotDims.lhsIdx_val_of_single _ (cl := (1 : Fin 2)) rfl (ix2 r k) _).trans hj)
  have hr : dot_S8192x8192_S8192x256_S8192x256_1_0_0_1_n_n.rhsIdx (ix2 r k)
      ((contrEquiv1 dot_S8192x8192_S8192x256_S8192x256_1_0_0_1_n_n 8192 rfl rfl).symm j) = ix2 j k := by
    funext c
    match c with
    | ⟨0, _⟩ =>
      exact Fin.ext ((DotDims.rhsIdx_val_of_single _ (cr := (0 : Fin 2)) rfl (ix2 r k) _).trans hj)
    | ⟨1, _⟩ => exact Fin.ext rfl
  rw [hl, hr]

/-- The codebook transposed reads the codebook with its coordinates exchanged. -/
theorem transposeE_apply (x : FVec Ideal S8192x256 .f32) (k : Fin 256) (j : Fin 8192) :
    transpose S256x8192 [1, 0] x transposes_S8192x256_S256x8192_1_0 (ix2 k j) = x (ix2 j k) :=
  transpose_apply _ _ _ (ix2 k j) (ix2 j k) (fun b => match b with | ⟨0, _⟩ => rfl | ⟨1, _⟩ => rfl)

/-- A vector over the rows spread along the codes: every entry of row `r` reads the vector at `r`. -/
theorem bcastRow_apply (v : FVec Ideal S8192 .f32) (r j : Fin 8192) :
    broadcastInDim S8192x8192 ![0, 1] bcast_S8192x1_S8192x8192_0_1
      (broadcastInDim S8192x1 ![0] bcast_S8192_S8192x1_0 v) (ix2 r j) = v (ix1 r) := by
  refine (broadcastInDim_apply _ _ _ (ix2 r j) (ix2 r (0 : Fin 1)) (fun a => match a with | ⟨0, _⟩ => rfl | ⟨1, _⟩ => rfl)).trans ?_
  exact broadcastInDim_apply _ _ _ (ix2 r (0 : Fin 1)) (ix1 r) (fun a => match a with | ⟨0, _⟩ => rfl)

/-- A vector over the codes spread along the rows: every entry of column `j` reads the vector at `j`. -/
theorem bcastCol_apply (v : FVec Ideal S8192 .f32) (r j : Fin 8192) :
    broadcastInDim S8192x8192 ![0, 1] bcast_S1x8192_S8192x8192_0_1
      (broadcastInDim S1x8192 ![1] bcast_S8192_S1x8192_1 v) (ix2 r j) = v (ix1 j) := by
  refine (broadcastInDim_apply _ _ _ (ix2 r j) (ix2 (0 : Fin 1) j) (fun a => match a with | ⟨0, _⟩ => rfl | ⟨1, _⟩ => rfl)).trans ?_
  exact broadcastInDim_apply _ _ _ (ix2 (0 : Fin 1) j) (ix1 j) (fun a => match a with | ⟨0, _⟩ => rfl)

/-- A literal spread over an array reads the literal. -/
theorem splat2_apply (b : BitVec 32) (r j : Fin 8192) :
    broadcastInDim S8192x8192 ![] bcast_S_S8192x8192 (constant (F := Ideal) S_ .f32 b) (ix2 r j) = Ideal.ofBits .f32 b :=
  broadcastInDim_scalar_apply _ _ _

theorem splat1_apply (b : BitVec 32) (r : Fin 8192) :
    broadcastInDim S8192 ![] bcast_S_S8192 (constant (F := Ideal) S_ .f32 b) (ix1 r) = Ideal.ofBits .f32 b :=
  broadcastInDim_scalar_apply _ _ _

/-- The host's negation and exponential are taken entry by entry. -/
theorem hostNegf_apply {s : Shape} {φ : FTy} (a : FVec Ideal s φ) (i : s.Idx) : Host.negf a i = -(a i) := rfl
theorem hostExp_apply {s : Shape} {φ : FTy} (a : FVec Ideal s φ) (i : s.Idx) : Host.exp a i = Ideal.exp (a i) := rfl

/-- The product of the rows with the transposed codebook: entry (r, j) is the inner product of row `r` and code `j`. -/
theorem dotT_apply (l x : FVec Ideal S8192x256 .f32) (r j : Fin 8192) :
    Host.dotGeneral dot_S8192x256_S256x8192_S8192x8192_1_0_0_1_n_n none l
        (transpose S256x8192 [1, 0] x transposes_S8192x256_S256x8192_1_0) (ix2 r j)
      = ∑ k : Fin 256, l (ix2 r k) * x (ix2 j k) := by
  rw [dot1_apply]
  exact Finset.sum_congr rfl fun k _ => by rw [transposeE_apply]

/-! ## The program's named intermediate arrays -/

/-- The reshape to rows: row `r` is (batch r / 1024, position r % 1024). -/
theorem v0_apply (r : Fin 8192) (k : Fin 256) : res_main_v0 V0 (ix2 r k) = VQ.flatX (XA V0) r k := by
  unfold res_main_v0
  refine (shapeCast_apply _ _ (ix2 r k) (ix3 (VQ.rowB r) (VQ.rowS r) k) ?_).trans rfl
  rw [Shape.rowMajor_val_two, Shape.rowMajor_val_three]
  show ((r.val / 1024) * 1024 + r.val % 1024) * 256 + k.val = r.val * 256 + k.val
  omega

/-- The logits. -/
theorem v17_apply (r j : Fin 8192) :
    res_main_v17 V0 (ix2 r j) = VQ.tR (VQ.codes (EA V0)) (VQ.flatX (XA V0) r) j := by
  unfold res_main_v17
  rw [hostDivf_apply, hostNegf_apply, subf_apply, addf_apply, mulf_apply, bcastRow_apply, bcastCol_apply,
    splat2_apply, splat2_apply, rowSum256_apply, rowSum256_apply, dotT_apply]
  unfold VQ.tR VQ.esq VQ.c1 VQ.c2
  simp only [mulf_apply, v0_apply]
  rfl

/-- exp(logit − row maximum). -/
theorem v24_apply (r j : Fin 8192) :
    res_main_v24 V0 (ix2 r j) = VQ.pR (VQ.codes (EA V0)) (VQ.flatX (XA V0) r) j := by
  unfold res_main_v24
  rw [hostExp_apply, subf_apply, bcastRow_apply, maximumf_apply, splat1_apply, rowMax8192_apply]
  unfold VQ.pR VQ.mR VQ.cNegInf
  simp only [v17_apply]

/-- The soft assignments. -/
theorem v28_apply (r j : Fin 8192) : res_main_v28 V0 (ix2 r j) = VQ.encM (XA V0) (EA V0) r j := by
  unfold res_main_v28
  rw [hostDivf_apply, bcastRow_apply, rowSum8192_apply]
  unfold VQ.encM VQ.encR VQ.sR
  simp only [v24_apply]

/-- The quantized rows, back in the input's shape. -/
theorem v30_apply (b : Fin 8) (s : Fin 1024) (k : Fin 256) :
    res_main_v30 V0 (ix3 b s k) = VQ.quant (VQ.codes (EA V0)) (VQ.encM (XA V0) (EA V0)) (VQ.batchRow b s) k := by
  unfold res_main_v30
  refine (shapeCast_apply _ _ (ix3 b s k) (ix2 (VQ.batchRow b s) k) ?_).trans ?_
  · rw [Shape.rowMajor_val_two, Shape.rowMajor_val_three]
    show (1024 * b.val + s.val) * 256 + k.val = (b.val * 1024 + s.val) * 256 + k.val
    omega
  · rw [dot2_apply]
    unfold VQ.quant
    simp only [v28_apply]
    rfl

/-- The first result: the input plus (quantized − input). -/
theorem out_eq :
    addf (V0 (Proc.devRef .tc main_arg0)) (subf (res_main_v30 V0) (V0 (Proc.devRef .tc main_arg0)))
      = VQ.outArr (XA V0) (EA V0) := by
  funext i
  obtain ⟨b, s, k, rfl⟩ : ∃ b s k, i = ix3 b s k := ⟨i 0, i 1, i 2, eq_ix3 i⟩
  rw [addf_apply, subf_apply, v30_apply]
  unfold VQ.outArr VQ.out VQ.diff VQ.flatX
  show _ = XA V0 (ix3 (VQ.rowB (VQ.batchRow b s)) (VQ.rowS (VQ.batchRow b s)) k)
      + (VQ.quant (VQ.codes (EA V0)) (VQ.encM (XA V0) (EA V0)) (VQ.batchRow b s) k
        - XA V0 (ix3 (VQ.rowB (VQ.batchRow b s)) (VQ.rowS (VQ.batchRow b s)) k))
  rw [VQ.rowB_batchRow, VQ.rowS_batchRow]

end Cert.ReferenceIdeal.RefValue

end
-- ==== Proof.Ref.Stats.lean ====
/-
  The reference program's usage statistics read over the extended reals: the column sums of the soft assignments,
  the running averages started from zero (0.99·0 + 0.01·new), the mean assignment per code, the normalised usage, the
  two entropy terms and the perplexity.
-/
import proofs.«135943_g45775761441265_cont_8to1_c_906_25_alg».proof.Proof.Ref.Enc

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.ShloMosaic.StableHlo Idealize.SL.Sem

variable (V0 : Valuation τ sig (Elt Ideal))

/-- The column sums of the assignments, as the results' definitions take them. -/
abbrev CS : Fin 8192 → EReal := VQ.colsum (VQ.encM (XA V0) (EA V0))

/-- A scalar broadcast along the codes reads the scalar at every code. -/
theorem bcast0_apply (x : S_.Idx → EReal) (j : Fin 8192) :
    broadcastInDim S8192 ![] bcast_S_S8192 x (ix1 j) = x ix0 := by
  unfold broadcastInDim; exact congrArg x (funext fun a => a.elim0)

/-- The sum over the rows of a square array, from zero, at column j. -/
theorem sumRows_apply (x : S8192x8192.Idx → EReal) (j : Fin 8192) :
    Host.reduceAdd x (constant (F := Ideal) S_ .f32 0x00000000#32) reducesTo_S8192x8192_S8192_d0 h_S_ (ix1 j)
      = ∑ r : Fin 8192, x (ix2 r j) := by
  have hR : S8192x8192.Reduces [0] S8192 := by decide
  show Ideal.hostReduceAdd reducesTo_S8192x8192_S8192_d0 x (Ideal.ofBits .f32 0x00000000#32) (ix1 j) = _
  rw [Ideal.hostReduceAdd_single _ hR, Ideal.ofBits_zero_f32, zero_add]
  refine Finset.sum_congr rfl fun r _ => ?_
  exact congrArg x (funext fun a => match a with | ⟨0, _⟩ => rfl | ⟨1, _⟩ => rfl)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum over the codes of a vector, from zero. -/
theorem sumCodes_apply (x : S8192.Idx → EReal) (i : S_.Idx) :
    Host.reduceAdd x (constant (F := Ideal) S_ .f32 0x00000000#32) reducesTo_S8192_S_d0 h_S_ i
      = ∑ j : Fin 8192, x (ix1 j) := by
  show Ideal.hostReduceAdd reducesTo_S8192_S_d0 x (Ideal.ofBits .f32 0x00000000#32) i = _
  rw [Ideal.hostReduceAdd_total _ (fun b => b.elim0), Ideal.ofBits_zero_f32, zero_add]
  exact sum_idx1 x

/-- The column sum of the soft assignments at code j. -/
theorem colsum_apply (j : Fin 8192) :
    Host.reduceAdd (res_main_v28 V0) (constant (F := Ideal) S_ .f32 0x00000000#32) reducesTo_S8192x8192_S8192_d0 h_S_ (ix1 j)
      = CS V0 j := by
  rw [sumRows_apply]
  exact Finset.sum_congr rfl fun r _ => v28_apply V0 r j

theorem v37_apply (j : Fin 8192) : res_main_v37 V0 (ix1 j) = VQ.usageR (CS V0) j := by
  unfold res_main_v37
  rw [addf_apply, mulf_apply, mulf_apply, bcast0_apply, bcast0_apply, bcast0_apply, colsum_apply]
  rfl

theorem v63_apply (j : Fin 8192) : res_main_v63 V0 (ix1 j) = VQ.usageR (CS V0) j := by
  unfold res_main_v63
  rw [addf_apply, mulf_apply, mulf_apply, bcast0_apply, bcast0_apply, bcast0_apply, colsum_apply]
  rfl

/-- The total of a vector that reads the running usage at every code is the usage total. -/
theorem usum_of (y : S8192.Idx → EReal) (hy : ∀ j : Fin 8192, y (ix1 j) = VQ.usageR (CS V0) j) (i : S_.Idx) :
    Host.reduceAdd y (constant (F := Ideal) S_ .f32 0x00000000#32) reducesTo_S8192_S_d0 h_S_ i = VQ.usumR (CS V0) := by
  rw [sumCodes_apply]
  exact Finset.sum_congr rfl fun j _ => hy j

theorem v38_apply : res_main_v38 V0 ix0 = VQ.usumR (CS V0) := by
  unfold res_main_v38
  exact usum_of V0 _ (v37_apply V0) ix0

theorem v76_apply (j : Fin 8192) : res_main_v76 V0 (ix1 j) = VQ.avg (CS V0) j := by
  unfold res_main_v76
  show Ideal.div (Host.reduceAdd (res_main_v28 V0) (constant (F := Ideal) S_ .f32 0x00000000#32) reducesTo_S8192x8192_S8192_d0 h_S_ (ix1 j))
      (broadcastInDim S8192 ![] bcast_S_S8192 (constant (F := Ideal) S_ .f32 0x46000000#32) (ix1 j)) = _
  rw [colsum_apply, bcast0_apply]
  rfl

theorem v86_apply (j : Fin 8192) : res_main_v86 V0 (ix1 j) = VQ.upR (CS V0) j := by
  unfold res_main_v86
  show Ideal.div (res_main_v63 V0 (ix1 j))
      (broadcastInDim S8192 ![] bcast_S_S8192 (addf (Host.reduceAdd (res_main_v63 V0) (constant (F := Ideal) S_ .f32 0x00000000#32) reducesTo_S8192_S_d0 h_S_) (constant (F := Ideal) S_ .f32 0x3727C5AC#32)) (ix1 j)) = _
  rw [v63_apply, bcast0_apply, addf_apply, usum_of V0 _ (v63_apply V0)]
  rfl

/-- The entropy sum of a vector of the codes' length, as the program writes it: minus Σ y·log(y + tiny). -/
theorem negEnt_apply (y : S8192.Idx → EReal) (i : S_.Idx) :
    Host.negf (Host.reduceAdd (mulf y (Host.log (addf y (broadcastInDim S8192 ![] bcast_S_S8192 (constant (F := Ideal) S_ .f32 0x2EDBE6FF#32))))) (constant (F := Ideal) S_ .f32 0x00000000#32) reducesTo_S8192_S_d0 h_S_) i
      = -(∑ j : Fin 8192, y (ix1 j) * Ideal.log (y (ix1 j) + VQ.cTiny)) := by
  show -(Host.reduceAdd (mulf y (Host.log (addf y (broadcastInDim S8192 ![] bcast_S_S8192 (constant (F := Ideal) S_ .f32 0x2EDBE6FF#32))))) (constant (F := Ideal) S_ .f32 0x00000000#32) reducesTo_S8192_S_d0 h_S_ i) = _
  rw [sumCodes_apply]
  refine congrArg Neg.neg (Finset.sum_congr rfl fun j _ => ?_)
  show y (ix1 j) * Ideal.log (y (ix1 j) + broadcastInDim S8192 ![] bcast_S_S8192 (constant (F := Ideal) S_ .f32 0x2EDBE6FF#32) (ix1 j)) = _
  rw [bcast0_apply]
  rfl

/-- Minus the entropy sum of the mean assignments. -/
theorem ent_eq :
    Host.negf (Host.reduceAdd (mulf (res_main_v76 V0) (Host.log (addf (res_main_v76 V0) (broadcastInDim S8192 ![] bcast_S_S8192 (constant S_ .f32 0x2EDBE6FF#32))))) (constant S_ .f32 0x00000000#32) reducesTo_S8192_S_d0 h_S_)
      = fun _ => VQ.entR (CS V0) := by
  funext i
  rw [negEnt_apply]
  unfold VQ.entR VQ.entSum
  exact congrArg Neg.neg (Finset.sum_congr rfl fun j _ => by rw [v76_apply])

/-- Minus the entropy sum of the normalised usage. -/
theorem div_eq :
    Host.negf (Host.reduceAdd (mulf (res_main_v86 V0) (Host.log (addf (res_main_v86 V0) (broadcastInDim S8192 ![] bcast_S_S8192 (constant S_ .f32 0x2EDBE6FF#32))))) (constant S_ .f32 0x00000000#32) reducesTo_S8192_S_d0 h_S_)
      = fun _ => VQ.divR (CS V0) := by
  funext i
  rw [negEnt_apply]
  unfold VQ.divR
  exact congrArg Neg.neg (Finset.sum_congr rfl fun j _ => by rw [v86_apply])

/-- The third result: the perplexity. -/
theorem perp_eq :
    Host.exp (Host.negf (Host.reduceAdd (mulf (res_main_v76 V0) (Host.log (addf (res_main_v76 V0) (broadcastInDim S8192 ![] bcast_S_S8192 (constant S_ .f32 0x2EDBE6FF#32))))) (constant S_ .f32 0x00000000#32) reducesTo_S8192_S_d0 h_S_))
      = fun _ => VQ.perpVal (XA V0) (EA V0) := by
  rw [ent_eq]
  rfl

end Cert.ReferenceIdeal.RefValue

end
-- ==== Proof.Ref.Loss.lean ====
/-
  The reference program's loss read over the extended reals: the mean squared error (computed twice), the
  regulariser Σ ((0.99·0 + 0.01·encᵀx) / cluster)², and their combination with the two entropy terms.
-/
import proofs.«135943_g45775761441265_cont_8to1_c_906_25_alg».proof.Proof.Ref.Stats
import Idealize.ShloMosaic.Lib.IdealHost

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.ShloMosaic.StableHlo Idealize.SL.Sem

variable (V0 : Valuation τ sig (Elt Ideal))

/-- The matrix product [8192×8192]·[8192×256] at (j, k): the sum over the contracted coordinate. -/
theorem dot_apply (A : FVec Ideal S8192x8192 .f32) (B : FVec Ideal S8192x256 .f32) (j : Fin 8192) (k : Fin 256) :
    Host.dotGeneral dot_S8192x8192_S8192x256_S8192x256_1_0_0_1_n_n none A B (ix2 j k)
      = ∑ r : Fin 8192, A (ix2 j r) * B (ix2 r k) := by
  show FloatOps.dotGeneral _ none _ A B (ix2 j k) = _
  rw [Ideal.dotGeneral_apply,
    ← Equiv.sum_comp (contrEquiv1 dot_S8192x8192_S8192x256_S8192x256_1_0_0_1_n_n 8192 rfl rfl).symm]
  refine Finset.sum_congr rfl fun r _ => ?_
  have hl : dot_S8192x8192_S8192x256_S8192x256_1_0_0_1_n_n.lhsIdx (ix2 j k)
      ((contrEquiv1 dot_S8192x8192_S8192x256_S8192x256_1_0_0_1_n_n 8192 rfl rfl).symm r) = ix2 j r :=
    (eq_ix2 _).trans (congrArg₂ ix2 (Fin.ext rfl) (Fin.ext rfl))
  have hr : dot_S8192x8192_S8192x256_S8192x256_1_0_0_1_n_n.rhsIdx (ix2 j k)
      ((contrEquiv1 dot_S8192x8192_S8192x256_S8192x256_1_0_0_1_n_n 8192 rfl rfl).symm r) = ix2 r k :=
    (eq_ix2 _).trans (congrArg₂ ix2 (Fin.ext rfl) (Fin.ext rfl))
  rw [hl, hr]

/-- The transposed matrix at (j, r) is the matrix at (r, j). -/
theorem transpose_apply' (A : FVec Ideal S8192x8192 .f32) (j r : Fin 8192) :
    transpose S8192x8192 [1, 0] A transposes_S8192x8192_S8192x8192_1_0 (ix2 j r) = A (ix2 r j) :=
  transpose_apply _ _ _ _ _ fun b => by
    match b with
    | ⟨0, _⟩ => rfl
    | ⟨1, _⟩ => rfl

/-- A vector laid along the rows of an [8192×256] array reads, at (j, k), the vector at j. -/
theorem bcast_col_apply (v : FVec Ideal S8192 .f32) (j : Fin 8192) (k : Fin 256) :
    broadcastInDim S8192x256 ![0, 1] bcast_S8192x1_S8192x256_0_1 (broadcastInDim S8192x1 ![0] bcast_S8192_S8192x1_0 v) (ix2 j k)
      = v (ix1 j) := by
  refine (broadcastInDim_apply _ _ _ _ (ix2 j (0 : Fin 1)) fun a => ?_).trans
    (broadcastInDim_apply _ _ _ _ (ix1 j) fun a => ?_)
  · match a with
    | ⟨0, _⟩ => rfl
    | ⟨1, _⟩ => rfl
  · match a with
    | ⟨0, _⟩ => rfl

/-- The cluster sizes. -/
theorem v45_apply (j : Fin 8192) :
    (mulf (Host.divf (addf (res_main_v37 V0) (broadcastInDim S8192 ![] bcast_S_S8192 (constant S_ .f32 0x3727C5AC#32))) (broadcastInDim S8192 ![] bcast_S_S8192 (addf (res_main_v38 V0) (constant S_ .f32 0x3DA7C5AC#32)))) (broadcastInDim S8192 ![] bcast_S_S8192 (res_main_v38 V0)) : FVec Ideal S8192 .f32) (ix1 j)
      = VQ.clusR (CS V0) j := by
  rw [mulf_apply, hostDivf_apply, addf_apply, broadcastInDim_scalar_apply, broadcastInDim_scalar_apply,
    broadcastInDim_scalar_apply, addf_apply, constant_apply, constant_apply, v37_apply, v38_apply]
  rfl

/-- The product encᵀ·x at (j, k) is xᵀ·enc at (k, j). -/
theorem dwT_apply (j : Fin 8192) (k : Fin 256) :
    Host.dotGeneral (F := Ideal) (φ₁ := .f32) (φ₂ := .f32) dot_S8192x8192_S8192x256_S8192x256_1_0_0_1_n_n none
        (transpose S8192x8192 [1, 0] (res_main_v28 V0 : FVec Ideal S8192x8192 .f32) transposes_S8192x8192_S8192x8192_1_0)
        (res_main_v0 V0 : FVec Ideal S8192x256 .f32) (ix2 j k)
      = VQ.dwK (VQ.flatX (XA V0)) (VQ.encM (XA V0) (EA V0)) k j := by
  rw [dot_apply, ← VQ.dwR_eq_dwK]
  exact Finset.sum_congr rfl fun r _ => by rw [transpose_apply', v28_apply, v0_apply]

/-- The updated code vectors: (0.99·0 + 0.01·encᵀx) over the cluster size. -/
theorem v56_apply (j : Fin 8192) (k : Fin 256) :
    res_main_v56 V0 (ix2 j k) = VQ.ewR (CS V0) (VQ.dwK (VQ.flatX (XA V0)) (VQ.encM (XA V0) (EA V0))) j k := by
  unfold res_main_v56
  rw [hostDivf_apply, addf_apply, mulf_apply, mulf_apply, broadcastInDim_scalar_apply, broadcastInDim_scalar_apply,
    broadcastInDim_scalar_apply, constant_apply, constant_apply, constant_apply, bcast_col_apply, v45_apply, dwT_apply]
  rfl

/-- Quantized minus input, in the input's shape. -/
theorem v64_apply (b : Fin 8) (s : Fin 1024) (k : Fin 256) :
    res_main_v64 V0 (ix3 b s k) = VQ.diff (VQ.codes (EA V0)) (VQ.flatX (XA V0)) (VQ.encM (XA V0) (EA V0)) (VQ.batchRow b s) k := by
  unfold res_main_v64
  rw [subf_apply, v30_apply]
  show _ - XA V0 (ix3 b s k) = _ - XA V0 (ix3 (VQ.rowB (VQ.batchRow b s)) (VQ.rowS (VQ.batchRow b s)) k)
  rw [VQ.rowB_batchRow, VQ.rowS_batchRow]

theorem v68_eq_v64 : res_main_v68 V0 = res_main_v64 V0 := rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The mean squared error. -/
theorem mse_eq :
    Host.divf (Host.reduceAdd (mulf (res_main_v64 V0) (res_main_v64 V0)) (constant S_ .f32 0x00000000#32) reducesTo_S8x1024x256_S_d0_1_2 h_S_) (constant S_ .f32 0x4A000000#32)
      = fun _ => VQ.mse (VQ.sqerr (VQ.codes (EA V0)) (VQ.flatX (XA V0)) (VQ.encM (XA V0) (EA V0))) := by
  funext i
  rw [hostDivf_apply, hostReduceAdd_apply,
    Ideal.hostReduceAdd_total reducesTo_S8x1024x256_S_d0_1_2 (fun b => b.elim0), constant_apply, constant_apply,
    Ideal.ofBits_zero_f32, zero_add, sum_idx3]
  -- the squared error's sum over the 8192 rows, batch by batch
  have hs : VQ.sqerr (VQ.codes (EA V0)) (VQ.flatX (XA V0)) (VQ.encM (XA V0) (EA V0))
      = ∑ b : Fin 8, ∑ s : Fin 1024, ∑ k : Fin 256,
          VQ.diff (VQ.codes (EA V0)) (VQ.flatX (XA V0)) (VQ.encM (XA V0) (EA V0)) (VQ.batchRow b s) k
            * VQ.diff (VQ.codes (EA V0)) (VQ.flatX (XA V0)) (VQ.encM (XA V0) (EA V0)) (VQ.batchRow b s) k :=
    VQ.sum_rows_batches _
  rw [hs]
  refine congrArg (fun t => Ideal.div t (Ideal.ofBits .f32 0x4A000000#32)) ?_
  exact Finset.sum_congr rfl fun b _ => Finset.sum_congr rfl fun s _ => Finset.sum_congr rfl fun k _ => by
    rw [mulf_apply, v64_apply]

/-- The regulariser. -/
theorem reg_eq :
    Host.reduceAdd (mulf (res_main_v56 V0) (res_main_v56 V0)) (constant S_ .f32 0x00000000#32) reducesTo_S8192x256_S_d0_1 h_S_
      = fun _ => VQ.regR (CS V0) (VQ.dwK (VQ.flatX (XA V0)) (VQ.encM (XA V0) (EA V0))) := by
  funext i
  rw [hostReduceAdd_apply, Ideal.hostReduceAdd_total reducesTo_S8192x256_S_d0_1 (fun b => b.elim0), constant_apply,
    Ideal.ofBits_zero_f32, zero_add, sum_idx2]
  exact Finset.sum_congr rfl fun j _ => Finset.sum_congr rfl fun k _ => by
    rw [mulf_apply, v56_apply]

/-- The second result: the loss. -/
theorem loss_eq :
    addf (addf (addf (Host.divf (Host.reduceAdd (mulf (res_main_v68 V0) (res_main_v68 V0)) (constant S_ .f32 0x00000000#32) reducesTo_S8x1024x256_S_d0_1_2 h_S_) (constant S_ .f32 0x4A000000#32)) (mulf (constant S_ .f32 0x3E800000#32) (Host.divf (Host.reduceAdd (mulf (res_main_v64 V0) (res_main_v64 V0)) (constant S_ .f32 0x00000000#32) reducesTo_S8x1024x256_S_d0_1_2 h_S_) (constant S_ .f32 0x4A000000#32)))) (Host.reduceAdd (mulf (res_main_v56 V0) (res_main_v56 V0)) (constant S_ .f32 0x00000000#32) reducesTo_S8192x256_S_d0_1 h_S_)) (mulf (constant S_ .f32 0x3F4CCCCD#32) (addf (Host.negf (Host.reduceAdd (mulf (res_main_v76 V0) (Host.log (addf (res_main_v76 V0) (broadcastInDim S8192 ![] bcast_S_S8192 (constant S_ .f32 0x2EDBE6FF#32))))) (constant S_ .f32 0x00000000#32) reducesTo_S8192_S_d0 h_S_)) (Host.negf (Host.reduceAdd (mulf (res_main_v86 V0) (Host.log (addf (res_main_v86 V0) (broadcastInDim S8192 ![] bcast_S_S8192 (constant S_ .f32 0x2EDBE6FF#32))))) (constant S_ .f32 0x00000000#32) reducesTo_S8192_S_d0 h_S_))))
      = fun _ => VQ.lossVal (XA V0) (EA V0) := by
  rw [v68_eq_v64, mse_eq, reg_eq, ent_eq, div_eq]
  rfl

end Cert.ReferenceIdeal.RefValue

end
-- ==== Proof.lean ====
/-
  The soft-assignment step of a vector quantizer, fused into one kernel on a grid of 32 row tiles, against its
  plain array reference: the proof of `Cert.Claim`.

  Both programs compute, for 8192 rows x and a codebook e of 8192 code vectors, the soft assignments
  enc = softmax over the codes of −‖x − e_j‖², the quantized rows enc·e, the straight-through output
  x + (enc·e − x), and two scalars (a loss and a perplexity) from the column sums of enc, the products xᵀ·enc and
  the total squared error. The kernel takes the softmax of 2·x·e_j − ‖e_j‖² (the row's own ‖x‖² is constant along
  the codes) and multiplies by the reciprocal of the sum, accumulates the statistics tile by tile in scratch
  memory, and arranges the regulariser as Σ_j (Σ_k w_kj²)/(c_j·c_j) where the reference has Σ_{j,k} (w_kj/c_j)²;
  over the extended reals these agree on real inputs, which the precondition (every input entry finite) provides.

  The three frames: the kernel program at both instances by a run of its body in each of its three control cases
  (first tile, middle tiles, last tile) under an invariant that tracks the five scratch buffers from point to point;
  the reference by its run with the results dropped. The sanctioned-idealization claim has no conjunct.
-/
import proofs.«135943_g45775761441265_cont_8to1_c_906_25_alg».proof.Defs
import proofs.«135943_g45775761441265_cont_8to1_c_906_25_alg».proof.Proof.Gen.Kernel
import proofs.«135943_g45775761441265_cont_8to1_c_906_25_alg».proof.Proof.Gen.KernelIdeal
import proofs.«135943_g45775761441265_cont_8to1_c_906_25_alg».proof.Proof.Gen.ReferenceIdeal
import proofs.«135943_g45775761441265_cont_8to1_c_906_25_alg».proof.Proof.Gen.Pre_finite_inputs
import proofs.«135943_g45775761441265_cont_8to1_c_906_25_alg».proof.Proof.Gen.ReferenceIdeal.Run
import proofs.«135943_g45775761441265_cont_8to1_c_906_25_alg».proof.Proof.Bits.Frame
import proofs.«135943_g45775761441265_cont_8to1_c_906_25_alg».proof.Proof.Ideal.Value
import proofs.«135943_g45775761441265_cont_8to1_c_906_25_alg».proof.Proof.Ref.Loss

noncomputable section

namespace Cert.Proof

open Idealize.ShloMosaic Idealize.ShloMosaic.TcCoe Idealize.SL.Sem

/-- The kernel program read at the word level runs to the end and leaves its arguments as they were. -/
theorem frame_k : Cert.frame_Kernel (hKernel := Cert.Kernel.Gen.facts) (hPre_finite_inputs := Cert.Pre_finite_inputs.Gen.facts) :=
  fun m ρ _ => Cert.Kernel.Hand.frame m ρ

/-- The same program read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the three results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.2.1, (h c).2.2.2.2⟩)
    (Cert.ReferenceIdeal.Value.run (F := Ideal) m ρ)

/-- From memories that agree on the two arguments both programs end at the same three results: the straight-through
    output, the loss and the perplexity of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => VQ.outArr (Cert.KernelIdeal.Hand.xaOf m c) (Cert.KernelIdeal.Hand.eaOf m c),
    fun c => fun _ => VQ.lossVal (Cert.KernelIdeal.Hand.xaOf m c) (Cert.KernelIdeal.Hand.eaOf m c),
    fun c => fun _ => VQ.perpVal (Cert.KernelIdeal.Hand.xaOf m c) (Cert.KernelIdeal.Hand.eaOf m c),
    Cert.KernelIdeal.Hand.kernel_run m ρ hpre, ?_⟩
  refine (θ_run Cert.ReferenceIdeal.defs _ _).mono (fun _ h c => ?_) (Cert.ReferenceIdeal.Value.run (F := Ideal) m' ρ')
  obtain ⟨h1, h2, h3, h4, h5⟩ := h c
  have e0 : Cert.ReferenceIdeal.RefValue.XA (StableHlo.launchContents m' c) = Cert.KernelIdeal.Hand.xaOf m c := (hagree c).1
  have e1 : Cert.ReferenceIdeal.RefValue.EA (StableHlo.launchContents m' c) = Cert.KernelIdeal.Hand.eaOf m c := (hagree c).2
  refine ⟨h1.trans ?_, h2.trans ?_, h3.trans ?_, h4, h5⟩
  · rw [Cert.ReferenceIdeal.RefValue.out_eq, e0, e1]
  · rw [Cert.ReferenceIdeal.RefValue.loss_eq, e0, e1]; rfl
  · rw [Cert.ReferenceIdeal.RefValue.perp_eq, e0, e1]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
